-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x625000 : Shape := ⟨2, ![2, 625000]⟩
abbrev S625000 : Shape := ⟨1, ![625000]⟩
abbrev S100000 : Shape := ⟨1, ![100000]⟩
abbrev S28x128 : Shape := ⟨2, ![28, 128]⟩
abbrev S4x128 : Shape := ⟨2, ![4, 128]⟩
abbrev S4x128x128 : Shape := ⟨3, ![4, 128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1x625000 : Shape := ⟨2, ![1, 625000]⟩

class Facts : Prop where
  bcast_S_S28x128 : S_.BroadcastsInDim S28x128 (![] : Fin 0 → Fin S28x128.rank)
  reducesTo_S28x128_S_d0_1 : S28x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S100000x1 : S_.BroadcastsInDim S100000x1 (![] : Fin 0 → Fin S100000x1.rank)
  reducesTo_S100000x1_S_d0_1 : S100000x1.ReducesTo [0, 1] S_
  slices_S2x625000_S1x625000_0_0 : S2x625000.Slices ![0, 0] S1x625000
  shapeCasts_S1x625000_S625000 : S1x625000.ShapeCasts S625000
  bcast_S_S625000 : S_.BroadcastsInDim S625000 (![] : Fin 0 → Fin S625000.rank)
  reducesTo_S625000_S_d0 : S625000.ReducesTo [0] S_

variable [Facts]

def fn_part4 {F : FTy → Type} [FloatOps F] (main_arg1 : IVec S2x625000 32) (main_v65 : IVec S_ 1) (main_v67 : IVec S625000 32) (main_c_25 : IVec S_ 32) : IVec S_ 1 :=
  let main_v68 : IVec S625000 32 := broadcastInDim S625000 ![] bcast_S_S625000 main_c_25
  let main_v69 : IVec S625000 1 := cmpi .sge main_v67 main_v68
  let main_v70 : IVec S1x625000 32 := (extractStridedSlice S1x625000 ![0, 0] · slices_S2x625000_S1x625000_0_0) main_arg1
  let main_v71 : IVec S625000 32 := shapeCast S625000 main_v70 shapeCasts_S1x625000_S625000
  let main_c_26 : IVec S_ 32 := constantI S_ 32 100000#32
  let main_v72 : IVec S625000 32 := broadcastInDim S625000 ![] bcast_S_S625000 main_c_26
  let main_v73 : IVec S625000 1 := cmpi .slt main_v71 main_v72
  let main_v74 : IVec S625000 1 := andi main_v69 main_v73
  let main_c_27 : IVec S_ 1 := constantI S_ 1 1#1
  let main_v75 : IVec S_ 1 := (fun x v => Host.reduce IntOp.andi x v reducesTo_S625000_S_d0 h_S_) main_v74 main_c_27
  let main_v76 : IVec S_ 1 := andi main_v65 main_v75
  main_v76

def fn_part3 {F : FTy → Type} [FloatOps F] (main_arg0 : IVec S100000x1 32) (main_arg1 : IVec S2x625000 32) (main_arg15 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S100000x1 32 := broadcastInDim S100000x1 ![] bcast_S_S100000x1 main_c_22
  let main_v60 : IVec S100000x1 1 := cmpi .sge main_arg0 main_v59
  let main_c_23 : IVec S_ 32 := constantI S_ 32 28#32
  let main_v61 : IVec S100000x1 32 := broadcastInDim S100000x1 ![] bcast_S_S100000x1 main_c_23
  let main_v62 : IVec S100000x1 1 := cmpi .slt main_arg0 main_v61
  let main_v63 : IVec S100000x1 1 := andi main_v60 main_v62
  let main_c_24 : IVec S_ 1 := constantI S_ 1 1#1
  let main_v64 : IVec S_ 1 := (fun x v => Host.reduce IntOp.andi x v reducesTo_S100000x1_S_d0_1 h_S_) main_v63 main_c_24
  let main_v65 : IVec S_ 1 := andi main_v58 main_v64
  let main_v66 : IVec S1x625000 32 := (extractStridedSlice S1x625000 ![0, 0] · slices_S2x625000_S1x625000_0_0) main_arg1
  let main_v67 : IVec S625000 32 := shapeCast S625000 main_v66 shapeCasts_S1x625000_S625000
  let main_c_25 : IVec S_ 32 := constantI S_ 32 0#32
  fn_part4 (F := F) main_arg1 main_v65 main_v67 main_c_25

def fn_part2 {F : FTy → Type} [FloatOps F] (main_arg0 : IVec S100000x1 32) (main_arg1 : IVec S2x625000 32) (main_arg11 : FVec F S64 .f32) (main_arg12 : FVec F S64x32 .f32) (main_arg13 : FVec F S32 .f32) (main_arg14 : FVec F S32x1 .f32) (main_arg15 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg12
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg13
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg14
  let main_cst_18 : FVec F S_ .f32 := constant S_ .f32 0x7F800000#32
  let main_v50 : FVec F S32x1 .f32 := broadcastInDim S32x1 ![] bcast_S_S32x1 main_cst_18
  fn_part3 (F := F) main_arg0 main_arg1 main_arg15 main_v48 main_v49 main_v50

def fn_part1 {F : FTy → Type} [FloatOps F] (main_arg0 : IVec S100000x1 32) (main_arg1 : IVec S2x625000 32) (main_arg8 : FVec F S4x128x128 .f32) (main_arg9 : FVec F S4x128 .f32) (main_arg10 : FVec F S128x64 .f32) (main_arg11 : FVec F S64 .f32) (main_arg12 : FVec F S64x32 .f32) (main_arg13 : FVec F S32 .f32) (main_arg14 : FVec F S32x1 .f32) (main_arg15 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg8
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg9
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S128x64 .f32 := Host.absf main_arg10
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg0 main_arg1 main_arg11 main_arg12 main_arg13 main_arg14 main_arg15 main_v33

def fn {F : FTy → Type} [FloatOps F] (main_arg0 : IVec S100000x1 32) (main_arg1 : IVec S2x625000 32) (main_arg2 : IVec S625000 32) (main_arg3 : IVec S100000 32) (main_arg4 : FVec F S28x128 .f32) (main_arg5 : FVec F S4x128 .f32) (main_arg6 : FVec F S4x128x128 .f32) (main_arg7 : FVec F S4x128 .f32) (main_arg8 : FVec F S4x128x128 .f32) (main_arg9 : FVec F S4x128 .f32) (main_arg10 : FVec F S128x64 .f32) (main_arg11 : FVec F S64 .f32) (main_arg12 : FVec F S64x32 .f32) (main_arg13 : FVec F S32 .f32) (main_arg14 : FVec F S32x1 .f32) (main_arg15 : FVec F S1 .f32) : IVec S_ 1 :=
  let main_v0 : FVec F S28x128 .f32 := Host.absf main_arg4
  let main_cst : FVec F S_ .f32 := constant S_ .f32 0x7F800000#32
  let main_v1 : FVec F S28x128 .f32 := broadcastInDim S28x128 ![] bcast_S_S28x128 main_cst
  let main_v2 : IVec S28x128 1 := cmpf .olt main_v0 main_v1
  let main_c : IVec S_ 1 := constantI S_ 1 1#1
  let main_v3 : IVec S_ 1 := (fun x v => Host.reduce IntOp.andi x v reducesTo_S28x128_S_d0_1 h_S_) main_v2 main_c
  let main_v4 : FVec F S4x128 .f32 := Host.absf main_arg5
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128x128 .f32 := Host.absf main_arg6
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg7
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg0 main_arg1 main_arg8 main_arg9 main_arg10 main_arg11 main_arg12 main_arg13 main_arg14 main_arg15 main_v13 main_v16
-- ==== Kernel.lean ====
abbrev S100000x1 : Shape := ⟨2, ![100000, 1]⟩
abbrev S2x625000 : Shape := ⟨2, ![2, 625000]⟩
abbrev S625000 : Shape := ⟨1, ![625000]⟩
abbrev S100000 : Shape := ⟨1, ![100000]⟩
abbrev S28x128 : Shape := ⟨2, ![28, 128]⟩
abbrev S4x128 : Shape := ⟨2, ![4, 128]⟩
abbrev S4x128x128 : Shape := ⟨3, ![4, 128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x128 : Shape := ⟨2, ![100000, 128]⟩
abbrev S5000x1 : Shape := ⟨2, ![5000, 1]⟩
abbrev S5000x128 : Shape := ⟨2, ![5000, 128]⟩
abbrev S5000x28 : Shape := ⟨2, ![5000, 28]⟩
abbrev S1x625000 : Shape := ⟨2, ![1, 625000]⟩
abbrev S_ : Shape := ⟨0, ![]⟩
abbrev S625000x1 : Shape := ⟨2, ![625000, 1]⟩
abbrev S1x1 : Shape := ⟨2, ![1, 1]⟩
abbrev S625000x128 : Shape := ⟨2, ![625000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S1x64 : Shape := ⟨2, ![1, 64]⟩
abbrev S1x32 : Shape := ⟨2, ![1, 32]⟩
abbrev S512x1 : Shape := ⟨2, ![512, 1]⟩
abbrev S512x64 : Shape := ⟨2, ![512, 64]⟩
abbrev S512x32 : Shape := ⟨2, ![512, 32]⟩

abbrev nBuf : Space → Nat
  | .hbm => 181
  | .vmem => 53
  | .smem => 0
  | _ => 0

abbrev hbmTy0_0 (i : Nat) : BufTy := match i % 128 with
  | 0 => ⟨S100000x1, .i32⟩
  | 1 => ⟨S2x625000, .i32⟩
  | 2 => ⟨S625000, .i32⟩
  | 3 => ⟨S100000, .i32⟩
  | 4 => ⟨S28x128, .f32⟩
  | 5 => ⟨S4x128, .f32⟩
  | 6 => ⟨S4x128x128, .f32⟩
  | 7 => ⟨S4x128, .f32⟩
  | 8 => ⟨S4x128x128, .f32⟩
  | 9 => ⟨S4x128, .f32⟩
  | 10 => ⟨S128x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S100000x128, .f32⟩
  | 17 => ⟨S1x625000, .i32⟩
  | 18 => ⟨S625000, .i32⟩
  | 19 => ⟨S1x625000, .i32⟩
  | 20 => ⟨S625000, .i32⟩
  | 21 => ⟨S_, .i32⟩
  | 22 => ⟨S625000, .i32⟩
  | 23 => ⟨S625000, .i1⟩
  | 24 => ⟨S_, .i32⟩
  | 25 => ⟨S625000, .i32⟩
  | 26 => ⟨S625000, .i32⟩
  | 27 => ⟨S625000, .i32⟩
  | 28 => ⟨S625000x1, .i32⟩
  | 29 => ⟨S1, .i32⟩
  | 30 => ⟨S_, .i32⟩
  | 31 => ⟨S625000x1, .i32⟩
  | 32 => ⟨S625000x1, .i1⟩
  | 33 => ⟨S1x1, .i32⟩
  | 34 => ⟨S625000x1, .i32⟩
  | 35 => ⟨S625000x1, .i1⟩
  | 36 => ⟨S625000x1, .i1⟩
  | 37 => ⟨S_, .i1⟩
  | 38 => ⟨S625000, .i1⟩
  | 39 => ⟨S625000x128, .f32⟩
  | 40 => ⟨S625000x128, .i1⟩
  | 41 => ⟨S_, .f32⟩
  | 42 => ⟨S625000x128, .f32⟩
  | 43 => ⟨S625000x128, .f32⟩
  | 44 => ⟨S_, .f32⟩
  | 45 => ⟨S100000x128, .f32⟩
  | 46 => ⟨S625000x1, .i32⟩
  | 47 => ⟨S100000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S1x128, .f32⟩
  | 58 => ⟨S100000x128, .f32⟩
  | 59 => ⟨S_, .i32⟩
  | 60 => ⟨S625000, .i32⟩
  | 61 => ⟨S625000, .i1⟩
  | 62 => ⟨S_, .i32⟩
  | 63 => ⟨S625000, .i32⟩
  | 64 => ⟨S625000, .i32⟩
  | 65 => ⟨S625000, .i32⟩
  | 66 => ⟨S625000x1, .i32⟩
  | 67 => ⟨S1, .i32⟩
  | 68 => ⟨S_, .i32⟩
  | 69 => ⟨S625000x1, .i32⟩
  | 70 => ⟨S625000x1, .i1⟩
  | 71 => ⟨S1x1, .i32⟩
  | 72 => ⟨S625000x1, .i32⟩
  | 73 => ⟨S625000x1, .i1⟩
  | 74 => ⟨S625000x1, .i1⟩
  | 75 => ⟨S_, .i1⟩
  | 76 => ⟨S625000, .i1⟩
  | 77 => ⟨S625000x128, .f32⟩
  | 78 => ⟨S625000x128, .i1⟩
  | 79 => ⟨S_, .f32⟩
  | 80 => ⟨S625000x128, .f32⟩
  | 81 => ⟨S625000x128, .f32⟩
  | 82 => ⟨S_, .f32⟩
  | 83 => ⟨S100000x128, .f32⟩
  | 84 => ⟨S625000x1, .i32⟩
  | 85 => ⟨S100000x128, .f32⟩
  | 86 => ⟨S1x128x128, .f32⟩
  | 87 => ⟨S128x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S1x128, .f32⟩
  | 96 => ⟨S100000x128, .f32⟩
  | 97 => ⟨S_, .i32⟩
  | 98 => ⟨S625000, .i32⟩
  | 99 => ⟨S625000, .i1⟩
  | 100 => ⟨S_, .i32⟩
  | 101 => ⟨S625000, .i32⟩
  | 102 => ⟨S625000, .i32⟩
  | 103 => ⟨S625000, .i32⟩
  | 104 => ⟨S625000x1, .i32⟩
  | 105 => ⟨S1, .i32⟩
  | 106 => ⟨S_, .i32⟩
  | 107 => ⟨S625000x1, .i32⟩
  | 108 => ⟨S625000x1, .i1⟩
  | 109 => ⟨S1x1, .i32⟩
  | 110 => ⟨S625000x1, .i32⟩
  | 111 => ⟨S625000x1, .i1⟩
  | 112 => ⟨S625000x1, .i1⟩
  | 113 => ⟨S_, .i1⟩
  | 114 => ⟨S625000, .i1⟩
  | 115 => ⟨S625000x128, .f32⟩
  | 116 => ⟨S625000x128, .i1⟩
  | 117 => ⟨S_, .f32⟩
  | 118 => ⟨S625000x128, .f32⟩
  | 119 => ⟨S625000x128, .f32⟩
  | 120 => ⟨S_, .f32⟩
  | 121 => ⟨S100000x128, .f32⟩
  | 122 => ⟨S625000x1, .i32⟩
  | 123 => ⟨S100000x128, .f32⟩
  | 124 => ⟨S1x128x128, .f32⟩
  | 125 => ⟨S128x128, .f32⟩
  | 126 => ⟨S1x128, .f32⟩
  | 127 => ⟨S128, .f32⟩
  | _ => ⟨S100000x1, .i32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128, .f32⟩
  | 5 => ⟨S1x128, .f32⟩
  | 6 => ⟨S100000x128, .f32⟩
  | 7 => ⟨S_, .i32⟩
  | 8 => ⟨S625000, .i32⟩
  | 9 => ⟨S625000, .i1⟩
  | 10 => ⟨S_, .i32⟩
  | 11 => ⟨S625000, .i32⟩
  | 12 => ⟨S625000, .i32⟩
  | 13 => ⟨S625000, .i32⟩
  | 14 => ⟨S625000x1, .i32⟩
  | 15 => ⟨S1, .i32⟩
  | 16 => ⟨S_, .i32⟩
  | 17 => ⟨S625000x1, .i32⟩
  | 18 => ⟨S625000x1, .i1⟩
  | 19 => ⟨S1x1, .i32⟩
  | 20 => ⟨S625000x1, .i32⟩
  | 21 => ⟨S625000x1, .i1⟩
  | 22 => ⟨S625000x1, .i1⟩
  | 23 => ⟨S_, .i1⟩
  | 24 => ⟨S625000, .i1⟩
  | 25 => ⟨S625000x128, .f32⟩
  | 26 => ⟨S625000x128, .i1⟩
  | 27 => ⟨S_, .f32⟩
  | 28 => ⟨S625000x128, .f32⟩
  | 29 => ⟨S625000x128, .f32⟩
  | 30 => ⟨S_, .f32⟩
  | 31 => ⟨S100000x128, .f32⟩
  | 32 => ⟨S625000x1, .i32⟩
  | 33 => ⟨S100000x128, .f32⟩
  | 34 => ⟨S1x128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S100000x128, .f32⟩
  | 45 => ⟨S_, .f32⟩
  | 46 => ⟨S512x128, .f32⟩
  | 47 => ⟨S100000x1, .i32⟩
  | 48 => ⟨S512x128, .f32⟩
  | 49 => ⟨S1x64, .f32⟩
  | 50 => ⟨S1x32, .f32⟩
  | 51 => ⟨S1x1, .f32⟩
  | 52 => ⟨S512x1, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | .local _ .vmem, ⟨0, _⟩ => ⟨S5000x1, .i32⟩
  | .local _ .vmem, ⟨1, _⟩ => ⟨S5000x1, .i32⟩
  | .local _ .vmem, ⟨2, _⟩ => ⟨S28x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S512x128, .f32⟩
  | .local _ .vmem, ⟨46, _⟩ => ⟨S128x64, .f32⟩
  | .local _ .vmem, ⟨47, _⟩ => ⟨S1x64, .f32⟩
  | .local _ .vmem, ⟨48, _⟩ => ⟨S64x32, .f32⟩
  | .local _ .vmem, ⟨49, _⟩ => ⟨S1x32, .f32⟩
  | .local _ .vmem, ⟨50, _⟩ => ⟨S32x1, .f32⟩
  | .local _ .vmem, ⟨51, _⟩ => ⟨S1x1, .f32⟩
  | .local _ .vmem, ⟨52, _⟩ => ⟨S512x1, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v20 : Ref sig .tc := ⟨.hbm, 81, rfl⟩
abbrev main_cst_0 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v35 : Ref sig .tc := ⟨.hbm, 119, rfl⟩
abbrev main_cst_1 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v50 : Ref sig .tc := ⟨.hbm, 157, rfl⟩
abbrev main_cst_2 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_cst_3 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  inb_S5000x1_S5000x1_0_0 : ∀ a, (![0, 0] : Fin 2 → Nat) a + S5000x1.size a ≤ S5000x1.size a
  h_S5000x1 : 0 < S5000x1.numel
  iota_S5000x28_d1_w32 : S5000x28.Iotas .tc 32 [1]
  broadcasts_S5000x1_S5000x28 : S5000x1.Broadcasts S5000x28
  natLt_1_32 : 1 < 32
  bitsLt_bf16_f32 : FTy.bits .bf16 < FTy.bits .f32
  inb_S28x128_S28x128_0_0 : ∀ a, (![0, 0] : Fin 2 → Nat) a + S28x128.size a ≤ S28x128.size a
  h_S28x128 : 0 < S28x128.numel
  inb_S5000x128_S5000x128_0_0 : ∀ a, (![0, 0] : Fin 2 → Nat) a + S5000x128.size a ≤ S5000x128.size a
  h_S5000x128 : 0 < S5000x128.numel
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  reducesTo_S625000x1_S625000_d1 : S625000x1.ReducesTo [1] S625000
  h_S_ : 0 < S_.numel
  bcast_S625000_S625000x128_0 : S625000.BroadcastsInDim S625000x128 (![0] : Fin 1 → Fin S625000x128.rank)
  bcast_S_S625000x128 : S_.BroadcastsInDim S625000x128 (![] : Fin 0 → Fin S625000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S64_S1x64 : S64.ShapeCasts S1x64
  shapeCasts_S32_S1x32 : S32.ShapeCasts S1x32
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S5000x28_S28x128_S5000x128_1_0_0_1_n_n_wf : DotDims.WF S5000x28 S28x128 S5000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x128_S128x64_S512x64_1_0_0_1_n_n_wf : DotDims.WF S512x128 S128x64 S512x64 [1] [0] [0] [1] [] []
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .i32 = 32 ∨ (Rect.block (s := S100000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S28x128.size a ≤ S28x128.size a
  hwx0_1 : ∀ i : grid0.Coords, EltTy.bits .f32 = 32 ∨ (Rect.block (s := S28x128) S28x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x32.size a ≤ S64x32.size a
  hwx5_3 : ∀ i : grid5.Coords, EltTy.bits .f32 = 32 ∨ (Rect.block (s := S64x32) S64x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x1.size a ≤ S32x1.size a
  hwx5_5 : ∀ i : grid5.Coords, EltTy.bits .f32 = 32 ∨ (Rect.block (s := S32x1) S32x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x1.size a ≤ S512x1.size a
  hwx5_7 : ∀ i : grid5.Coords, EltTy.bits .f32 = 32 ∨ (Rect.block (s := S512x1) S512x1.size (cc5_transform_7 i) (hinb5_7 i)).WholeWords (EltTy.packing .f32)

variable [Facts₀]

def dot_S5000x28_S28x128_S5000x128_1_0_0_1_n_n : DotDims S5000x28 S28x128 S5000x128 where
  lhsContracting := [1]
  rhsContracting := [0]
  lhsNonContracting := [0]
  rhsNonContracting := [1]
  lhsBatch := []
  rhsBatch := []
  wf := dot_S5000x28_S28x128_S5000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S28x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v38) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v49) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v53) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v64) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v67) S512x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg12) S64x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg14) S32x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v70) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v71) S512x1.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x625000 : Shape := ⟨2, ![2, 625000]⟩
abbrev S625000 : Shape := ⟨1, ![625000]⟩
abbrev S100000 : Shape := ⟨1, ![100000]⟩
abbrev S28x128 : Shape := ⟨2, ![28, 128]⟩
abbrev S4x128 : Shape := ⟨2, ![4, 128]⟩
abbrev S4x128x128 : Shape := ⟨3, ![4, 128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100000x128 : Shape := ⟨2, ![100000, 128]⟩
abbrev S625000x1 : Shape := ⟨2, ![625000, 1]⟩
abbrev S625000x128 : Shape := ⟨2, ![625000, 128]⟩
abbrev S1x625000 : Shape := ⟨2, ![1, 625000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S512x64 : Shape := ⟨2, ![512, 64]⟩
abbrev S1x64 : Shape := ⟨2, ![1, 64]⟩
abbrev S512x32 : Shape := ⟨2, ![512, 32]⟩
abbrev S1x32 : Shape := ⟨2, ![1, 32]⟩
abbrev S512x1 : Shape := ⟨2, ![512, 1]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S100000x1, .i32⟩
  | 1 => ⟨S2x625000, .i32⟩
  | 2 => ⟨S625000, .i32⟩
  | 3 => ⟨S100000, .i32⟩
  | 4 => ⟨S28x128, .f32⟩
  | 5 => ⟨S4x128, .f32⟩
  | 6 => ⟨S4x128x128, .f32⟩
  | 7 => ⟨S4x128, .f32⟩
  | 8 => ⟨S4x128x128, .f32⟩
  | 9 => ⟨S4x128, .f32⟩
  | 10 => ⟨S128x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S100000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S_, .i32⟩
  | 27 => ⟨S625000, .i32⟩
  | 28 => ⟨S625000, .i1⟩
  | 29 => ⟨S_, .i32⟩
  | 30 => ⟨S625000, .i32⟩
  | 31 => ⟨S625000, .i32⟩
  | 32 => ⟨S625000, .i32⟩
  | 33 => ⟨S625000x1, .i32⟩
  | 34 => ⟨S625000x128, .f32⟩
  | 35 => ⟨S1x625000, .i32⟩
  | 36 => ⟨S625000, .i32⟩
  | 37 => ⟨S1x625000, .i32⟩
  | 38 => ⟨S625000, .i32⟩
  | 39 => ⟨S_, .i32⟩
  | 40 => ⟨S625000, .i32⟩
  | 41 => ⟨S625000, .i1⟩
  | 42 => ⟨S_, .i32⟩
  | 43 => ⟨S625000, .i32⟩
  | 44 => ⟨S625000, .i32⟩
  | 45 => ⟨S625000, .i32⟩
  | 46 => ⟨S625000x1, .i32⟩
  | 47 => ⟨S625000x128, .f32⟩
  | 48 => ⟨S_, .f32⟩
  | 49 => ⟨S100000x128, .f32⟩
  | 50 => ⟨S625000x1, .i32⟩
  | 51 => ⟨S100000x128, .f32⟩
  | 52 => ⟨S100000x128, .f32⟩
  | 53 => ⟨S1x128x128, .f32⟩
  | 54 => ⟨S128x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S1x128x128, .f32⟩
  | 65 => ⟨S128x128, .f32⟩
  | 66 => ⟨S100000x128, .f32⟩
  | 67 => ⟨S1x128, .f32⟩
  | 68 => ⟨S128, .f32⟩
  | 69 => ⟨S1x128, .f32⟩
  | 70 => ⟨S100000x128, .f32⟩
  | 71 => ⟨S100000x128, .f32⟩
  | 72 => ⟨S_, .i32⟩
  | 73 => ⟨S625000, .i32⟩
  | 74 => ⟨S625000, .i1⟩
  | 75 => ⟨S_, .i32⟩
  | 76 => ⟨S625000, .i32⟩
  | 77 => ⟨S625000, .i32⟩
  | 78 => ⟨S625000, .i32⟩
  | 79 => ⟨S625000x1, .i32⟩
  | 80 => ⟨S625000x128, .f32⟩
  | 81 => ⟨S_, .f32⟩
  | 82 => ⟨S100000x128, .f32⟩
  | 83 => ⟨S625000x1, .i32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S_, .i32⟩
  | 106 => ⟨S625000, .i32⟩
  | 107 => ⟨S625000, .i1⟩
  | 108 => ⟨S_, .i32⟩
  | 109 => ⟨S625000, .i32⟩
  | 110 => ⟨S625000, .i32⟩
  | 111 => ⟨S625000, .i32⟩
  | 112 => ⟨S625000x1, .i32⟩
  | 113 => ⟨S625000x128, .f32⟩
  | 114 => ⟨S_, .f32⟩
  | 115 => ⟨S100000x128, .f32⟩
  | 116 => ⟨S625000x1, .i32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x1, .i32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .i32⟩
  | 11 => ⟨S625000, .i32⟩
  | 12 => ⟨S625000, .i1⟩
  | 13 => ⟨S_, .i32⟩
  | 14 => ⟨S625000, .i32⟩
  | 15 => ⟨S625000, .i32⟩
  | 16 => ⟨S625000, .i32⟩
  | 17 => ⟨S625000x1, .i32⟩
  | 18 => ⟨S625000x128, .f32⟩
  | 19 => ⟨S_, .f32⟩
  | 20 => ⟨S100000x128, .f32⟩
  | 21 => ⟨S625000x1, .i32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S1x128x128, .f32⟩
  | 36 => ⟨S128x128, .f32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S512x128, .f32⟩
  | 45 => ⟨S100000x1, .i32⟩
  | 46 => ⟨S512x128, .f32⟩
  | 47 => ⟨S512x64, .f32⟩
  | 48 => ⟨S1x64, .f32⟩
  | 49 => ⟨S512x64, .f32⟩
  | 50 => ⟨S512x64, .f32⟩
  | 51 => ⟨S_, .f32⟩
  | 52 => ⟨S512x64, .f32⟩
  | 53 => ⟨S512x64, .f32⟩
  | 54 => ⟨S512x32, .f32⟩
  | 55 => ⟨S1x32, .f32⟩
  | 56 => ⟨S512x32, .f32⟩
  | 57 => ⟨S512x32, .f32⟩
  | 58 => ⟨S_, .f32⟩
  | 59 => ⟨S512x32, .f32⟩
  | 60 => ⟨S512x32, .f32⟩
  | 61 => ⟨S512x1, .f32⟩
  | 62 => ⟨S1x1, .f32⟩
  | 63 => ⟨S512x1, .f32⟩
  | 64 => ⟨S512x1, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call0_cst : Ref sig .tc := ⟨.hbm, 61, rfl⟩
abbrev main_call0_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_5 : Ref sig .tc := ⟨.hbm, 72, rfl⟩
abbrev main_v47 : Ref sig .tc := ⟨.hbm, 73, rfl⟩
abbrev main_v48 : Ref sig .tc := ⟨.hbm, 74, rfl⟩
abbrev main_c_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call1_cst : Ref sig .tc := ⟨.hbm, 94, rfl⟩
abbrev main_call1_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_8 : Ref sig .tc := ⟨.hbm, 105, rfl⟩
abbrev main_v75 : Ref sig .tc := ⟨.hbm, 106, rfl⟩
abbrev main_v76 : Ref sig .tc := ⟨.hbm, 107, rfl⟩
abbrev main_c_9 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_10 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call2_cst : Ref sig .tc := ⟨.hbm, 127, rfl⟩
abbrev main_call2_v0 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_11 : Ref sig .tc := ⟨.hbm, 138, rfl⟩
abbrev main_v103 : Ref sig .tc := ⟨.hbm, 139, rfl⟩
abbrev main_v104 : Ref sig .tc := ⟨.hbm, 140, rfl⟩
abbrev main_c_12 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_13 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_call3_cst : Ref sig .tc := ⟨.hbm, 160, rfl⟩
abbrev main_call3_v0 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_14 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_call4_cst : Ref sig .tc := ⟨.hbm, 179, rfl⟩
abbrev main_call4_v0 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_call5_cst : Ref sig .tc := ⟨.hbm, 186, rfl⟩
abbrev main_call5_v0 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S625000 : S_.BroadcastsInDim S625000 (![] : Fin 0 → Fin S625000.rank)
  bcast_S625000_S625000x1_0 : S625000.BroadcastsInDim S625000x1 (![0] : Fin 1 → Fin S625000x1.rank)
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S28x128_S100000x1_S100000x128_1_0_n_n_0_1_1128_wf : GatherDims.WF S28x128 S100000x1 S100000x128 [1] [0] [] [0] [] 1 ![1, 128]
  gather_S4x128_S625000x1_S625000x128_1_0_n_n_0_1_1128_wf : GatherDims.WF S4x128 S625000x1 S625000x128 [1] [0] [] [0] [] 1 ![1, 128]
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x64_S512x64_1_0_0_1_n_n_wf : DotDims.WF S512x128 S128x64 S512x64 [1] [0] [0] [1] [] []
  dot_S512x64_S64x32_S512x32_1_0_0_1_n_n_wf : DotDims.WF S512x64 S64x32 S512x32 [1] [0] [0] [1] [] []
  dot_S512x32_S32x1_S512x1_1_0_0_1_n_n_wf : DotDims.WF S512x32 S32x1 S512x1 [1] [0] [0] [1] [] []

variable [Facts₀]

def gather_S28x128_S100000x1_S100000x128_1_0_n_n_0_1_1128 : GatherDims S28x128 S100000x1 S100000x128 where
  offsetDims := [1]
  collapsedSliceDims := [0]
  operandBatchingDims := []
  startIndicesBatchingDims := []
  startIndexMap := [0]
  indexVectorDim := 1
  sliceSizes := ![1, 128]
  wf := gather_S28x128_S100000x1_S100000x128_1_0_n_n_0_1_1128_wf
def gather_S4x128_S625000x1_S625000x128_1_0_n_n_0_1_1128 : GatherDims S4x128 S625000x1 S625000x128 where
  offsetDims := [1]
  collapsedSliceDims := [0]
  operandBatchingDims := []
  startIndicesBatchingDims := []
  startIndexMap := [0]
  indexVectorDim := 1
  sliceSizes := ![1, 128]
  wf := gather_S4x128_S625000x1_S625000x128_1_0_n_n_0_1_1128_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.Spec.lean ====
/-
  The network, one entry at a time.

  Three formulas over the extended reals, each written over explicit row and column coordinates so that a block of rows and
  the whole array are instances of the same function:

  * the embedding row of node n: the sum over the 28 categories k of [x n = k] · emb k q (a one-hot row times the table);
  * the node update: with z n j = agg n j + h n j,   out n q = Σ_k max (Σ_j z n j · W1 j k + b1 k) 0 · W2 k q + b2 q;
  * the graph readout: three affine maps 128 → 64 → 32 → 1 with max(·, 0) after the first two.

  The zero that max compares with is carried as the word the programs print (the zero pattern of f32), never evaluated.
-/
import Idealize.ShloMosaic.PureOps.Ideal
import Idealize.ShloMosaic.Lib.ValueIdx

noncomputable section

open scoped BigOperators

namespace Cert.Gine

open Idealize.ShloMosaic Idealize.ShloMosaic.ValueIdx

/-- The f32 zero pattern read as an extended real. -/
abbrev z0 : EReal := Ideal.ofBits .f32 0x00000000#32

/-- A rank-2 array from a function of its two coordinates. -/
abbrev arr2 {n0 n1 : Nat} {α : Type} (f : Fin n0 → Fin n1 → α) : (⟨2, ![n0, n1]⟩ : Shape).Idx → α :=
  fun i => f (i 0) (i 1)

theorem arr2_ix2 {n0 n1 : Nat} {α : Type} (f : Fin n0 → Fin n1 → α) (a : Fin n0) (b : Fin n1) :
    arr2 f (ix2 a b) = f a b := rfl

/-- A rank-2 array as a function of its two coordinates. -/
abbrev rows {n0 n1 : Nat} {α : Type} (A : (⟨2, ![n0, n1]⟩ : Shape).Idx → α) : Fin n0 → Fin n1 → α :=
  fun a b => A (ix2 a b)

theorem arr2_rows {n0 n1 : Nat} {α : Type} (A : (⟨2, ![n0, n1]⟩ : Shape).Idx → α) : arr2 (rows A) = A := by
  funext i; exact congrArg A (eq_ix2 i).symm

/-- The one-hot weight of category k for a node whose category word is w. -/
def hot (w : BitVec 32) (k : Nat) : EReal := if w = BitVec.ofNat 32 k then 1 else 0

/-- Embedding row n at column q: Σ_k [x n = k] · emb k q. -/
def embedF {N K D : Nat} (x : Fin N → BitVec 32) (emb : Fin K → Fin D → EReal) (n : Fin N) (q : Fin D) : EReal :=
  ∑ k : Fin K, hot (x n) k.val * emb k q

/-- One affine map followed by nothing: Σ_j z j · W j k + b k. -/
def affF {K M : Nat} (z : Fin K → EReal) (W : Fin K → Fin M → EReal) (b : Fin M → EReal) (k : Fin M) : EReal :=
  (∑ j : Fin K, z j * W j k) + b k

/-- The node update at row n, column q. -/
def updF {N : Nat} (agg h : Fin N → Fin 128 → EReal) (W1 : Fin 128 → Fin 128 → EReal) (b1 : Fin 128 → EReal)
    (W2 : Fin 128 → Fin 128 → EReal) (b2 : Fin 128 → EReal) (n : Fin N) (q : Fin 128) : EReal :=
  affF (fun k => max (affF (fun j => agg n j + h n j) W1 b1 k) z0) W2 b2 q

/-- The node update at a row depends on that row of the two node arrays only. -/
theorem updF_congr {N N' : Nat} (agg h : Fin N → Fin 128 → EReal) (agg' h' : Fin N' → Fin 128 → EReal)
    (W1 : Fin 128 → Fin 128 → EReal) (b1 : Fin 128 → EReal) (W2 : Fin 128 → Fin 128 → EReal) (b2 : Fin 128 → EReal)
    (n : Fin N) (n' : Fin N') (ha : ∀ j, agg n j = agg' n' j) (hh : ∀ j, h n j = h' n' j) (q : Fin 128) :
    updF agg h W1 b1 W2 b2 n q = updF agg' h' W1 b1 W2 b2 n' q := by
  unfold updF
  simp only [ha, hh]

/-- The embedding row depends on that node's category word only. -/
theorem embedF_congr {N N' K D : Nat} (x : Fin N → BitVec 32) (x' : Fin N' → BitVec 32) (emb : Fin K → Fin D → EReal)
    (n : Fin N) (n' : Fin N') (hx : x n = x' n') (q : Fin D) : embedF x emb n q = embedF x' emb n' q := by
  unfold embedF
  rw [hx]

/-- The readout at graph r (its one output column). -/
def mlpF {G : Nat} (g : Fin G → Fin 128 → EReal) (W1 : Fin 128 → Fin 64 → EReal) (b1 : Fin 64 → EReal)
    (W2 : Fin 64 → Fin 32 → EReal) (b2 : Fin 32 → EReal) (W3 : Fin 32 → Fin 1 → EReal) (b3 : Fin 1 → EReal)
    (r : Fin G) (o : Fin 1) : EReal :=
  affF (fun c => max (affF (fun b => max (affF (fun a => g r a) W1 b1 b) z0) W2 b2 c) z0) W3 b3 o

end Cert.Gine

end
-- ==== Proof.Model.lean ====
/-
  The network as a function of the sixteen argument arrays, spelled with the host operations both programs print.

  Message passing: the source row of edge_index picks rows of h (negative row numbers wrapped by adding the number of
  nodes), the destination row says where each picked row is added. Two readings of "pick rows" appear: the plain one,
  which reads the wrapped row number clamped into range, and the guarded one, which also tests every wrapped row number
  for 0 ≤ · ≤ 99999 and replaces a row by a quiet-NaN fill when the test fails. The node update, the pooling by graph
  number and the readout are the formulas of the specification, laid over whole arrays.

  The model is parametrised by the embedded features E and by the way rows are picked, so that each program is an
  instance of it.
-/
import proofs.«411411_j85856396247548_1_alg».proof.Proof.Gen.KernelIdeal
import proofs.«411411_j85856396247548_1_alg».proof.Proof.Spec
import Idealize.ShloMosaic.Lib.Pipeline.Value

noncomputable section

namespace Cert.Gine

open Idealize.ShloMosaic Idealize.ShloMosaic.ValueIdx Cert.KernelIdeal Cert.KernelIdeal.Facts₀

/-- The contents of a buffer of shape s and element type e at the ideal instance. -/
abbrev Cn (s : Shape) (e : EltTy) : Type := (⟨s, e⟩ : BufTy).Contents (Elt Ideal)

/-! ## The edge list -/

/-- Row 0 of edge_index: the node each edge reads. -/
def srcOf (ei : Cn S2x625000 .i32) : Cn S625000 .i32 :=
  shapeCast _ (extractStridedSlice S1x625000 ![0, 0] ei slices_S2x625000_S1x625000_0_0) shapeCasts_S1x625000_S625000

/-- Row 1 of edge_index: the node each edge adds into. -/
def dstOf (ei : Cn S2x625000 .i32) : Cn S625000 .i32 :=
  shapeCast _ (extractStridedSlice S1x625000 ![1, 0] ei slices_S2x625000_S1x625000_1_0) shapeCasts_S1x625000_S625000

/-- A row number with the negative ones wrapped: s + 100000 where s < 0, else s. -/
def wrapN (s : Cn S625000 .i32) : Cn S625000 .i32 :=
  select (cmpi .slt s (broadcastInDim S625000 ![] bcast_S_S625000 (constantI S_ 32 0#32)))
    (addi s (broadcastInDim S625000 ![] bcast_S_S625000 (constantI S_ 32 100000#32))) s

/-- The wrapped row numbers as a column of start indices. -/
def colN (s : Cn S625000 .i32) : Cn S625000x1 .i32 :=
  broadcastInDim S625000x1 ![0] bcast_S625000_S625000x1_0 (wrapN s)

/-- Picking rows, plain: row e of the result is row (wrapped s e, clamped) of h. -/
def pickPlain (s : Cn S625000 .i32) (h : Cn S100000x128 .f32) : Cn S625000x128 .f32 :=
  Host.gather gather_S100000x128_S625000x1_S625000x128_1_0_n_n_0_1_1128 h (colN s)

/-- The range test of the guarded reading: per edge, 0 ≤ wrapped s e ≤ 99999. -/
def inRange (s : Cn S625000 .i32) : Cn S625000 .i1 :=
  Host.reduce IntOp.andi
    (andi (cmpi .sge (colN s) (broadcastInDim S625000x1 ![] bcast_S_S625000x1 (constantI S_ 32 0#32)))
      (cmpi .sle (colN s) (broadcastInDim S625000x1 ![0, 1] bcast_S1x1_S625000x1_0_1
        (broadcastInDim S1x1 ![1] bcast_S1_S1x1_1 (constantI S1 32 99999#32)))))
    (constantI S_ 1 1#1) reducesTo_S625000x1_S625000_d1 h_S_

/-- Picking rows, guarded: the plain pick where the range test holds, the quiet-NaN fill elsewhere. -/
def pickGuarded (s : Cn S625000 .i32) (h : Cn S100000x128 .f32) : Cn S625000x128 .f32 :=
  select (broadcastInDim S625000x128 ![0] bcast_S625000_S625000x128_0 (inRange s)) (pickPlain s h)
    (broadcastInDim S625000x128 ![] bcast_S_S625000x128 (constant (F := Ideal) S_ .f32 0x7FC00000#32))

/-- Adding the picked rows into their destination nodes, from zero. -/
def aggOf (d : Cn S625000 .i32) (picked : Cn S625000x128 .f32) : Cn S100000x128 .f32 :=
  Host.scatterAdd (F := Ideal) scatter_S100000x128_S625000x1_S625000x128_1_0_0_1
    (broadcastInDim S100000x128 ![] bcast_S_S100000x128 (constant (F := Ideal) S_ .f32 0x00000000#32))
    (broadcastInDim S625000x1 ![0] bcast_S625000_S625000x1_0 d) picked

/-! ## The layers' weights: slab l of a stacked array -/

def mat0 (W : Cn S4x128x128 .f32) : Cn S128x128 .f32 :=
  shapeCast _ (extractStridedSlice S1x128x128 ![0, 0, 0] W slices_S4x128x128_S1x128x128_0_0_0) shapeCasts_S1x128x128_S128x128
def mat1 (W : Cn S4x128x128 .f32) : Cn S128x128 .f32 :=
  shapeCast _ (extractStridedSlice S1x128x128 ![1, 0, 0] W slices_S4x128x128_S1x128x128_1_0_0) shapeCasts_S1x128x128_S128x128
def mat2 (W : Cn S4x128x128 .f32) : Cn S128x128 .f32 :=
  shapeCast _ (extractStridedSlice S1x128x128 ![2, 0, 0] W slices_S4x128x128_S1x128x128_2_0_0) shapeCasts_S1x128x128_S128x128
def mat3 (W : Cn S4x128x128 .f32) : Cn S128x128 .f32 :=
  shapeCast _ (extractStridedSlice S1x128x128 ![3, 0, 0] W slices_S4x128x128_S1x128x128_3_0_0) shapeCasts_S1x128x128_S128x128
def vec0 (b : Cn S4x128 .f32) : Cn S128 .f32 :=
  shapeCast _ (extractStridedSlice S1x128 ![0, 0] b slices_S4x128_S1x128_0_0) shapeCasts_S1x128_S128
def vec1 (b : Cn S4x128 .f32) : Cn S128 .f32 :=
  shapeCast _ (extractStridedSlice S1x128 ![1, 0] b slices_S4x128_S1x128_1_0) shapeCasts_S1x128_S128
def vec2 (b : Cn S4x128 .f32) : Cn S128 .f32 :=
  shapeCast _ (extractStridedSlice S1x128 ![2, 0] b slices_S4x128_S1x128_2_0) shapeCasts_S1x128_S128
def vec3 (b : Cn S4x128 .f32) : Cn S128 .f32 :=
  shapeCast _ (extractStridedSlice S1x128 ![3, 0] b slices_S4x128_S1x128_3_0) shapeCasts_S1x128_S128

/-- A rank-1 array as a function of its coordinate. -/
abbrev ent {n : Nat} {α : Type} (v : (⟨1, ![n]⟩ : Shape).Idx → α) : Fin n → α := fun k => v (ix1 k)

/-- A vector given a unit row axis reads its entry k at (0, k). -/
theorem unitRow_apply {n : Nat} {α : Type} (v : (⟨1, ![n]⟩ : Shape).Idx → α)
    (h : (⟨1, ![n]⟩ : Shape).ShapeCasts ⟨2, ![1, n]⟩) (k : Fin n) :
    shapeCast (⟨2, ![1, n]⟩ : Shape) v h (ix2 (0 : Fin 1) k) = v (ix1 k) :=
  shapeCast_apply v h (ix2 (0 : Fin 1) k) (ix1 k)
    (by rw [Shape.rowMajor_val_one, Shape.rowMajor_val_two]; show k.val = 0 * n + k.val; omega)

/-! ## Whole-array forms of the specification -/

/-- The embedded features: row n is the one-hot row of x n times the table. -/
def embedArr (x : Cn S100000x1 .i32) (emb : Cn S28x128 .f32) : Cn S100000x128 .f32 :=
  arr2 (embedF (fun n : Fin 100000 => x (ix2 n (0 : Fin 1))) (rows emb))

/-- The node update over all nodes. -/
def updArr (A H : Cn S100000x128 .f32) (W1 : Cn S128x128 .f32) (b1 : Fin 128 → EReal) (W2 : Cn S128x128 .f32)
    (b2 : Fin 128 → EReal) : Cn S100000x128 .f32 :=
  arr2 (updF (rows A) (rows H) (rows W1) b1 (rows W2) b2)

/-- The readout over all graphs. -/
def mlpArr (g : Cn S512x128 .f32) (W1 : Cn S128x64 .f32) (b1 : Fin 64 → EReal) (W2 : Cn S64x32 .f32) (b2 : Fin 32 → EReal)
    (W3 : Cn S32x1 .f32) (b3 : Fin 1 → EReal) : Cn S512x1 .f32 :=
  arr2 (mlpF (rows g) (rows W1) b1 (rows W2) b2 (rows W3) b3)

/-- Pooling: the rows of h added into their graphs, from zero. -/
def poolOf (bt : Cn S100000 .i32) (h : Cn S100000x128 .f32) : Cn S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 bt) h

/-- One round of message passing and update, for a way `pick` of picking the source rows. -/
def layerG (pick : Cn S100000x128 .f32 → Cn S625000x128 .f32) (d : Cn S625000 .i32) (h : Cn S100000x128 .f32)
    (W1 : Cn S128x128 .f32) (b1 : Cn S128 .f32) (W2 : Cn S128x128 .f32) (b2 : Cn S128 .f32) : Cn S100000x128 .f32 :=
  updArr (aggOf d (pick h)) h W1 (ent b1) W2 (ent b2)

/-- The features after the four rounds. -/
def nodesG (pick : Cn S100000x128 .f32 → Cn S625000x128 .f32) (E : Cn S100000x128 .f32) (ei : Cn S2x625000 .i32)
    (cW1 : Cn S4x128x128 .f32) (cb1 : Cn S4x128 .f32) (cW2 : Cn S4x128x128 .f32) (cb2 : Cn S4x128 .f32) :
    Cn S100000x128 .f32 :=
  layerG pick (dstOf ei)
    (layerG pick (dstOf ei)
      (layerG pick (dstOf ei)
        (layerG pick (dstOf ei) E (mat0 cW1) (vec0 cb1) (mat0 cW2) (vec0 cb2))
        (mat1 cW1) (vec1 cb1) (mat1 cW2) (vec1 cb2))
      (mat2 cW1) (vec2 cb1) (mat2 cW2) (vec2 cb2))
    (mat3 cW1) (vec3 cb1) (mat3 cW2) (vec3 cb2)

/-- The network's output. -/
def modelG (pick : Cn S100000x128 .f32 → Cn S625000x128 .f32) (E : Cn S100000x128 .f32) (ei : Cn S2x625000 .i32)
    (bt : Cn S100000 .i32) (cW1 : Cn S4x128x128 .f32) (cb1 : Cn S4x128 .f32) (cW2 : Cn S4x128x128 .f32)
    (cb2 : Cn S4x128 .f32) (mW1 : Cn S128x64 .f32) (mb1 : Cn S64 .f32) (mW2 : Cn S64x32 .f32) (mb2 : Cn S32 .f32)
    (mW3 : Cn S32x1 .f32) (mb3 : Cn S1 .f32) : Cn S512x1 .f32 :=
  mlpArr (poolOf bt (nodesG pick E ei cW1 cb1 cW2 cb2)) mW1 (ent mb1) mW2 (ent mb2) mW3 (ent mb3)

end Cert.Gine

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Body.lean ====
/-
  The three kernel bodies, one entry at a time.

  Each body stores one value: a chain of matrix products, bias additions and max(·, 0). At the ideal instance a change of
  float format is the identity and a product into a zero accumulator is the plain sum over the contracted axis, so the
  stored value at (r, q) is the specification's formula of the loaded blocks' rows.
-/
import proofs.«411411_j85856396247548_1_alg».proof.Proof.Gen.KernelIdeal.Skeleton
import proofs.«411411_j85856396247548_1_alg».proof.Proof.Spec
import proofs.«411411_j85856396247548_1_alg».proof.Proof.LibMatmul
import Idealize.ShloMosaic.Lib.Pipeline.Value
import Idealize.ShloMosaic.Lib.ValueLayout

noncomputable section

open scoped BigOperators

namespace Cert.Gine.Body

open Idealize.ShloMosaic Idealize.ShloMosaic.ValueIdx Cert.KernelIdeal Cert.KernelIdeal.Gen Cert.Gine

/-- One affine layer read at (p, q): the product into the zero accumulator plus the broadcast bias row is the sum over
    the contracted axis plus the bias entry; the format changes are the identity at the ideal instance. -/
private theorem layer_apply {M K N : Nat} (D : DotDims ⟨2, ![M, K]⟩ ⟨2, ![K, N]⟩ ⟨2, ![M, N]⟩)
    (hD : D = DotDims.plain M K N) (x : FVec Ideal ⟨2, ![M, K]⟩ .f32) (W : FVec Ideal ⟨2, ![K, N]⟩ .f32)
    (b : FVec Ideal ⟨2, ![1, N]⟩ .f32) (h1 h2 : FTy.bits .bf16 < FTy.bits .f32)
    (hb : (⟨2, ![1, N]⟩ : Shape).Broadcasts ⟨2, ![M, N]⟩) (p : Fin M) (q : Fin N) :
    addf (matmul D none (truncf .bf16 x h1) (truncf .bf16 W h2) (constant ⟨2, ![M, N]⟩ .f32 0x00000000#32))
        (broadcastTo ⟨2, ![M, N]⟩ b hb) (ix2 p q)
      = affF (fun j => x (ix2 p j)) (rows W) (fun k => b (ix2 (0 : Fin 1) k)) q := by
  subst hD
  rw [addf_apply, broadcastTo_1b_ab_apply]
  refine congrArg (· + b (ix2 (0 : Fin 1) q)) ?_
  exact Cert.Matmul.matmul_plain_apply none (truncf .bf16 x h1) (truncf .bf16 W h2) p q

/-- max(·, 0) read at an index, the zero being the broadcast word. -/
private theorem relu_apply {s : Shape} (y : FVec Ideal s .f32) (i : s.Idx) :
    maximumf y (broadcast s (FloatOps.ofBits (F := Ideal) .f32 0x00000000#32)) i = max (y i) z0 := rfl

/-- A one-bit word widened to 32 bits and read as a signed integer is the real 1 or 0. -/
private theorem sitofp_bit (c : Bool) :
    FloatOps.sitofp (F := Ideal) .f32 ((BitVec.ofBool c).setWidth 32) = if c then (1 : EReal) else 0 := by
  cases c
  · show (((BitVec.setWidth 32 (BitVec.ofBool false)).toInt : ℝ) : EReal) = 0
    have h0 : (BitVec.setWidth 32 (BitVec.ofBool false)).toInt = 0 := by decide
    rw [h0, Int.cast_zero, EReal.coe_zero]
  · show (((BitVec.setWidth 32 (BitVec.ofBool true)).toInt : ℝ) : EReal) = 1
    have h1 : (BitVec.setWidth 32 (BitVec.ofBool true)).toInt = 1 := by decide
    rw [h1, Int.cast_one, EReal.coe_one]

/-- The one-hot operand at (r, k): the comparison of node r's category word with the column number k, as a real. -/
private theorem onehot_apply (x0 : Vec Ideal S5000x1 .i32) (r : Fin 5000) (k : Fin 28) :
    (sitofp .f32 (extui 32 (cmpi .eq (broadcastTo S5000x28 x0 broadcasts_S5000x1_S5000x28)
        (iota .tc S5000x28 32 [1] iota_S5000x28_d1_w32)) natLt_1_32) : FVec Ideal S5000x28 .f32) (ix2 r k)
      = hot (x0 (ix2 r (0 : Fin 1))) k.val := by
  have hb : broadcastTo S5000x28 x0 broadcasts_S5000x1_S5000x28 (ix2 r k) = x0 (ix2 r (0 : Fin 1)) := by
    refine broadcastTo_apply x0 _ (ix2 r k) (ix2 r (0 : Fin 1)) fun ax => ?_
    match ax with
    | ⟨0, _⟩ =>
      exact (if_neg (show ¬ ((5000 : Nat) = 1) by decide)).symm
    | ⟨1, _⟩ => rfl
  have hi : iota .tc S5000x28 32 [1] iota_S5000x28_d1_w32 (ix2 r k) = BitVec.ofNat 32 k.val :=
    iota_single_apply .tc S5000x28 32 1 _ (ix2 r k)
  show FloatOps.sitofp (F := Ideal) .f32
      ((BitVec.ofBool (broadcastTo S5000x28 x0 broadcasts_S5000x1_S5000x28 (ix2 r k)
        == iota .tc S5000x28 32 [1] iota_S5000x28_d1_w32 (ix2 r k))).setWidth 32) = _
  rw [hb, hi, sitofp_bit]
  unfold hot
  by_cases hw : x0 (ix2 r (0 : Fin 1)) = BitVec.ofNat 32 k.val
  · rw [if_pos hw, if_pos (beq_iff_eq.mpr hw)]
  · rw [if_neg hw, if_neg (fun hc => hw (beq_iff_eq.mp hc))]

/-- The embedding body at (r, q): the one-hot row of x r times the table. -/
theorem pay0_apply (x0 : Vec Ideal S5000x1 .i32) (e : Vec Ideal S28x128 .f32) (r : Fin 5000) (q : Fin 128) :
    k0_pay1 (F := Ideal) x0 e (ix2 r q) = embedF (fun n : Fin 5000 => x0 (ix2 n (0 : Fin 1))) (rows e) r q := by
  unfold k0_pay1
  refine (Cert.Matmul.matmul_plain_apply (M := 5000) (K := 28) (N := 128) none _ _ r q).trans ?_
  unfold embedF
  refine Finset.sum_congr rfl fun k _ => ?_
  exact congrArg (· * e (ix2 k q)) (onehot_apply x0 r k)

/-- The node-update body at (r, q). -/
theorem pay1_apply (a h : Vec Ideal S5000x128 .f32) (W1 : Vec Ideal S128x128 .f32) (b1 : Vec Ideal S1x128 .f32)
    (W2 : Vec Ideal S128x128 .f32) (b2 : Vec Ideal S1x128 .f32) (r : Fin 5000) (q : Fin 128) :
    k1_pay1 (F := Ideal) a h W1 b1 W2 b2 (ix2 r q)
      = updF (rows a) (rows h) (rows W1) (fun k => b1 (ix2 (0 : Fin 1) k)) (rows W2) (fun k => b2 (ix2 (0 : Fin 1) k)) r q := by
  unfold k1_pay1
  simp only [shapeCast_self]
  refine (layer_apply _ rfl _ _ _ _ _ _ r q).trans ?_
  unfold updF
  refine congrArg (fun z => affF z (rows W2) (fun k => b2 (ix2 (0 : Fin 1) k)) q) (funext fun k => ?_)
  refine (relu_apply _ _).trans (congrArg (max · z0) ?_)
  exact layer_apply _ rfl _ _ _ _ _ _ r k

/-- The other three rounds run the same body. -/
theorem pay2_eq : @k2_pay1 Ideal _ = @k1_pay1 Ideal _ := rfl
theorem pay3_eq : @k3_pay1 Ideal _ = @k1_pay1 Ideal _ := rfl
theorem pay4_eq : @k4_pay1 Ideal _ = @k1_pay1 Ideal _ := rfl

/-- The readout body at (r, o). -/
theorem pay5_apply (g : Vec Ideal S512x128 .f32) (W1 : Vec Ideal S128x64 .f32) (b1 : Vec Ideal S1x64 .f32)
    (W2 : Vec Ideal S64x32 .f32) (b2 : Vec Ideal S1x32 .f32) (W3 : Vec Ideal S32x1 .f32) (b3 : Vec Ideal S1x1 .f32)
    (r : Fin 512) (o : Fin 1) :
    k5_pay1 (F := Ideal) g W1 b1 W2 b2 W3 b3 (ix2 r o)
      = mlpF (rows g) (rows W1) (fun k => b1 (ix2 (0 : Fin 1) k)) (rows W2) (fun k => b2 (ix2 (0 : Fin 1) k)) (rows W3)
          (fun k => b3 (ix2 (0 : Fin 1) k)) r o := by
  unfold k5_pay1
  simp only [shapeCast_self]
  refine (layer_apply _ rfl _ _ _ _ _ _ r o).trans ?_
  unfold mlpF
  refine congrArg (fun z => affF z (rows W3) (fun k => b3 (ix2 (0 : Fin 1) k)) o) (funext fun c => ?_)
  refine (relu_apply _ _).trans (congrArg (max · z0) ?_)
  refine (layer_apply _ rfl _ _ _ _ _ _ r c).trans ?_
  refine congrArg (fun z => affF z (rows W2) (fun k => b2 (ix2 (0 : Fin 1) k)) c) (funext fun b => ?_)
  refine (relu_apply _ _).trans (congrArg (max · z0) ?_)
  exact layer_apply _ rfl _ _ _ _ _ _ r b

end Cert.Gine.Body

end
-- ==== Proof.Arr0.lean ====
/-
  The embedding region's output array.

  The grid has 20 points; point t stages rows 5000 t … 5000 t + 4999 of x and of the output and the whole table. What a
  point writes back is its block of one whole-array function (row n depends on x n and the table only), and the 20 blocks
  tile the 100000 rows, so the array ends holding that function.
-/
import proofs.«411411_j85856396247548_1_alg».proof.Proof.Gen.KernelIdeal.Frame
import proofs.«411411_j85856396247548_1_alg».proof.Proof.Model
import proofs.«411411_j85856396247548_1_alg».proof.Proof.Body
import Idealize.ShloMosaic.Lib.Pipeline.Value

set_option maxRecDepth 16384

noncomputable section

open scoped BigOperators

namespace Cert.Gine.Arr

open Idealize.ShloMosaic Idealize.ShloMosaic.ValueIdx Idealize.ShloMosaic.TcCoe Cert.KernelIdeal Cert.KernelIdeal.Gen Cert.Gine

variable (V : (c : Dev nD) → (b : Ref sig .tc) → Buf (Elt Ideal) ((c : Thread nD τ).loc b))

/-- The zero offsets of a rank-2 rectangle, as a constant function. -/
private theorem zeroOff : (![0, 0] : Fin 2 → Nat) = fun _ => 0 := funext fun a => by fin_cases a <;> rfl

/-- The index maps over the grid: at point t the x window and the output window sit at row block t, column block 0,
    and the table window at block (0, 0). -/
private theorem index0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- The grid has 20 points. -/
private theorem points0 : cfg0.N = 20 := N_0

/-- Row r of point t's block of x is row 5000 t + r of x. -/
private theorem blk0_0 (c : Dev nD) (t : Fin cfg0.N) (r : Fin 5000) (n : Fin 100000) (hn : n.val = t.val * 5000 + r.val) :
    (iblk0 V c 0 t : Vec Ideal S5000x1 .i32) (ix2 r (0 : Fin 1))
      = (V c main_arg0 : S100000x1.Idx → Elt Ideal .i32) (ix2 n (0 : Fin 1)) := by
  obtain ⟨⟨e0, e1⟩, -⟩ := index0 t
  unfold iblk0
  rw [View.read_apply]
  show V c main_arg0 _ = V c main_arg0 _
  congr 1
  funext d
  apply Fin.ext
  match d with
  | ⟨0, _⟩ => show win0_0.index t (0 : Fin 2) * 5000 + 1 * r.val = n.val; rw [e0, hn]; omega
  | ⟨1, _⟩ => show win0_0.index t (1 : Fin 2) * 1 + 1 * (0 : Fin 1).val = (0 : Fin 1).val; rw [e1]; rfl

/-- The table's block is the table the region finds. -/
private theorem blk0_1 (c : Dev nD) (t : Fin cfg0.N) (a : Fin 28) (b : Fin 128) :
    (iblk0 V c 1 t : Vec Ideal S28x128 .f32) (ix2 a b) = (V c main_arg4 : S28x128.Idx → Elt Ideal .f32) (ix2 a b) := by
  obtain ⟨-, ⟨e0, e1⟩, -⟩ := index0 t
  unfold iblk0
  rw [View.read_apply]
  show V c main_arg4 _ = V c main_arg4 _
  congr 1
  funext d
  apply Fin.ext
  match d with
  | ⟨0, _⟩ => show win0_1.index t (0 : Fin 2) * 28 + 1 * a.val = a.val; rw [e0]; omega
  | ⟨1, _⟩ => show win0_1.index t (1 : Fin 2) * 128 + 1 * b.val = b.val; rw [e1]; omega

/-- What point t writes back is its block of the embedded features of the arrays the region finds. -/
private theorem flushed0 (c : Dev nD) (t : Fin cfg0.N) :
    (dat0 (F := Ideal) V c).flushed 2 t
      = ((cfg0.win 2).blk t).view.read (Elt Ideal) (embedArr (V c main_arg0) (V c main_arg4)) := by
  show (cfg0.win 2).cut (grid0.coords t) ((dat0 V c).after 2 t) = _
  rw [after0_2]
  unfold out0_2
  rw [View.canon_unit_zero zeroOff]
  simp only [View.ld_unit_zero (S := S5000x1) zeroOff, View.ld_unit_zero (S := S28x128) zeroOff]
  funext j
  obtain ⟨r, q, rfl⟩ : ∃ r q, j = ix2 r q := ⟨j 0, j 1, eq_ix2 j⟩
  refine (Cert.Gine.Body.pay0_apply _ _ r q).trans ?_
  have h1 : rows (iblk0 V c 1 t : Vec Ideal S28x128 .f32) = rows (V c main_arg4 : S28x128.Idx → Elt Ideal .f32) :=
    funext fun a => funext fun b => blk0_1 V c t a b
  rw [h1]
  have ht : t.val < 20 := Nat.lt_of_lt_of_eq t.isLt points0
  have hr : r.val < 5000 := r.isLt
  obtain ⟨-, -, e0, e1⟩ := index0 t
  have hi : ((cfg0.win 2).blk t).view.emb (ix2 r q)
      = (ix2 (⟨t.val * 5000 + r.val, by omega⟩ : Fin 100000) q : S100000x128.Idx) := by
    funext d
    apply Fin.ext
    match d with
    | ⟨0, _⟩ => show win0_2.index t (0 : Fin 2) * 5000 + 1 * r.val = t.val * 5000 + r.val; rw [e0]; omega
    | ⟨1, _⟩ => show win0_2.index t (1 : Fin 2) * 128 + 1 * q.val = q.val; rw [e1]; omega
  rw [View.read_apply]
  show _ = embedArr (V c main_arg0) (V c main_arg4) (((cfg0.win 2).blk t).view.emb (ix2 r q))
  rw [hi]
  show _ = embedF (fun n : Fin 100000 => V c main_arg0 (ix2 n (0 : Fin 1))) (rows (V c main_arg4))
      (⟨t.val * 5000 + r.val, by omega⟩ : Fin 100000) q
  exact embedF_congr _ _ _ r _ (blk0_0 V c t r _ rfl) q

/-- An index of the output is in point t's block iff each coordinate is in the block's range on its axis. -/
private theorem mem_blk0 (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v0).slice (win0_2.rect t)).set ↔ _
  rw [View.set_slice_whole, Rect.mem_set_unit]
  exact Iff.rfl

/-- Row n of the output is in the block of point n / 5000. -/
private theorem cover0 (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : (i 0).val / 5000 < cfg0.N := by rw [points0]; omega
  obtain ⟨-, -, e0, e1⟩ := index0 ⟨(i 0).val / 5000, hN⟩
  refine ⟨⟨(i 0).val / 5000, hN⟩, flush0_2 _, ?_⟩
  rw [mem_blk0]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e1]
    omega

/-- After the embedding region its output array holds the one-hot rows of x times the table. -/
theorem arr0 (c : Dev nD) :
    (dat0 (F := Ideal) V c).arrAt 2 cfg0.N = embedArr (V c main_arg0) (V c main_arg4) :=
  (dat0 (F := Ideal) V c).arrAt_eq_of_cover 2 _ (fun t _ => flushed0 V c t) cover0

end Cert.Gine.Arr

end
-- ==== Proof.KChain0.lean ====
/-
  The kernel's program up to the embedding region's exit.

  The region finds x and the table as launched, so its output array is the embedded features of the launch contents.
-/
import proofs.«411411_j85856396247548_1_alg».proof.Proof.Gen.KernelIdeal.Frame
import proofs.«411411_j85856396247548_1_alg».proof.Proof.Model
import proofs.«411411_j85856396247548_1_alg».proof.Proof.Arr0
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-- At the embedding region's exit its output holds the embedded features of the arguments. -/
theorem kc0 (c : Dev nD) :
    W1 (F := Ideal) m ρ c (Proc.devRef .tc main_v0) = embedArr (m ((c : Thread nD τ).loc main_arg0)) (m ((c : Thread nD τ).loc main_arg4)) :=
  -- the output window's array at the exit is what the pipeline leaves, and the region was entered at the launch contents
  (W1_arr m ρ c 2).trans (Cert.Gine.Arr.arr0 (V0 m ρ) c)

end Cert.Gine.KChain

end
-- ==== Proof.Arr1.lean ====
/-
  The first node-update region's output array.

  The grid has 20 points; point t stages rows 5000 t … 5000 t + 4999 of the aggregated messages, of h and of the output,
  and the whole weight and bias arrays. Row n of the update depends on row n of the two node arrays only, so what a point
  writes back is its block of one whole-array function, and the 20 blocks tile the 100000 rows.
-/
import proofs.«411411_j85856396247548_1_alg».proof.Proof.Gen.KernelIdeal.Frame
import proofs.«411411_j85856396247548_1_alg».proof.Proof.Model
import proofs.«411411_j85856396247548_1_alg».proof.Proof.Body
import Idealize.ShloMosaic.Lib.Pipeline.Value

set_option maxRecDepth 16384

noncomputable section

open scoped BigOperators

namespace Cert.Gine.Arr

open Idealize.ShloMosaic Idealize.ShloMosaic.ValueIdx Idealize.ShloMosaic.TcCoe Cert.KernelIdeal Cert.KernelIdeal.Gen Cert.Gine

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The update at (n, q) is determined by row n of the two node arrays and by the entries of the weights and biases. -/
private theorem updF_ext {N N' : Nat} (agg h : Fin N → Fin 128 → EReal) (agg' h' : Fin N' → Fin 128 → EReal)
    (W1 W1' : Fin 128 → Fin 128 → EReal) (b1 b1' : Fin 128 → EReal) (W2 W2' : Fin 128 → Fin 128 → EReal)
    (b2 b2' : Fin 128 → EReal) (n : Fin N) (n' : Fin N') (q q' : Fin 128)
    (ha : ∀ j, agg n j = agg' n' j) (hh : ∀ j, h n j = h' n' j) (hW1 : ∀ j k, W1 j k = W1' j k)
    (hb1 : ∀ k, b1 k = b1' k) (hW2 : ∀ j k, W2 j k = W2' j k) (hb2 : ∀ k, b2 k = b2' k) (hq : q = q') :
    updF agg h W1 b1 W2 b2 n q = updF agg' h' W1' b1' W2' b2' n' q' := by
  obtain rfl : W1 = W1' := funext fun j => funext fun k => hW1 j k
  obtain rfl : b1 = b1' := funext hb1
  obtain rfl : W2 = W2' := funext fun j => funext fun k => hW2 j k
  obtain rfl : b2 = b2' := funext hb2
  subst hq
  exact updF_congr agg h agg' h' W1 b1 W2 b2 n n' ha hh q

/-- The printed index maps, decided over the grid: the two node windows move with the output window along the rows,
    every other block index is zero, and the output's row-block index stays below 20. -/
private theorem index_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every block of rows is some point's. -/
private theorem index_onto : ∀ q0 : Fin 20, ∃ t : Fin cfg1.N, win1_6.index t = ![q0.val, 0] :=
  (by decide +kernel : ∀ q0 : Fin 20, ∃ t : Fin grid1.N, win1_6.index t = ![q0.val, 0])

set_option maxHeartbeats 4000000 in
/-- What point t writes back is block t of the update of the arrays the region finds. -/
private theorem flushed_eq (c : Dev nD) (t : Fin cfg1.N) :
    (dat1 (F := Ideal) V c).flushed 6 t = ((cfg1.win 6).blk t).view.read (Elt Ideal)
      (updArr (V c main_v8) (V c main_v0) (V c main_v10) (fun k => V c main_v17 (ix2 (0 : Fin 1) k)) (V c main_v14)
          (fun k => V c main_v18 (ix2 (0 : Fin 1) k))) := by
  show (cfg1.win 6).cut (grid1.coords t) ((dat1 (F := Ideal) V c).after 6 t) = _
  rw [after1_6]
  unfold out1_6
  rw [View.canon_unit_zero zero_off]
  simp only [View.ld_unit_zero (S := S5000x128) zero_off, View.ld_unit_zero (S := S128x128) zero_off,
    View.ld_unit_zero (S := S1x128) zero_off]
  funext j
  obtain ⟨r, q, rfl⟩ : ∃ r q, j = ix2 r q := ⟨j 0, j 1, eq_ix2 j⟩
  refine (Cert.Gine.Body.pay1_apply _ _ _ _ _ _ r q).trans ?_
  obtain ⟨e00, e01, e10, e11, e20, e21, e30, e31, e40, e41, e50, e51, -, e61⟩ := index_facts t
  show _ = updF (rows (V c main_v8 : Cn S100000x128 .f32)) (rows (V c main_v0 : Cn S100000x128 .f32))
      (rows (V c main_v10 : Cn S128x128 .f32)) (fun k => V c main_v17 (ix2 (0 : Fin 1) k))
      (rows (V c main_v14 : Cn S128x128 .f32)) (fun k => V c main_v18 (ix2 (0 : Fin 1) k))
      ((((cfg1.win 6).blk t).view.emb (ix2 r q)) 0) ((((cfg1.win 6).blk t).view.emb (ix2 r q)) 1)
  refine updF_ext _ _ _ _ _ _ _ _ _ _ _ _ _ _ _ _ (fun j => ?_) (fun j => ?_) (fun j k => ?_) (fun k => ?_)
    (fun j k => ?_) (fun k => ?_) ?_
  · -- row r of the block of aggregated messages is row 5000 t + r of the array
    show V c main_v8 (((cfg1.win 0).blk t).view.emb (ix2 r j))
      = V c main_v8 (ix2 ((((cfg1.win 6).blk t).view.emb (ix2 r q)) 0) j)
    congr 1; funext a; apply Fin.ext
    match a with
    | ⟨0, _⟩ => show win1_0.index t (0 : Fin 2) * 5000 + 1 * r.val = win1_6.index t (0 : Fin 2) * 5000 + 1 * r.val; omega
    | ⟨1, _⟩ => show win1_0.index t (1 : Fin 2) * 128 + 1 * j.val = j.val; omega
  · -- likewise for h
    show V c main_v0 (((cfg1.win 1).blk t).view.emb (ix2 r j))
      = V c main_v0 (ix2 ((((cfg1.win 6).blk t).view.emb (ix2 r q)) 0) j)
    congr 1; funext a; apply Fin.ext
    match a with
    | ⟨0, _⟩ => show win1_1.index t (0 : Fin 2) * 5000 + 1 * r.val = win1_6.index t (0 : Fin 2) * 5000 + 1 * r.val; omega
    | ⟨1, _⟩ => show win1_1.index t (1 : Fin 2) * 128 + 1 * j.val = j.val; omega
  · -- the weight and bias blocks are the whole arrays
    show V c main_v10 (((cfg1.win 2).blk t).view.emb (ix2 j k)) = V c main_v10 (ix2 j k)
    congr 1; funext a; apply Fin.ext
    match a with
    | ⟨0, _⟩ => show win1_2.index t (0 : Fin 2) * 128 + 1 * j.val = j.val; omega
    | ⟨1, _⟩ => show win1_2.index t (1 : Fin 2) * 128 + 1 * k.val = k.val; omega
  · show V c main_v17 (((cfg1.win 3).blk t).view.emb (ix2 (0 : Fin 1) k)) = V c main_v17 (ix2 (0 : Fin 1) k)
    congr 1; funext a; apply Fin.ext
    match a with
    | ⟨0, _⟩ => show win1_3.index t (0 : Fin 2) * 1 + 1 * 0 = 0; omega
    | ⟨1, _⟩ => show win1_3.index t (1 : Fin 2) * 128 + 1 * k.val = k.val; omega
  · show V c main_v14 (((cfg1.win 4).blk t).view.emb (ix2 j k)) = V c main_v14 (ix2 j k)
    congr 1; funext a; apply Fin.ext
    match a with
    | ⟨0, _⟩ => show win1_4.index t (0 : Fin 2) * 128 + 1 * j.val = j.val; omega
    | ⟨1, _⟩ => show win1_4.index t (1 : Fin 2) * 128 + 1 * k.val = k.val; omega
  · show V c main_v18 (((cfg1.win 5).blk t).view.emb (ix2 (0 : Fin 1) k)) = V c main_v18 (ix2 (0 : Fin 1) k)
    congr 1; funext a; apply Fin.ext
    match a with
    | ⟨0, _⟩ => show win1_5.index t (0 : Fin 2) * 1 + 1 * 0 = 0; omega
    | ⟨1, _⟩ => show win1_5.index t (1 : Fin 2) * 128 + 1 * k.val = k.val; omega
  · -- the block spans all 128 columns
    apply Fin.ext
    show q.val = win1_6.index t (1 : Fin 2) * 128 + 1 * q.val
    omega

/-- An index of the output array is in point t's block iff each coordinate is in the block's range on its axis. -/
private theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v19).slice (win1_6.rect t)).set ↔ _
  rw [View.set_slice_whole, Rect.mem_set_unit]
  exact Iff.rfl

/-- Row n lies in the block of point n / 5000: the 20 blocks tile the 100000 rows. -/
private theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the first node-update region its output array holds the update of the arrays it found. -/
theorem arr1 (c : Dev nD) :
    (dat1 (F := Ideal) V c).arrAt 6 cfg1.N
      = updArr (V c main_v8) (V c main_v0) (V c main_v10) (fun k => V c main_v17 (ix2 (0 : Fin 1) k)) (V c main_v14)
          (fun k => V c main_v18 (ix2 (0 : Fin 1) k)) :=
  (dat1 (F := Ideal) V c).arrAt_eq_of_cover 6 _ (fun t _ => flushed_eq V c t) covered

end Cert.Gine.Arr

end
-- ==== Proof.KChain1.lean ====
/-
  The kernel's program from the embedding region's exit to the first node-update region's exit.

  Three stretches of host operations run in between: the two rows of edge_index are cut out; the source rows are picked
  with the guarded reading; the picked rows are added into their destinations and layer 0's weights are cut out of the
  stacked arrays. The region then finds those arrays, and its output is one round of the model over the features the
  embedding region left.
-/
import proofs.«411411_j85856396247548_1_alg».proof.Proof.Gen.KernelIdeal.Frame
import proofs.«411411_j85856396247548_1_alg».proof.Proof.Model
import proofs.«411411_j85856396247548_1_alg».proof.Proof.Arr1
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-! ## Typed references: reading back what was just written is the identity -/

private theorem ofBuf_toBuf {T : BufTy} (x : StableHlo.TRef sig T) (v : T.Contents (Elt Ideal)) :
    x.ofBuf (x.toBuf v) = v := by
  obtain ⟨r, rfl, _, _⟩ := x; rfl

/-! ## The launch's edge list at the embedding region's exit -/

private theorem arg1_at1 (c : Dev nD) :
    W1 (F := Ideal) m ρ c (Proc.devRef .tc main_arg1) = m ((c : Thread nD τ).loc main_arg1) :=
  W1_of_ne m ρ c main_arg1 (by decide)

/-! ## The two rows of edge_index -/

private theorem src_at (c : Dev nD) :
    W2 (F := Ideal) m ρ c (Proc.devRef .tc main_v2) = srcOf (m ((c : Thread nD τ).loc main_arg1)) := by
  rw [← arg1_at1 m ρ c]
  show StableHlo.after hostOps1 (W1 m ρ c) (Proc.devRef .tc main_v2) = _
  after_results
  generalize W1 m ρ c (Proc.devRef .tc main_arg1) = ei
  rfl

private theorem dst_at (c : Dev nD) :
    W2 (F := Ideal) m ρ c (Proc.devRef .tc main_v4) = dstOf (m ((c : Thread nD τ).loc main_arg1)) := by
  rw [← arg1_at1 m ρ c]
  show StableHlo.after hostOps1 (W1 m ρ c) (Proc.devRef .tc main_v4) = _
  after_results
  generalize W1 m ρ c (Proc.devRef .tc main_arg1) = ei
  rfl

/-! ## The guarded pick of the source rows -/

set_option maxHeartbeats 1000000 in
private theorem take_at (c : Dev nD) :
    W3 (F := Ideal) m ρ c (Proc.devRef .tc main_v5)
      = pickGuarded (W2 (F := Ideal) m ρ c (Proc.devRef .tc main_v2)) (W2 (F := Ideal) m ρ c (Proc.devRef .tc main_v0)) := by
  show StableHlo.after hostOps1_1 (W2 m ρ c) (Proc.devRef .tc main_v5)
    = pickGuarded (W2 (F := Ideal) m ρ c (Proc.devRef .tc main_v2)) (W2 (F := Ideal) m ρ c (Proc.devRef .tc main_v0))
  generalize W2 (F := Ideal) m ρ c = V
  obtain ⟨s, hs⟩ : ∃ s : Cn S625000 .i32, s = V (Proc.devRef .tc main_v2) := ⟨_, rfl⟩
  obtain ⟨h, hh⟩ : ∃ h : Cn S100000x128 .f32, h = V (Proc.devRef .tc main_v0) := ⟨_, rfl⟩
  after_results_simp
  rw [← hs, ← hh]
  simp only [ofBuf_toBuf]
  have es : ∀ u : Cn S625000 .i32, (StableHlo.TRef.of main_v2 : StableHlo.TRef sig ⟨S625000, .i32⟩).ofBuf u = u := fun _ => rfl
  have eh : ∀ u : Cn S100000x128 .f32, (StableHlo.TRef.of main_v0 : StableHlo.TRef sig ⟨S100000x128, .f32⟩).ofBuf u = u := fun _ => rfl
  have eo : ∀ u : Cn S625000x128 .f32, (StableHlo.TRef.of main_v5 : StableHlo.TRef sig ⟨S625000x128, .f32⟩).toBuf u = u := fun _ => rfl
  rw [eo]
  simp only [es, eh]
  unfold pickGuarded pickPlain inRange colN wrapN
  rfl

/-! ## The aggregated messages and layer 0's weights at the region's entry -/

private theorem agg_at (c : Dev nD) :
    W4 (F := Ideal) m ρ c (Proc.devRef .tc main_v8)
      = aggOf (W3 (F := Ideal) m ρ c (Proc.devRef .tc main_v4)) (W3 (F := Ideal) m ρ c (Proc.devRef .tc main_v5)) := by
  show StableHlo.after hostOps1_2 (W3 m ρ c) (Proc.devRef .tc main_v8)
    = aggOf (W3 (F := Ideal) m ρ c (Proc.devRef .tc main_v4)) (W3 (F := Ideal) m ρ c (Proc.devRef .tc main_v5))
  generalize W3 (F := Ideal) m ρ c = V
  after_results
  generalize V (Proc.devRef .tc main_v4) = d
  generalize V (Proc.devRef .tc main_v5) = p
  rfl

private theorem w1_at (c : Dev nD) :
    W4 (F := Ideal) m ρ c (Proc.devRef .tc main_v10) = mat0 (W3 (F := Ideal) m ρ c (Proc.devRef .tc main_arg6)) := by
  show StableHlo.after hostOps1_2 (W3 m ρ c) (Proc.devRef .tc main_v10) = mat0 (W3 (F := Ideal) m ρ c (Proc.devRef .tc main_arg6))
  generalize W3 (F := Ideal) m ρ c = V
  after_results
  generalize V (Proc.devRef .tc main_arg6) = a
  rfl

private theorem b1_at (c : Dev nD) :
    W4 (F := Ideal) m ρ c (Proc.devRef .tc main_v17)
      = shapeCast S1x128 (vec0 (W3 (F := Ideal) m ρ c (Proc.devRef .tc main_arg7))) shapeCasts_S128_S1x128 := by
  show StableHlo.after hostOps1_2 (W3 m ρ c) (Proc.devRef .tc main_v17)
    = shapeCast S1x128 (vec0 (W3 (F := Ideal) m ρ c (Proc.devRef .tc main_arg7))) shapeCasts_S128_S1x128
  generalize W3 (F := Ideal) m ρ c = V
  after_results
  generalize V (Proc.devRef .tc main_arg7) = a
  rfl

private theorem w2_at (c : Dev nD) :
    W4 (F := Ideal) m ρ c (Proc.devRef .tc main_v14) = mat0 (W3 (F := Ideal) m ρ c (Proc.devRef .tc main_arg8)) := by
  show StableHlo.after hostOps1_2 (W3 m ρ c) (Proc.devRef .tc main_v14) = mat0 (W3 (F := Ideal) m ρ c (Proc.devRef .tc main_arg8))
  generalize W3 (F := Ideal) m ρ c = V
  after_results
  generalize V (Proc.devRef .tc main_arg8) = a
  rfl

private theorem b2_at (c : Dev nD) :
    W4 (F := Ideal) m ρ c (Proc.devRef .tc main_v18)
      = shapeCast S1x128 (vec0 (W3 (F := Ideal) m ρ c (Proc.devRef .tc main_arg9))) shapeCasts_S128_S1x128 := by
  show StableHlo.after hostOps1_2 (W3 m ρ c) (Proc.devRef .tc main_v18)
    = shapeCast S1x128 (vec0 (W3 (F := Ideal) m ρ c (Proc.devRef .tc main_arg9))) shapeCasts_S128_S1x128
  generalize W3 (F := Ideal) m ρ c = V
  after_results
  generalize V (Proc.devRef .tc main_arg9) = a
  rfl

/-! ## The buffers the stretches leave as they were -/

private theorem h_W2 (c : Dev nD) :
    W2 (F := Ideal) m ρ c (Proc.devRef .tc main_v0) = W1 (F := Ideal) m ρ c (Proc.devRef .tc main_v0) :=
  StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem h_W3 (c : Dev nD) :
    W3 (F := Ideal) m ρ c (Proc.devRef .tc main_v0) = W2 (F := Ideal) m ρ c (Proc.devRef .tc main_v0) :=
  StableHlo.after_of_forall_not_mem (b := Proc.devRef .tc main_v0) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem h_W4 (c : Dev nD) :
    W4 (F := Ideal) m ρ c (Proc.devRef .tc main_v0) = W3 (F := Ideal) m ρ c (Proc.devRef .tc main_v0) :=
  StableHlo.after_of_forall_not_mem (b := Proc.devRef .tc main_v0) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W3 (c : Dev nD) :
    W3 (F := Ideal) m ρ c (Proc.devRef .tc main_v2) = W2 (F := Ideal) m ρ c (Proc.devRef .tc main_v2) :=
  StableHlo.after_of_forall_not_mem (b := Proc.devRef .tc main_v2) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W4 (c : Dev nD) :
    W4 (F := Ideal) m ρ c (Proc.devRef .tc main_v2) = W3 (F := Ideal) m ρ c (Proc.devRef .tc main_v2) :=
  StableHlo.after_of_forall_not_mem (b := Proc.devRef .tc main_v2) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W3 (c : Dev nD) :
    W3 (F := Ideal) m ρ c (Proc.devRef .tc main_v4) = W2 (F := Ideal) m ρ c (Proc.devRef .tc main_v4) :=
  StableHlo.after_of_forall_not_mem (b := Proc.devRef .tc main_v4) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W4 (c : Dev nD) :
    W4 (F := Ideal) m ρ c (Proc.devRef .tc main_v4) = W3 (F := Ideal) m ρ c (Proc.devRef .tc main_v4) :=
  StableHlo.after_of_forall_not_mem (b := Proc.devRef .tc main_v4) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W1 (c : Dev nD) :
    W1 (F := Ideal) m ρ c (Proc.devRef .tc main_arg6) = m ((c : Thread nD τ).loc main_arg6) :=
  W1_of_ne m ρ c main_arg6 (by decide)

private theorem arg6_W2 (c : Dev nD) :
    W2 (F := Ideal) m ρ c (Proc.devRef .tc main_arg6) = W1 (F := Ideal) m ρ c (Proc.devRef .tc main_arg6) :=
  StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W3 (c : Dev nD) :
    W3 (F := Ideal) m ρ c (Proc.devRef .tc main_arg6) = W2 (F := Ideal) m ρ c (Proc.devRef .tc main_arg6) :=
  StableHlo.after_of_forall_not_mem (b := Proc.devRef .tc main_arg6) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W4 (c : Dev nD) :
    W4 (F := Ideal) m ρ c (Proc.devRef .tc main_arg6) = W3 (F := Ideal) m ρ c (Proc.devRef .tc main_arg6) :=
  StableHlo.after_of_forall_not_mem (b := Proc.devRef .tc main_arg6) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W1 (c : Dev nD) :
    W1 (F := Ideal) m ρ c (Proc.devRef .tc main_arg7) = m ((c : Thread nD τ).loc main_arg7) :=
  W1_of_ne m ρ c main_arg7 (by decide)

private theorem arg7_W2 (c : Dev nD) :
    W2 (F := Ideal) m ρ c (Proc.devRef .tc main_arg7) = W1 (F := Ideal) m ρ c (Proc.devRef .tc main_arg7) :=
  StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W3 (c : Dev nD) :
    W3 (F := Ideal) m ρ c (Proc.devRef .tc main_arg7) = W2 (F := Ideal) m ρ c (Proc.devRef .tc main_arg7) :=
  StableHlo.after_of_forall_not_mem (b := Proc.devRef .tc main_arg7) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W4 (c : Dev nD) :
    W4 (F := Ideal) m ρ c (Proc.devRef .tc main_arg7) = W3 (F := Ideal) m ρ c (Proc.devRef .tc main_arg7) :=
  StableHlo.after_of_forall_not_mem (b := Proc.devRef .tc main_arg7) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W1 (c : Dev nD) :
    W1 (F := Ideal) m ρ c (Proc.devRef .tc main_arg8) = m ((c : Thread nD τ).loc main_arg8) :=
  W1_of_ne m ρ c main_arg8 (by decide)

private theorem arg8_W2 (c : Dev nD) :
    W2 (F := Ideal) m ρ c (Proc.devRef .tc main_arg8) = W1 (F := Ideal) m ρ c (Proc.devRef .tc main_arg8) :=
  StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W3 (c : Dev nD) :
    W3 (F := Ideal) m ρ c (Proc.devRef .tc main_arg8) = W2 (F := Ideal) m ρ c (Proc.devRef .tc main_arg8) :=
  StableHlo.after_of_forall_not_mem (b := Proc.devRef .tc main_arg8) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W4 (c : Dev nD) :
    W4 (F := Ideal) m ρ c (Proc.devRef .tc main_arg8) = W3 (F := Ideal) m ρ c (Proc.devRef .tc main_arg8) :=
  StableHlo.after_of_forall_not_mem (b := Proc.devRef .tc main_arg8) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W1 (c : Dev nD) :
    W1 (F := Ideal) m ρ c (Proc.devRef .tc main_arg9) = m ((c : Thread nD τ).loc main_arg9) :=
  W1_of_ne m ρ c main_arg9 (by decide)

private theorem arg9_W2 (c : Dev nD) :
    W2 (F := Ideal) m ρ c (Proc.devRef .tc main_arg9) = W1 (F := Ideal) m ρ c (Proc.devRef .tc main_arg9) :=
  StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W3 (c : Dev nD) :
    W3 (F := Ideal) m ρ c (Proc.devRef .tc main_arg9) = W2 (F := Ideal) m ρ c (Proc.devRef .tc main_arg9) :=
  StableHlo.after_of_forall_not_mem (b := Proc.devRef .tc main_arg9) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W4 (c : Dev nD) :
    W4 (F := Ideal) m ρ c (Proc.devRef .tc main_arg9) = W3 (F := Ideal) m ρ c (Proc.devRef .tc main_arg9) :=
  StableHlo.after_of_forall_not_mem (b := Proc.devRef .tc main_arg9) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## What the later rounds read at this region's exit -/

/-- At the region's exit the source row is still the launch's. -/
theorem src_W5 (c : Dev nD) :
    W5 (F := Ideal) m ρ c (Proc.devRef .tc main_v2) = srcOf (m ((c : Thread nD τ).loc main_arg1)) :=
  (W5_of_ne m ρ c main_v2 (by decide)).trans ((src_W4 m ρ c).trans ((src_W3 m ρ c).trans (src_at m ρ c)))

/-- At the region's exit the destination row is still the launch's. -/
theorem dst_W5 (c : Dev nD) :
    W5 (F := Ideal) m ρ c (Proc.devRef .tc main_v4) = dstOf (m ((c : Thread nD τ).loc main_arg1)) :=
  (W5_of_ne m ρ c main_v4 (by decide)).trans ((dst_W4 m ρ c).trans ((dst_W3 m ρ c).trans (dst_at m ρ c)))

/-- At the region's exit the stacked array main_arg6 is as launched. -/
theorem arg6_W5 (c : Dev nD) :
    W5 (F := Ideal) m ρ c (Proc.devRef .tc main_arg6) = m ((c : Thread nD τ).loc main_arg6) :=
  (W5_of_ne m ρ c main_arg6 (by decide)).trans
    ((arg6_W4 m ρ c).trans ((arg6_W3 m ρ c).trans ((arg6_W2 m ρ c).trans (arg6_W1 m ρ c))))

/-- At the region's exit the stacked array main_arg7 is as launched. -/
theorem arg7_W5 (c : Dev nD) :
    W5 (F := Ideal) m ρ c (Proc.devRef .tc main_arg7) = m ((c : Thread nD τ).loc main_arg7) :=
  (W5_of_ne m ρ c main_arg7 (by decide)).trans
    ((arg7_W4 m ρ c).trans ((arg7_W3 m ρ c).trans ((arg7_W2 m ρ c).trans (arg7_W1 m ρ c))))

/-- At the region's exit the stacked array main_arg8 is as launched. -/
theorem arg8_W5 (c : Dev nD) :
    W5 (F := Ideal) m ρ c (Proc.devRef .tc main_arg8) = m ((c : Thread nD τ).loc main_arg8) :=
  (W5_of_ne m ρ c main_arg8 (by decide)).trans
    ((arg8_W4 m ρ c).trans ((arg8_W3 m ρ c).trans ((arg8_W2 m ρ c).trans (arg8_W1 m ρ c))))

/-- At the region's exit the stacked array main_arg9 is as launched. -/
theorem arg9_W5 (c : Dev nD) :
    W5 (F := Ideal) m ρ c (Proc.devRef .tc main_arg9) = m ((c : Thread nD τ).loc main_arg9) :=
  (W5_of_ne m ρ c main_arg9 (by decide)).trans
    ((arg9_W4 m ρ c).trans ((arg9_W3 m ρ c).trans ((arg9_W2 m ρ c).trans (arg9_W1 m ρ c))))

/-! ## The round -/

/-- At the first node-update region's exit its output is one round over the embedding region's output. -/
theorem kc1 (c : Dev nD) :
    W5 (F := Ideal) m ρ c (Proc.devRef .tc main_v19)
      = layerG (pickGuarded (srcOf (m ((c : Thread nD τ).loc main_arg1)))) (dstOf (m ((c : Thread nD τ).loc main_arg1))) (W1 (F := Ideal) m ρ c (Proc.devRef .tc main_v0))
          (mat0 (m ((c : Thread nD τ).loc main_arg6))) (vec0 (m ((c : Thread nD τ).loc main_arg7))) (mat0 (m ((c : Thread nD τ).loc main_arg8))) (vec0 (m ((c : Thread nD τ).loc main_arg9))) := by
  refine (W5_arr m ρ c 6).trans ((Cert.Gine.Arr.arr1 (V4 m ρ) c).trans ?_)
  have eA : V4 (F := Ideal) m ρ c main_v8
      = aggOf (dstOf (m ((c : Thread nD τ).loc main_arg1)))
          (pickGuarded (srcOf (m ((c : Thread nD τ).loc main_arg1))) (W1 (F := Ideal) m ρ c (Proc.devRef .tc main_v0))) := by
    show W4 (F := Ideal) m ρ c (Proc.devRef .tc main_v8) = _
    rw [agg_at, dst_W3, dst_at, take_at, src_at, h_W2]
  have eH : V4 (F := Ideal) m ρ c main_v0 = W1 (F := Ideal) m ρ c (Proc.devRef .tc main_v0) :=
    (h_W4 m ρ c).trans ((h_W3 m ρ c).trans (h_W2 m ρ c))
  have eW1 : V4 (F := Ideal) m ρ c main_v10 = mat0 (m ((c : Thread nD τ).loc main_arg6)) := by
    show W4 (F := Ideal) m ρ c (Proc.devRef .tc main_v10) = _
    rw [w1_at, arg6_W3, arg6_W2, arg6_W1]
  have eW2 : V4 (F := Ideal) m ρ c main_v14 = mat0 (m ((c : Thread nD τ).loc main_arg8)) := by
    show W4 (F := Ideal) m ρ c (Proc.devRef .tc main_v14) = _
    rw [w2_at, arg8_W3, arg8_W2, arg8_W1]
  have eb1 : (fun k => V4 (F := Ideal) m ρ c main_v17 (ix2 (0 : Fin 1) k)) = ent (vec0 (m ((c : Thread nD τ).loc main_arg7))) := by
    funext k
    show W4 (F := Ideal) m ρ c (Proc.devRef .tc main_v17) (ix2 (0 : Fin 1) k) = _
    rw [b1_at, arg7_W3, arg7_W2, arg7_W1]
    exact unitRow_apply _ _ k
  have eb2 : (fun k => V4 (F := Ideal) m ρ c main_v18 (ix2 (0 : Fin 1) k)) = ent (vec0 (m ((c : Thread nD τ).loc main_arg9))) := by
    funext k
    show W4 (F := Ideal) m ρ c (Proc.devRef .tc main_v18) (ix2 (0 : Fin 1) k) = _
    rw [b2_at, arg9_W3, arg9_W2, arg9_W1]
    exact unitRow_apply _ _ k
  rw [eA, eH, eW1, eW2, eb1, eb2]
  rfl

end Cert.Gine.KChain

end
-- ==== Proof.Arr2.lean ====
/-
  Node-update region 2's output array.

  The grid has 20 points; point t stages rows 5000 t … 5000 t + 4999 of the aggregated messages, of h and of the output,
  and the whole weight and bias arrays. Row n of the update depends on row n of the two node arrays only, so what a point
  writes back is its block of one whole-array function, and the 20 blocks tile the 100000 rows.
-/
import proofs.«411411_j85856396247548_1_alg».proof.Proof.Gen.KernelIdeal.Frame
import proofs.«411411_j85856396247548_1_alg».proof.Proof.Model
import proofs.«411411_j85856396247548_1_alg».proof.Proof.Body
import Idealize.ShloMosaic.Lib.Pipeline.Value

set_option maxRecDepth 16384

noncomputable section

open scoped BigOperators

namespace Cert.Gine.Arr

open Idealize.ShloMosaic Idealize.ShloMosaic.ValueIdx Idealize.ShloMosaic.TcCoe Cert.KernelIdeal Cert.KernelIdeal.Gen Cert.Gine

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The update at (n, q) is determined by row n of the two node arrays and by the entries of the weights and biases. -/
private theorem updF_ext {N N' : Nat} (agg h : Fin N → Fin 128 → EReal) (agg' h' : Fin N' → Fin 128 → EReal)
    (W1 W1' : Fin 128 → Fin 128 → EReal) (b1 b1' : Fin 128 → EReal) (W2 W2' : Fin 128 → Fin 128 → EReal)
    (b2 b2' : Fin 128 → EReal) (n : Fin N) (n' : Fin N') (q q' : Fin 128)
    (ha : ∀ j, agg n j = agg' n' j) (hh : ∀ j, h n j = h' n' j) (hW1 : ∀ j k, W1 j k = W1' j k)
    (hb1 : ∀ k, b1 k = b1' k) (hW2 : ∀ j k, W2 j k = W2' j k) (hb2 : ∀ k, b2 k = b2' k) (hq : q = q') :
    updF agg h W1 b1 W2 b2 n q = updF agg' h' W1' b1' W2' b2' n' q' := by
  obtain rfl : W1 = W1' := funext fun j => funext fun k => hW1 j k
  obtain rfl : b1 = b1' := funext hb1
  obtain rfl : W2 = W2' := funext fun j => funext fun k => hW2 j k
  obtain rfl : b2 = b2' := funext hb2
  subst hq
  exact updF_congr agg h agg' h' W1 b1 W2 b2 n n' ha hh q

/-- The printed index maps, decided over the grid: the two node windows move with the output window along the rows,
    every other block index is zero, and the output's row-block index stays below 20. -/
private theorem index_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 19 ∧ win2_6.index t (1 : Fin 2) = 0 :=
  (by decide +kernel : ∀ t : Fin grid2.N, _)

/-- Every block of rows is some point's. -/
private theorem index_onto : ∀ q0 : Fin 20, ∃ t : Fin cfg2.N, win2_6.index t = ![q0.val, 0] :=
  (by decide +kernel : ∀ q0 : Fin 20, ∃ t : Fin grid2.N, win2_6.index t = ![q0.val, 0])

set_option maxHeartbeats 4000000 in
/-- What point t writes back is block t of the update of the arrays the region finds. -/
private theorem flushed_eq (c : Dev nD) (t : Fin cfg2.N) :
    (dat2 (F := Ideal) V c).flushed 6 t = ((cfg2.win 6).blk t).view.read (Elt Ideal)
      (updArr (V c main_v23) (V c main_v19) (V c main_v25) (fun k => V c main_v32 (ix2 (0 : Fin 1) k)) (V c main_v29)
          (fun k => V c main_v33 (ix2 (0 : Fin 1) k))) := by
  show (cfg2.win 6).cut (grid2.coords t) ((dat2 (F := Ideal) V c).after 6 t) = _
  rw [after2_6]
  unfold out2_6
  rw [Cert.Gine.Body.pay2_eq]
  rw [View.canon_unit_zero zero_off]
  simp only [View.ld_unit_zero (S := S5000x128) zero_off, View.ld_unit_zero (S := S128x128) zero_off,
    View.ld_unit_zero (S := S1x128) zero_off]
  funext j
  obtain ⟨r, q, rfl⟩ : ∃ r q, j = ix2 r q := ⟨j 0, j 1, eq_ix2 j⟩
  refine (Cert.Gine.Body.pay1_apply _ _ _ _ _ _ r q).trans ?_
  obtain ⟨e00, e01, e10, e11, e20, e21, e30, e31, e40, e41, e50, e51, -, e61⟩ := index_facts t
  show _ = updF (rows (V c main_v23 : Cn S100000x128 .f32)) (rows (V c main_v19 : Cn S100000x128 .f32))
      (rows (V c main_v25 : Cn S128x128 .f32)) (fun k => V c main_v32 (ix2 (0 : Fin 1) k))
      (rows (V c main_v29 : Cn S128x128 .f32)) (fun k => V c main_v33 (ix2 (0 : Fin 1) k))
      ((((cfg2.win 6).blk t).view.emb (ix2 r q)) 0) ((((cfg2.win 6).blk t).view.emb (ix2 r q)) 1)
  refine updF_ext _ _ _ _ _ _ _ _ _ _ _ _ _ _ _ _ (fun j => ?_) (fun j => ?_) (fun j k => ?_) (fun k => ?_)
    (fun j k => ?_) (fun k => ?_) ?_
  · -- row r of the block of aggregated messages is row 5000 t + r of the array
    show V c main_v23 (((cfg2.win 0).blk t).view.emb (ix2 r j))
      = V c main_v23 (ix2 ((((cfg2.win 6).blk t).view.emb (ix2 r q)) 0) j)
    congr 1; funext a; apply Fin.ext
    match a with
    | ⟨0, _⟩ => show win2_0.index t (0 : Fin 2) * 5000 + 1 * r.val = win2_6.index t (0 : Fin 2) * 5000 + 1 * r.val; omega
    | ⟨1, _⟩ => show win2_0.index t (1 : Fin 2) * 128 + 1 * j.val = j.val; omega
  · -- likewise for h
    show V c main_v19 (((cfg2.win 1).blk t).view.emb (ix2 r j))
      = V c main_v19 (ix2 ((((cfg2.win 6).blk t).view.emb (ix2 r q)) 0) j)
    congr 1; funext a; apply Fin.ext
    match a with
    | ⟨0, _⟩ => show win2_1.index t (0 : Fin 2) * 5000 + 1 * r.val = win2_6.index t (0 : Fin 2) * 5000 + 1 * r.val; omega
    | ⟨1, _⟩ => show win2_1.index t (1 : Fin 2) * 128 + 1 * j.val = j.val; omega
  · -- the weight and bias blocks are the whole arrays
    show V c main_v25 (((cfg2.win 2).blk t).view.emb (ix2 j k)) = V c main_v25 (ix2 j k)
    congr 1; funext a; apply Fin.ext
    match a with
    | ⟨0, _⟩ => show win2_2.index t (0 : Fin 2) * 128 + 1 * j.val = j.val; omega
    | ⟨1, _⟩ => show win2_2.index t (1 : Fin 2) * 128 + 1 * k.val = k.val; omega
  · show V c main_v32 (((cfg2.win 3).blk t).view.emb (ix2 (0 : Fin 1) k)) = V c main_v32 (ix2 (0 : Fin 1) k)
    congr 1; funext a; apply Fin.ext
    match a with
    | ⟨0, _⟩ => show win2_3.index t (0 : Fin 2) * 1 + 1 * 0 = 0; omega
    | ⟨1, _⟩ => show win2_3.index t (1 : Fin 2) * 128 + 1 * k.val = k.val; omega
  · show V c main_v29 (((cfg2.win 4).blk t).view.emb (ix2 j k)) = V c main_v29 (ix2 j k)
    congr 1; funext a; apply Fin.ext
    match a with
    | ⟨0, _⟩ => show win2_4.index t (0 : Fin 2) * 128 + 1 * j.val = j.val; omega
    | ⟨1, _⟩ => show win2_4.index t (1 : Fin 2) * 128 + 1 * k.val = k.val; omega
  · show V c main_v33 (((cfg2.win 5).blk t).view.emb (ix2 (0 : Fin 1) k)) = V c main_v33 (ix2 (0 : Fin 1) k)
    congr 1; funext a; apply Fin.ext
    match a with
    | ⟨0, _⟩ => show win2_5.index t (0 : Fin 2) * 1 + 1 * 0 = 0; omega
    | ⟨1, _⟩ => show win2_5.index t (1 : Fin 2) * 128 + 1 * k.val = k.val; omega
  · -- the block spans all 128 columns
    apply Fin.ext
    show q.val = win2_6.index t (1 : Fin 2) * 128 + 1 * q.val
    omega

/-- An index of the output array is in point t's block iff each coordinate is in the block's range on its axis. -/
private theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v34).slice (win2_6.rect t)).set ↔ _
  rw [View.set_slice_whole, Rect.mem_set_unit]
  exact Iff.rfl

/-- Row n lies in the block of point n / 5000: the 20 blocks tile the 100000 rows. -/
private theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ := index_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After node-update region 2 its output array holds the update of the arrays it found. -/
theorem arr2 (c : Dev nD) :
    (dat2 (F := Ideal) V c).arrAt 6 cfg2.N
      = updArr (V c main_v23) (V c main_v19) (V c main_v25) (fun k => V c main_v32 (ix2 (0 : Fin 1) k)) (V c main_v29)
          (fun k => V c main_v33 (ix2 (0 : Fin 1) k)) :=
  (dat2 (F := Ideal) V c).arrAt_eq_of_cover 6 _ (fun t _ => flushed_eq V c t) covered

end Cert.Gine.Arr

end
-- ==== Proof.KChain2.lean ====
/-
  The kernel's program from node-update region 1's exit to node-update region 2's exit (as for the first).
-/
import proofs.«411411_j85856396247548_1_alg».proof.Proof.Gen.KernelIdeal.Frame
import proofs.«411411_j85856396247548_1_alg».proof.Proof.Model
import proofs.«411411_j85856396247548_1_alg».proof.Proof.Arr2
import proofs.«411411_j85856396247548_1_alg».proof.Proof.KChain1
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-! ## Typed references: reading back what was just written is the identity -/

private theorem ofBuf_toBuf {T : BufTy} (x : StableHlo.TRef sig T) (v : T.Contents (Elt Ideal)) :
    x.ofBuf (x.toBuf v) = v := by
  obtain ⟨r, rfl, _, _⟩ := x; rfl

/-! ## The guarded pick of the source rows -/

set_option maxHeartbeats 1000000 in
private theorem take_at (c : Dev nD) :
    W6 (F := Ideal) m ρ c (Proc.devRef .tc main_v20)
      = pickGuarded (W5 (F := Ideal) m ρ c (Proc.devRef .tc main_v2)) (W5 (F := Ideal) m ρ c (Proc.devRef .tc main_v19)) := by
  show StableHlo.after hostOps2 (W5 m ρ c) (Proc.devRef .tc main_v20)
    = pickGuarded (W5 (F := Ideal) m ρ c (Proc.devRef .tc main_v2)) (W5 (F := Ideal) m ρ c (Proc.devRef .tc main_v19))
  generalize W5 (F := Ideal) m ρ c = V
  obtain ⟨s, hs⟩ : ∃ s : Cn S625000 .i32, s = V (Proc.devRef .tc main_v2) := ⟨_, rfl⟩
  obtain ⟨h, hh⟩ : ∃ h : Cn S100000x128 .f32, h = V (Proc.devRef .tc main_v19) := ⟨_, rfl⟩
  after_results_simp
  rw [← hs, ← hh]
  simp only [ofBuf_toBuf]
  have es : ∀ u : Cn S625000 .i32, (StableHlo.TRef.of main_v2 : StableHlo.TRef sig ⟨S625000, .i32⟩).ofBuf u = u := fun _ => rfl
  have eh : ∀ u : Cn S100000x128 .f32, (StableHlo.TRef.of main_v19 : StableHlo.TRef sig ⟨S100000x128, .f32⟩).ofBuf u = u := fun _ => rfl
  have eo : ∀ u : Cn S625000x128 .f32, (StableHlo.TRef.of main_v20 : StableHlo.TRef sig ⟨S625000x128, .f32⟩).toBuf u = u := fun _ => rfl
  rw [eo]
  simp only [es, eh]
  unfold pickGuarded pickPlain inRange colN wrapN
  rfl

/-! ## The aggregated messages and this layer's weights at the region's entry -/

private theorem agg_at (c : Dev nD) :
    W7 (F := Ideal) m ρ c (Proc.devRef .tc main_v23)
      = aggOf (W6 (F := Ideal) m ρ c (Proc.devRef .tc main_v4)) (W6 (F := Ideal) m ρ c (Proc.devRef .tc main_v20)) := by
  show StableHlo.after hostOps2_1 (W6 m ρ c) (Proc.devRef .tc main_v23)
    = aggOf (W6 (F := Ideal) m ρ c (Proc.devRef .tc main_v4)) (W6 (F := Ideal) m ρ c (Proc.devRef .tc main_v20))
  generalize W6 (F := Ideal) m ρ c = V
  after_results
  generalize V (Proc.devRef .tc main_v4) = d
  generalize V (Proc.devRef .tc main_v20) = p
  rfl

private theorem w1_at (c : Dev nD) :
    W7 (F := Ideal) m ρ c (Proc.devRef .tc main_v25) = mat1 (W6 (F := Ideal) m ρ c (Proc.devRef .tc main_arg6)) := by
  show StableHlo.after hostOps2_1 (W6 m ρ c) (Proc.devRef .tc main_v25) = mat1 (W6 (F := Ideal) m ρ c (Proc.devRef .tc main_arg6))
  generalize W6 (F := Ideal) m ρ c = V
  after_results
  generalize V (Proc.devRef .tc main_arg6) = a
  rfl

private theorem b1_at (c : Dev nD) :
    W7 (F := Ideal) m ρ c (Proc.devRef .tc main_v32)
      = shapeCast S1x128 (vec1 (W6 (F := Ideal) m ρ c (Proc.devRef .tc main_arg7))) shapeCasts_S128_S1x128 := by
  show StableHlo.after hostOps2_1 (W6 m ρ c) (Proc.devRef .tc main_v32)
    = shapeCast S1x128 (vec1 (W6 (F := Ideal) m ρ c (Proc.devRef .tc main_arg7))) shapeCasts_S128_S1x128
  generalize W6 (F := Ideal) m ρ c = V
  after_results
  generalize V (Proc.devRef .tc main_arg7) = a
  rfl

private theorem w2_at (c : Dev nD) :
    W7 (F := Ideal) m ρ c (Proc.devRef .tc main_v29) = mat1 (W6 (F := Ideal) m ρ c (Proc.devRef .tc main_arg8)) := by
  show StableHlo.after hostOps2_1 (W6 m ρ c) (Proc.devRef .tc main_v29) = mat1 (W6 (F := Ideal) m ρ c (Proc.devRef .tc main_arg8))
  generalize W6 (F := Ideal) m ρ c = V
  after_results
  generalize V (Proc.devRef .tc main_arg8) = a
  rfl

private theorem b2_at (c : Dev nD) :
    W7 (F := Ideal) m ρ c (Proc.devRef .tc main_v33)
      = shapeCast S1x128 (vec1 (W6 (F := Ideal) m ρ c (Proc.devRef .tc main_arg9))) shapeCasts_S128_S1x128 := by
  show StableHlo.after hostOps2_1 (W6 m ρ c) (Proc.devRef .tc main_v33)
    = shapeCast S1x128 (vec1 (W6 (F := Ideal) m ρ c (Proc.devRef .tc main_arg9))) shapeCasts_S128_S1x128
  generalize W6 (F := Ideal) m ρ c = V
  after_results
  generalize V (Proc.devRef .tc main_arg9) = a
  rfl

/-! ## The buffers the stretches leave as they were -/

private theorem h_W6 (c : Dev nD) :
    W6 (F := Ideal) m ρ c (Proc.devRef .tc main_v19) = W5 (F := Ideal) m ρ c (Proc.devRef .tc main_v19) :=
  StableHlo.after_of_forall_not_mem (b := Proc.devRef .tc main_v19) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem h_W7 (c : Dev nD) :
    W7 (F := Ideal) m ρ c (Proc.devRef .tc main_v19) = W6 (F := Ideal) m ρ c (Proc.devRef .tc main_v19) :=
  StableHlo.after_of_forall_not_mem (b := Proc.devRef .tc main_v19) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W6 (c : Dev nD) :
    W6 (F := Ideal) m ρ c (Proc.devRef .tc main_v2) = W5 (F := Ideal) m ρ c (Proc.devRef .tc main_v2) :=
  StableHlo.after_of_forall_not_mem (b := Proc.devRef .tc main_v2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W7 (c : Dev nD) :
    W7 (F := Ideal) m ρ c (Proc.devRef .tc main_v2) = W6 (F := Ideal) m ρ c (Proc.devRef .tc main_v2) :=
  StableHlo.after_of_forall_not_mem (b := Proc.devRef .tc main_v2) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W6 (c : Dev nD) :
    W6 (F := Ideal) m ρ c (Proc.devRef .tc main_v4) = W5 (F := Ideal) m ρ c (Proc.devRef .tc main_v4) :=
  StableHlo.after_of_forall_not_mem (b := Proc.devRef .tc main_v4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W7 (c : Dev nD) :
    W7 (F := Ideal) m ρ c (Proc.devRef .tc main_v4) = W6 (F := Ideal) m ρ c (Proc.devRef .tc main_v4) :=
  StableHlo.after_of_forall_not_mem (b := Proc.devRef .tc main_v4) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W6 (c : Dev nD) :
    W6 (F := Ideal) m ρ c (Proc.devRef .tc main_arg6) = W5 (F := Ideal) m ρ c (Proc.devRef .tc main_arg6) :=
  StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W7 (c : Dev nD) :
    W7 (F := Ideal) m ρ c (Proc.devRef .tc main_arg6) = W6 (F := Ideal) m ρ c (Proc.devRef .tc main_arg6) :=
  StableHlo.after_of_forall_not_mem (b := Proc.devRef .tc main_arg6) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W6 (c : Dev nD) :
    W6 (F := Ideal) m ρ c (Proc.devRef .tc main_arg7) = W5 (F := Ideal) m ρ c (Proc.devRef .tc main_arg7) :=
  StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W7 (c : Dev nD) :
    W7 (F := Ideal) m ρ c (Proc.devRef .tc main_arg7) = W6 (F := Ideal) m ρ c (Proc.devRef .tc main_arg7) :=
  StableHlo.after_of_forall_not_mem (b := Proc.devRef .tc main_arg7) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W6 (c : Dev nD) :
    W6 (F := Ideal) m ρ c (Proc.devRef .tc main_arg8) = W5 (F := Ideal) m ρ c (Proc.devRef .tc main_arg8) :=
  StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W7 (c : Dev nD) :
    W7 (F := Ideal) m ρ c (Proc.devRef .tc main_arg8) = W6 (F := Ideal) m ρ c (Proc.devRef .tc main_arg8) :=
  StableHlo.after_of_forall_not_mem (b := Proc.devRef .tc main_arg8) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W6 (c : Dev nD) :
    W6 (F := Ideal) m ρ c (Proc.devRef .tc main_arg9) = W5 (F := Ideal) m ρ c (Proc.devRef .tc main_arg9) :=
  StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W7 (c : Dev nD) :
    W7 (F := Ideal) m ρ c (Proc.devRef .tc main_arg9) = W6 (F := Ideal) m ρ c (Proc.devRef .tc main_arg9) :=
  StableHlo.after_of_forall_not_mem (b := Proc.devRef .tc main_arg9) _ _ (List.forall_iff_forall_mem.mp (by
      simp only [hostOps2_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## What the later rounds read at this region's exit -/

/-- At the region's exit the source row is still the launch's. -/
theorem src_W8 (c : Dev nD) :
    W8 (F := Ideal) m ρ c (Proc.devRef .tc main_v2) = srcOf (m ((c : Thread nD τ).loc main_arg1)) :=
  (W8_of_ne m ρ c main_v2 (by decide)).trans ((src_W7 m ρ c).trans ((src_W6 m ρ c).trans (src_W5 m ρ c)))

/-- At the region's exit the destination row is still the launch's. -/
theorem dst_W8 (c : Dev nD) :
    W8 (F := Ideal) m ρ c (Proc.devRef .tc main_v4) = dstOf (m ((c : Thread nD τ).loc main_arg1)) :=
  (W8_of_ne m ρ c main_v4 (by decide)).trans ((dst_W7 m ρ c).trans ((dst_W6 m ρ c).trans (dst_W5 m ρ c)))

/-- At the region's exit the stacked array main_arg6 is as launched. -/
theorem arg6_W8 (c : Dev nD) :
    W8 (F := Ideal) m ρ c (Proc.devRef .tc main_arg6) = m ((c : Thread nD τ).loc main_arg6) :=
  (W8_of_ne m ρ c main_arg6 (by decide)).trans ((arg6_W7 m ρ c).trans ((arg6_W6 m ρ c).trans (arg6_W5 m ρ c)))

/-- At the region's exit the stacked array main_arg7 is as launched. -/
theorem arg7_W8 (c : Dev nD) :
    W8 (F := Ideal) m ρ c (Proc.devRef .tc main_arg7) = m ((c : Thread nD τ).loc main_arg7) :=
  (W8_of_ne m ρ c main_arg7 (by decide)).trans ((arg7_W7 m ρ c).trans ((arg7_W6 m ρ c).trans (arg7_W5 m ρ c)))

/-- At the region's exit the stacked array main_arg8 is as launched. -/
theorem arg8_W8 (c : Dev nD) :
    W8 (F := Ideal) m ρ c (Proc.devRef .tc main_arg8) = m ((c : Thread nD τ).loc main_arg8) :=
  (W8_of_ne m ρ c main_arg8 (by decide)).trans ((arg8_W7 m ρ c).trans ((arg8_W6 m ρ c).trans (arg8_W5 m ρ c)))

/-- At the region's exit the stacked array main_arg9 is as launched. -/
theorem arg9_W8 (c : Dev nD) :
    W8 (F := Ideal) m ρ c (Proc.devRef .tc main_arg9) = m ((c : Thread nD τ).loc main_arg9) :=
  (W8_of_ne m ρ c main_arg9 (by decide)).trans ((arg9_W7 m ρ c).trans ((arg9_W6 m ρ c).trans (arg9_W5 m ρ c)))

/-! ## The round -/

/-- At this node-update region's exit its output is one round over the previous region's output. -/
theorem kc2 (c : Dev nD) :
    W8 (F := Ideal) m ρ c (Proc.devRef .tc main_v34)
      = layerG (pickGuarded (srcOf (m ((c : Thread nD τ).loc main_arg1)))) (dstOf (m ((c : Thread nD τ).loc main_arg1))) (W5 (F := Ideal) m ρ c (Proc.devRef .tc main_v19))
          (mat1 (m ((c : Thread nD τ).loc main_arg6))) (vec1 (m ((c : Thread nD τ).loc main_arg7))) (mat1 (m ((c : Thread nD τ).loc main_arg8))) (vec1 (m ((c : Thread nD τ).loc main_arg9))) := by
  refine (W8_arr m ρ c 6).trans ((Cert.Gine.Arr.arr2 (V7 m ρ) c).trans ?_)
  have eA : V7 (F := Ideal) m ρ c main_v23
      = aggOf (dstOf (m ((c : Thread nD τ).loc main_arg1)))
          (pickGuarded (srcOf (m ((c : Thread nD τ).loc main_arg1))) (W5 (F := Ideal) m ρ c (Proc.devRef .tc main_v19))) := by
    show W7 (F := Ideal) m ρ c (Proc.devRef .tc main_v23) = _
    rw [agg_at, dst_W6, dst_W5, take_at, src_W5]
  have eH : V7 (F := Ideal) m ρ c main_v19 = W5 (F := Ideal) m ρ c (Proc.devRef .tc main_v19) :=
    (h_W7 m ρ c).trans (h_W6 m ρ c)
  have eW1 : V7 (F := Ideal) m ρ c main_v25 = mat1 (m ((c : Thread nD τ).loc main_arg6)) := by
    show W7 (F := Ideal) m ρ c (Proc.devRef .tc main_v25) = _
    rw [w1_at, arg6_W6, arg6_W5]
  have eW2 : V7 (F := Ideal) m ρ c main_v29 = mat1 (m ((c : Thread nD τ).loc main_arg8)) := by
    show W7 (F := Ideal) m ρ c (Proc.devRef .tc main_v29) = _
    rw [w2_at, arg8_W6, arg8_W5]
  have eb1 : (fun k => V7 (F := Ideal) m ρ c main_v32 (ix2 (0 : Fin 1) k)) = ent (vec1 (m ((c : Thread nD τ).loc main_arg7))) := by
    funext k
    show W7 (F := Ideal) m ρ c (Proc.devRef .tc main_v32) (ix2 (0 : Fin 1) k) = _
    rw [b1_at, arg7_W6, arg7_W5]
    exact unitRow_apply _ _ k
  have eb2 : (fun k => V7 (F := Ideal) m ρ c main_v33 (ix2 (0 : Fin 1) k)) = ent (vec1 (m ((c : Thread nD τ).loc main_arg9))) := by
    funext k
    show W7 (F := Ideal) m ρ c (Proc.devRef .tc main_v33) (ix2 (0 : Fin 1) k) = _
    rw [b2_at, arg9_W6, arg9_W5]
    exact unitRow_apply _ _ k
  rw [eA, eH, eW1, eW2, eb1, eb2]
  rfl

end Cert.Gine.KChain

end
-- ==== Proof.Arr3.lean ====
/-
  Node-update region 3's output array.

  The grid has 20 points; point t stages rows 5000 t … 5000 t + 4999 of the aggregated messages, of h and of the output,
  and the whole weight and bias arrays. Row n of the update depends on row n of the two node arrays only, so what a point
  writes back is its block of one whole-array function, and the 20 blocks tile the 100000 rows.
-/
import proofs.«411411_j85856396247548_1_alg».proof.Proof.Gen.KernelIdeal.Frame
import proofs.«411411_j85856396247548_1_alg».proof.Proof.Model
import proofs.«411411_j85856396247548_1_alg».proof.Proof.Body
import Idealize.ShloMosaic.Lib.Pipeline.Value

set_option maxRecDepth 16384

noncomputable section

open scoped BigOperators

namespace Cert.Gine.Arr

open Idealize.ShloMosaic Idealize.ShloMosaic.ValueIdx Idealize.ShloMosaic.TcCoe Cert.KernelIdeal Cert.KernelIdeal.Gen Cert.Gine

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The update at (n, q) is determined by row n of the two node arrays and by the entries of the weights and biases. -/
private theorem updF_ext {N N' : Nat} (agg h : Fin N → Fin 128 → EReal) (agg' h' : Fin N' → Fin 128 → EReal)
    (W1 W1' : Fin 128 → Fin 128 → EReal) (b1 b1' : Fin 128 → EReal) (W2 W2' : Fin 128 → Fin 128 → EReal)
    (b2 b2' : Fin 128 → EReal) (n : Fin N) (n' : Fin N') (q q' : Fin 128)
    (ha : ∀ j, agg n j = agg' n' j) (hh : ∀ j, h n j = h' n' j) (hW1 : ∀ j k, W1 j k = W1' j k)
    (hb1 : ∀ k, b1 k = b1' k) (hW2 : ∀ j k, W2 j k = W2' j k) (hb2 : ∀ k, b2 k = b2' k) (hq : q = q') :
    updF agg h W1 b1 W2 b2 n q = updF agg' h' W1' b1' W2' b2' n' q' := by
  obtain rfl : W1 = W1' := funext fun j => funext fun k => hW1 j k
  obtain rfl : b1 = b1' := funext hb1
  obtain rfl : W2 = W2' := funext fun j => funext fun k => hW2 j k
  obtain rfl : b2 = b2' := funext hb2
  subst hq
  exact updF_congr agg h agg' h' W1 b1 W2 b2 n n' ha hh q

/-- The printed index maps, decided over the grid: the two node windows move with the output window along the rows,
    every other block index is zero, and the output's row-block index stays below 20. -/
private theorem index_facts : ∀ t : Fin cfg3.N,
    win3_0.index t (0 : Fin 2) = win3_6.index t (0 : Fin 2) ∧ win3_0.index t (1 : Fin 2) = 0
    ∧ win3_1.index t (0 : Fin 2) = win3_6.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 19 ∧ win3_6.index t (1 : Fin 2) = 0 :=
  (by decide +kernel : ∀ t : Fin grid3.N, _)

/-- Every block of rows is some point's. -/
private theorem index_onto : ∀ q0 : Fin 20, ∃ t : Fin cfg3.N, win3_6.index t = ![q0.val, 0] :=
  (by decide +kernel : ∀ q0 : Fin 20, ∃ t : Fin grid3.N, win3_6.index t = ![q0.val, 0])

set_option maxHeartbeats 4000000 in
/-- What point t writes back is block t of the update of the arrays the region finds. -/
private theorem flushed_eq (c : Dev nD) (t : Fin cfg3.N) :
    (dat3 (F := Ideal) V c).flushed 6 t = ((cfg3.win 6).blk t).view.read (Elt Ideal)
      (updArr (V c main_v38) (V c main_v34) (V c main_v40) (fun k => V c main_v47 (ix2 (0 : Fin 1) k)) (V c main_v44)
          (fun k => V c main_v48 (ix2 (0 : Fin 1) k))) := by
  show (cfg3.win 6).cut (grid3.coords t) ((dat3 (F := Ideal) V c).after 6 t) = _
  rw [after3_6]
  unfold out3_6
  rw [Cert.Gine.Body.pay3_eq]
  rw [View.canon_unit_zero zero_off]
  simp only [View.ld_unit_zero (S := S5000x128) zero_off, View.ld_unit_zero (S := S128x128) zero_off,
    View.ld_unit_zero (S := S1x128) zero_off]
  funext j
  obtain ⟨r, q, rfl⟩ : ∃ r q, j = ix2 r q := ⟨j 0, j 1, eq_ix2 j⟩
  refine (Cert.Gine.Body.pay1_apply _ _ _ _ _ _ r q).trans ?_
  obtain ⟨e00, e01, e10, e11, e20, e21, e30, e31, e40, e41, e50, e51, -, e61⟩ := index_facts t
  show _ = updF (rows (V c main_v38 : Cn S100000x128 .f32)) (rows (V c main_v34 : Cn S100000x128 .f32))
      (rows (V c main_v40 : Cn S128x128 .f32)) (fun k => V c main_v47 (ix2 (0 : Fin 1) k))
      (rows (V c main_v44 : Cn S128x128 .f32)) (fun k => V c main_v48 (ix2 (0 : Fin 1) k))
      ((((cfg3.win 6).blk t).view.emb (ix2 r q)) 0) ((((cfg3.win 6).blk t).view.emb (ix2 r q)) 1)
  refine updF_ext _ _ _ _ _ _ _ _ _ _ _ _ _ _ _ _ (fun j => ?_) (fun j => ?_) (fun j k => ?_) (fun k => ?_)
    (fun j k => ?_) (fun k => ?_) ?_
  · -- row r of the block of aggregated messages is row 5000 t + r of the array
    show V c main_v38 (((cfg3.win 0).blk t).view.emb (ix2 r j))
      = V c main_v38 (ix2 ((((cfg3.win 6).blk t).view.emb (ix2 r q)) 0) j)
    congr 1; funext a; apply Fin.ext
    match a with
    | ⟨0, _⟩ => show win3_0.index t (0 : Fin 2) * 5000 + 1 * r.val = win3_6.index t (0 : Fin 2) * 5000 + 1 * r.val; omega
    | ⟨1, _⟩ => show win3_0.index t (1 : Fin 2) * 128 + 1 * j.val = j.val; omega
  · -- likewise for h
    show V c main_v34 (((cfg3.win 1).blk t).view.emb (ix2 r j))
      = V c main_v34 (ix2 ((((cfg3.win 6).blk t).view.emb (ix2 r q)) 0) j)
    congr 1; funext a; apply Fin.ext
    match a with
    | ⟨0, _⟩ => show win3_1.index t (0 : Fin 2) * 5000 + 1 * r.val = win3_6.index t (0 : Fin 2) * 5000 + 1 * r.val; omega
    | ⟨1, _⟩ => show win3_1.index t (1 : Fin 2) * 128 + 1 * j.val = j.val; omega
  · -- the weight and bias blocks are the whole arrays
    show V c main_v40 (((cfg3.win 2).blk t).view.emb (ix2 j k)) = V c main_v40 (ix2 j k)
    congr 1; funext a; apply Fin.ext
    match a with
    | ⟨0, _⟩ => show win3_2.index t (0 : Fin 2) * 128 + 1 * j.val = j.val; omega
    | ⟨1, _⟩ => show win3_2.index t (1 : Fin 2) * 128 + 1 * k.val = k.val; omega
  · show V c main_v47 (((cfg3.win 3).blk t).view.emb (ix2 (0 : Fin 1) k)) = V c main_v47 (ix2 (0 : Fin 1) k)
    congr 1; funext a; apply Fin.ext
    match a with
    | ⟨0, _⟩ => show win3_3.index t (0 : Fin 2) * 1 + 1 * 0 = 0; omega
    | ⟨1, _⟩ => show win3_3.index t (1 : Fin 2) * 128 + 1 * k.val = k.val; omega
  · show V c main_v44 (((cfg3.win 4).blk t).view.emb (ix2 j k)) = V c main_v44 (ix2 j k)
    congr 1; funext a; apply Fin.ext
    match a with
    | ⟨0, _⟩ => show win3_4.index t (0 : Fin 2) * 128 + 1 * j.val = j.val; omega
    | ⟨1, _⟩ => show win3_4.index t (1 : Fin 2) * 128 + 1 * k.val = k.val; omega
  · show V c main_v48 (((cfg3.win 5).blk t).view.emb (ix2 (0 : Fin 1) k)) = V c main_v48 (ix2 (0 : Fin 1) k)
    congr 1; funext a; apply Fin.ext
    match a with
    | ⟨0, _⟩ => show win3_5.index t (0 : Fin 2) * 1 + 1 * 0 = 0; omega
    | ⟨1, _⟩ => show win3_5.index t (1 : Fin 2) * 128 + 1 * k.val = k.val; omega
  · -- the block spans all 128 columns
    apply Fin.ext
    show q.val = win3_6.index t (1 : Fin 2) * 128 + 1 * q.val
    omega

/-- An index of the output array is in point t's block iff each coordinate is in the block's range on its axis. -/
private theorem mem_blk (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v49).slice (win3_6.rect t)).set ↔ _
  rw [View.set_slice_whole, Rect.mem_set_unit]
  exact Iff.rfl

/-- Row n lies in the block of point n / 5000: the 20 blocks tile the 100000 rows. -/
private theorem covered (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := index_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- After node-update region 3 its output array holds the update of the arrays it found. -/
theorem arr3 (c : Dev nD) :
    (dat3 (F := Ideal) V c).arrAt 6 cfg3.N
      = updArr (V c main_v38) (V c main_v34) (V c main_v40) (fun k => V c main_v47 (ix2 (0 : Fin 1) k)) (V c main_v44)
          (fun k => V c main_v48 (ix2 (0 : Fin 1) k)) :=
  (dat3 (F := Ideal) V c).arrAt_eq_of_cover 6 _ (fun t _ => flushed_eq V c t) covered

end Cert.Gine.Arr

end
-- ==== Proof.KChain3.lean ====
/-
  The kernel's program from node-update region 2's exit to node-update region 3's exit (as for the first).
-/
import proofs.«411411_j85856396247548_1_alg».proof.Proof.Gen.KernelIdeal.Frame
import proofs.«411411_j85856396247548_1_alg».proof.Proof.Model
import proofs.«411411_j85856396247548_1_alg».proof.Proof.Arr3
import proofs.«411411_j85856396247548_1_alg».proof.Proof.KChain2
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-! ## Typed references: reading back what was just written is the identity -/

private theorem ofBuf_toBuf {T : BufTy} (x : StableHlo.TRef sig T) (v : T.Contents (Elt Ideal)) :
    x.ofBuf (x.toBuf v) = v := by
  obtain ⟨r, rfl, _, _⟩ := x; rfl

/-! ## The guarded pick of the source rows -/

set_option maxHeartbeats 1000000 in
private theorem take_at (c : Dev nD) :
    W9 (F := Ideal) m ρ c (Proc.devRef .tc main_v35)
      = pickGuarded (W8 (F := Ideal) m ρ c (Proc.devRef .tc main_v2)) (W8 (F := Ideal) m ρ c (Proc.devRef .tc main_v34)) := by
  show StableHlo.after hostOps3 (W8 m ρ c) (Proc.devRef .tc main_v35)
    = pickGuarded (W8 (F := Ideal) m ρ c (Proc.devRef .tc main_v2)) (W8 (F := Ideal) m ρ c (Proc.devRef .tc main_v34))
  generalize W8 (F := Ideal) m ρ c = V
  obtain ⟨s, hs⟩ : ∃ s : Cn S625000 .i32, s = V (Proc.devRef .tc main_v2) := ⟨_, rfl⟩
  obtain ⟨h, hh⟩ : ∃ h : Cn S100000x128 .f32, h = V (Proc.devRef .tc main_v34) := ⟨_, rfl⟩
  after_results_simp
  rw [← hs, ← hh]
  simp only [ofBuf_toBuf]
  have es : ∀ u : Cn S625000 .i32, (StableHlo.TRef.of main_v2 : StableHlo.TRef sig ⟨S625000, .i32⟩).ofBuf u = u := fun _ => rfl
  have eh : ∀ u : Cn S100000x128 .f32, (StableHlo.TRef.of main_v34 : StableHlo.TRef sig ⟨S100000x128, .f32⟩).ofBuf u = u := fun _ => rfl
  have eo : ∀ u : Cn S625000x128 .f32, (StableHlo.TRef.of main_v35 : StableHlo.TRef sig ⟨S625000x128, .f32⟩).toBuf u = u := fun _ => rfl
  rw [eo]
  simp only [es, eh]
  unfold pickGuarded pickPlain inRange colN wrapN
  rfl

/-! ## The aggregated messages and this layer's weights at the region's entry -/

private theorem agg_at (c : Dev nD) :
    W10 (F := Ideal) m ρ c (Proc.devRef .tc main_v38)
      = aggOf (W9 (F := Ideal) m ρ c (Proc.devRef .tc main_v4)) (W9 (F := Ideal) m ρ c (Proc.devRef .tc main_v35)) := by
  show StableHlo.after hostOps3_1 (W9 m ρ c) (Proc.devRef .tc main_v38)
    = aggOf (W9 (F := Ideal) m ρ c (Proc.devRef .tc main_v4)) (W9 (F := Ideal) m ρ c (Proc.devRef .tc main_v35))
  generalize W9 (F := Ideal) m ρ c = V
  after_results
  generalize V (Proc.devRef .tc main_v4) = d
  generalize V (Proc.devRef .tc main_v35) = p
  rfl

private theorem w1_at (c : Dev nD) :
    W10 (F := Ideal) m ρ c (Proc.devRef .tc main_v40) = mat2 (W9 (F := Ideal) m ρ c (Proc.devRef .tc main_arg6)) := by
  show StableHlo.after hostOps3_1 (W9 m ρ c) (Proc.devRef .tc main_v40) = mat2 (W9 (F := Ideal) m ρ c (Proc.devRef .tc main_arg6))
  generalize W9 (F := Ideal) m ρ c = V
  after_results
  generalize V (Proc.devRef .tc main_arg6) = a
  rfl

private theorem b1_at (c : Dev nD) :
    W10 (F := Ideal) m ρ c (Proc.devRef .tc main_v47)
      = shapeCast S1x128 (vec2 (W9 (F := Ideal) m ρ c (Proc.devRef .tc main_arg7))) shapeCasts_S128_S1x128 := by
  show StableHlo.after hostOps3_1 (W9 m ρ c) (Proc.devRef .tc main_v47)
    = shapeCast S1x128 (vec2 (W9 (F := Ideal) m ρ c (Proc.devRef .tc main_arg7))) shapeCasts_S128_S1x128
  generalize W9 (F := Ideal) m ρ c = V
  after_results
  generalize V (Proc.devRef .tc main_arg7) = a
  rfl

private theorem w2_at (c : Dev nD) :
    W10 (F := Ideal) m ρ c (Proc.devRef .tc main_v44) = mat2 (W9 (F := Ideal) m ρ c (Proc.devRef .tc main_arg8)) := by
  show StableHlo.after hostOps3_1 (W9 m ρ c) (Proc.devRef .tc main_v44) = mat2 (W9 (F := Ideal) m ρ c (Proc.devRef .tc main_arg8))
  generalize W9 (F := Ideal) m ρ c = V
  after_results
  generalize V (Proc.devRef .tc main_arg8) = a
  rfl

private theorem b2_at (c : Dev nD) :
    W10 (F := Ideal) m ρ c (Proc.devRef .tc main_v48)
      = shapeCast S1x128 (vec2 (W9 (F := Ideal) m ρ c (Proc.devRef .tc main_arg9))) shapeCasts_S128_S1x128 := by
  show StableHlo.after hostOps3_1 (W9 m ρ c) (Proc.devRef .tc main_v48)
    = shapeCast S1x128 (vec2 (W9 (F := Ideal) m ρ c (Proc.devRef .tc main_arg9))) shapeCasts_S128_S1x128
  generalize W9 (F := Ideal) m ρ c = V
  after_results
  generalize V (Proc.devRef .tc main_arg9) = a
  rfl

/-! ## The buffers the stretches leave as they were -/

private theorem h_W6 (c : Dev nD) :
    W9 (F := Ideal) m ρ c (Proc.devRef .tc main_v34) = W8 (F := Ideal) m ρ c (Proc.devRef .tc main_v34) :=
  StableHlo.after_of_forall_not_mem (b := Proc.devRef .tc main_v34) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem h_W7 (c : Dev nD) :
    W10 (F := Ideal) m ρ c (Proc.devRef .tc main_v34) = W9 (F := Ideal) m ρ c (Proc.devRef .tc main_v34) :=
  StableHlo.after_of_forall_not_mem (b := Proc.devRef .tc main_v34) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W9 (c : Dev nD) :
    W9 (F := Ideal) m ρ c (Proc.devRef .tc main_v2) = W8 (F := Ideal) m ρ c (Proc.devRef .tc main_v2) :=
  StableHlo.after_of_forall_not_mem (b := Proc.devRef .tc main_v2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W10 (c : Dev nD) :
    W10 (F := Ideal) m ρ c (Proc.devRef .tc main_v2) = W9 (F := Ideal) m ρ c (Proc.devRef .tc main_v2) :=
  StableHlo.after_of_forall_not_mem (b := Proc.devRef .tc main_v2) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W9 (c : Dev nD) :
    W9 (F := Ideal) m ρ c (Proc.devRef .tc main_v4) = W8 (F := Ideal) m ρ c (Proc.devRef .tc main_v4) :=
  StableHlo.after_of_forall_not_mem (b := Proc.devRef .tc main_v4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W10 (c : Dev nD) :
    W10 (F := Ideal) m ρ c (Proc.devRef .tc main_v4) = W9 (F := Ideal) m ρ c (Proc.devRef .tc main_v4) :=
  StableHlo.after_of_forall_not_mem (b := Proc.devRef .tc main_v4) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W9 (c : Dev nD) :
    W9 (F := Ideal) m ρ c (Proc.devRef .tc main_arg6) = W8 (F := Ideal) m ρ c (Proc.devRef .tc main_arg6) :=
  StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W10 (c : Dev nD) :
    W10 (F := Ideal) m ρ c (Proc.devRef .tc main_arg6) = W9 (F := Ideal) m ρ c (Proc.devRef .tc main_arg6) :=
  StableHlo.after_of_forall_not_mem (b := Proc.devRef .tc main_arg6) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W9 (c : Dev nD) :
    W9 (F := Ideal) m ρ c (Proc.devRef .tc main_arg7) = W8 (F := Ideal) m ρ c (Proc.devRef .tc main_arg7) :=
  StableHlo.after_of_forall_not_mem (b := Proc.devRef .tc main_arg7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W10 (c : Dev nD) :
    W10 (F := Ideal) m ρ c (Proc.devRef .tc main_arg7) = W9 (F := Ideal) m ρ c (Proc.devRef .tc main_arg7) :=
  StableHlo.after_of_forall_not_mem (b := Proc.devRef .tc main_arg7) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W9 (c : Dev nD) :
    W9 (F := Ideal) m ρ c (Proc.devRef .tc main_arg8) = W8 (F := Ideal) m ρ c (Proc.devRef .tc main_arg8) :=
  StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W10 (c : Dev nD) :
    W10 (F := Ideal) m ρ c (Proc.devRef .tc main_arg8) = W9 (F := Ideal) m ρ c (Proc.devRef .tc main_arg8) :=
  StableHlo.after_of_forall_not_mem (b := Proc.devRef .tc main_arg8) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W9 (c : Dev nD) :
    W9 (F := Ideal) m ρ c (Proc.devRef .tc main_arg9) = W8 (F := Ideal) m ρ c (Proc.devRef .tc main_arg9) :=
  StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W10 (c : Dev nD) :
    W10 (F := Ideal) m ρ c (Proc.devRef .tc main_arg9) = W9 (F := Ideal) m ρ c (Proc.devRef .tc main_arg9) :=
  StableHlo.after_of_forall_not_mem (b := Proc.devRef .tc main_arg9) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## What the later rounds read at this region's exit -/

/-- At the region's exit the source row is still the launch's. -/
theorem src_W11 (c : Dev nD) :
    W11 (F := Ideal) m ρ c (Proc.devRef .tc main_v2) = srcOf (m ((c : Thread nD τ).loc main_arg1)) :=
  (W11_of_ne m ρ c main_v2 (by decide)).trans ((src_W10 m ρ c).trans ((src_W9 m ρ c).trans (src_W8 m ρ c)))

/-- At the region's exit the destination row is still the launch's. -/
theorem dst_W11 (c : Dev nD) :
    W11 (F := Ideal) m ρ c (Proc.devRef .tc main_v4) = dstOf (m ((c : Thread nD τ).loc main_arg1)) :=
  (W11_of_ne m ρ c main_v4 (by decide)).trans ((dst_W10 m ρ c).trans ((dst_W9 m ρ c).trans (dst_W8 m ρ c)))

/-- At the region's exit the stacked array main_arg6 is as launched. -/
theorem arg6_W11 (c : Dev nD) :
    W11 (F := Ideal) m ρ c (Proc.devRef .tc main_arg6) = m ((c : Thread nD τ).loc main_arg6) :=
  (W11_of_ne m ρ c main_arg6 (by decide)).trans ((arg6_W10 m ρ c).trans ((arg6_W9 m ρ c).trans (arg6_W8 m ρ c)))

/-- At the region's exit the stacked array main_arg7 is as launched. -/
theorem arg7_W11 (c : Dev nD) :
    W11 (F := Ideal) m ρ c (Proc.devRef .tc main_arg7) = m ((c : Thread nD τ).loc main_arg7) :=
  (W11_of_ne m ρ c main_arg7 (by decide)).trans ((arg7_W10 m ρ c).trans ((arg7_W9 m ρ c).trans (arg7_W8 m ρ c)))

/-- At the region's exit the stacked array main_arg8 is as launched. -/
theorem arg8_W11 (c : Dev nD) :
    W11 (F := Ideal) m ρ c (Proc.devRef .tc main_arg8) = m ((c : Thread nD τ).loc main_arg8) :=
  (W11_of_ne m ρ c main_arg8 (by decide)).trans ((arg8_W10 m ρ c).trans ((arg8_W9 m ρ c).trans (arg8_W8 m ρ c)))

/-- At the region's exit the stacked array main_arg9 is as launched. -/
theorem arg9_W11 (c : Dev nD) :
    W11 (F := Ideal) m ρ c (Proc.devRef .tc main_arg9) = m ((c : Thread nD τ).loc main_arg9) :=
  (W11_of_ne m ρ c main_arg9 (by decide)).trans ((arg9_W10 m ρ c).trans ((arg9_W9 m ρ c).trans (arg9_W8 m ρ c)))

/-! ## The round -/

/-- At this node-update region's exit its output is one round over the previous region's output. -/
theorem kc3 (c : Dev nD) :
    W11 (F := Ideal) m ρ c (Proc.devRef .tc main_v49)
      = layerG (pickGuarded (srcOf (m ((c : Thread nD τ).loc main_arg1)))) (dstOf (m ((c : Thread nD τ).loc main_arg1))) (W8 (F := Ideal) m ρ c (Proc.devRef .tc main_v34))
          (mat2 (m ((c : Thread nD τ).loc main_arg6))) (vec2 (m ((c : Thread nD τ).loc main_arg7))) (mat2 (m ((c : Thread nD τ).loc main_arg8))) (vec2 (m ((c : Thread nD τ).loc main_arg9))) := by
  refine (W11_arr m ρ c 6).trans ((Cert.Gine.Arr.arr3 (V10 m ρ) c).trans ?_)
  have eA : V10 (F := Ideal) m ρ c main_v38
      = aggOf (dstOf (m ((c : Thread nD τ).loc main_arg1)))
          (pickGuarded (srcOf (m ((c : Thread nD τ).loc main_arg1))) (W8 (F := Ideal) m ρ c (Proc.devRef .tc main_v34))) := by
    show W10 (F := Ideal) m ρ c (Proc.devRef .tc main_v38) = _
    rw [agg_at, dst_W9, dst_W8, take_at, src_W8]
  have eH : V10 (F := Ideal) m ρ c main_v34 = W8 (F := Ideal) m ρ c (Proc.devRef .tc main_v34) :=
    (h_W7 m ρ c).trans (h_W6 m ρ c)
  have eW1 : V10 (F := Ideal) m ρ c main_v40 = mat2 (m ((c : Thread nD τ).loc main_arg6)) := by
    show W10 (F := Ideal) m ρ c (Proc.devRef .tc main_v40) = _
    rw [w1_at, arg6_W9, arg6_W8]
  have eW2 : V10 (F := Ideal) m ρ c main_v44 = mat2 (m ((c : Thread nD τ).loc main_arg8)) := by
    show W10 (F := Ideal) m ρ c (Proc.devRef .tc main_v44) = _
    rw [w2_at, arg8_W9, arg8_W8]
  have eb1 : (fun k => V10 (F := Ideal) m ρ c main_v47 (ix2 (0 : Fin 1) k)) = ent (vec2 (m ((c : Thread nD τ).loc main_arg7))) := by
    funext k
    show W10 (F := Ideal) m ρ c (Proc.devRef .tc main_v47) (ix2 (0 : Fin 1) k) = _
    rw [b1_at, arg7_W9, arg7_W8]
    exact unitRow_apply _ _ k
  have eb2 : (fun k => V10 (F := Ideal) m ρ c main_v48 (ix2 (0 : Fin 1) k)) = ent (vec2 (m ((c : Thread nD τ).loc main_arg9))) := by
    funext k
    show W10 (F := Ideal) m ρ c (Proc.devRef .tc main_v48) (ix2 (0 : Fin 1) k) = _
    rw [b2_at, arg9_W9, arg9_W8]
    exact unitRow_apply _ _ k
  rw [eA, eH, eW1, eW2, eb1, eb2]
  rfl

end Cert.Gine.KChain

end
-- ==== Proof.Arr4.lean ====
/-
  Node-update region 4's output array.

  The grid has 20 points; point t stages rows 5000 t … 5000 t + 4999 of the aggregated messages, of h and of the output,
  and the whole weight and bias arrays. Row n of the update depends on row n of the two node arrays only, so what a point
  writes back is its block of one whole-array function, and the 20 blocks tile the 100000 rows.
-/
import proofs.«411411_j85856396247548_1_alg».proof.Proof.Gen.KernelIdeal.Frame
import proofs.«411411_j85856396247548_1_alg».proof.Proof.Model
import proofs.«411411_j85856396247548_1_alg».proof.Proof.Body
import Idealize.ShloMosaic.Lib.Pipeline.Value

set_option maxRecDepth 16384

noncomputable section

open scoped BigOperators

namespace Cert.Gine.Arr

open Idealize.ShloMosaic Idealize.ShloMosaic.ValueIdx Idealize.ShloMosaic.TcCoe Cert.KernelIdeal Cert.KernelIdeal.Gen Cert.Gine

variable (V : (c : Dev nD) → (b : Ref sig .tc) → Buf (Elt Ideal) ((c : Thread nD τ).loc b))

/-- The zero offsets of a whole-block rectangle, as the constant function. -/
private theorem zero_off : (![0, 0] : Fin 2 → Nat) = fun _ => 0 := funext fun a => by fin_cases a <;> rfl

/-- The update at (n, q) is determined by row n of the two node arrays and by the entries of the weights and biases. -/
private theorem updF_ext {N N' : Nat} (agg h : Fin N → Fin 128 → EReal) (agg' h' : Fin N' → Fin 128 → EReal)
    (W1 W1' : Fin 128 → Fin 128 → EReal) (b1 b1' : Fin 128 → EReal) (W2 W2' : Fin 128 → Fin 128 → EReal)
    (b2 b2' : Fin 128 → EReal) (n : Fin N) (n' : Fin N') (q q' : Fin 128)
    (ha : ∀ j, agg n j = agg' n' j) (hh : ∀ j, h n j = h' n' j) (hW1 : ∀ j k, W1 j k = W1' j k)
    (hb1 : ∀ k, b1 k = b1' k) (hW2 : ∀ j k, W2 j k = W2' j k) (hb2 : ∀ k, b2 k = b2' k) (hq : q = q') :
    updF agg h W1 b1 W2 b2 n q = updF agg' h' W1' b1' W2' b2' n' q' := by
  obtain rfl : W1 = W1' := funext fun j => funext fun k => hW1 j k
  obtain rfl : b1 = b1' := funext hb1
  obtain rfl : W2 = W2' := funext fun j => funext fun k => hW2 j k
  obtain rfl : b2 = b2' := funext hb2
  subst hq
  exact updF_congr agg h agg' h' W1 b1 W2 b2 n n' ha hh q

/-- The printed index maps, decided over the grid: the two node windows move with the output window along the rows,
    every other block index is zero, and the output's row-block index stays below 20. -/
private theorem index_facts : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) ≤ 19 ∧ win4_6.index t (1 : Fin 2) = 0 :=
  (by decide +kernel : ∀ t : Fin grid4.N, _)

/-- Every block of rows is some point's. -/
private theorem index_onto : ∀ q0 : Fin 20, ∃ t : Fin cfg4.N, win4_6.index t = ![q0.val, 0] :=
  (by decide +kernel : ∀ q0 : Fin 20, ∃ t : Fin grid4.N, win4_6.index t = ![q0.val, 0])

set_option maxHeartbeats 4000000 in
/-- What point t writes back is block t of the update of the arrays the region finds. -/
private theorem flushed_eq (c : Dev nD) (t : Fin cfg4.N) :
    (dat4 (F := Ideal) V c).flushed 6 t = ((cfg4.win 6).blk t).view.read (Elt Ideal)
      (updArr (V c main_v53) (V c main_v49) (V c main_v55) (fun k => V c main_v62 (ix2 (0 : Fin 1) k)) (V c main_v59)
          (fun k => V c main_v63 (ix2 (0 : Fin 1) k))) := by
  show (cfg4.win 6).cut (grid4.coords t) ((dat4 (F := Ideal) V c).after 6 t) = _
  rw [after4_6]
  unfold out4_6
  rw [Cert.Gine.Body.pay4_eq]
  rw [View.canon_unit_zero zero_off]
  simp only [View.ld_unit_zero (S := S5000x128) zero_off, View.ld_unit_zero (S := S128x128) zero_off,
    View.ld_unit_zero (S := S1x128) zero_off]
  funext j
  obtain ⟨r, q, rfl⟩ : ∃ r q, j = ix2 r q := ⟨j 0, j 1, eq_ix2 j⟩
  refine (Cert.Gine.Body.pay1_apply _ _ _ _ _ _ r q).trans ?_
  obtain ⟨e00, e01, e10, e11, e20, e21, e30, e31, e40, e41, e50, e51, -, e61⟩ := index_facts t
  show _ = updF (rows (V c main_v53 : Cn S100000x128 .f32)) (rows (V c main_v49 : Cn S100000x128 .f32))
      (rows (V c main_v55 : Cn S128x128 .f32)) (fun k => V c main_v62 (ix2 (0 : Fin 1) k))
      (rows (V c main_v59 : Cn S128x128 .f32)) (fun k => V c main_v63 (ix2 (0 : Fin 1) k))
      ((((cfg4.win 6).blk t).view.emb (ix2 r q)) 0) ((((cfg4.win 6).blk t).view.emb (ix2 r q)) 1)
  refine updF_ext _ _ _ _ _ _ _ _ _ _ _ _ _ _ _ _ (fun j => ?_) (fun j => ?_) (fun j k => ?_) (fun k => ?_)
    (fun j k => ?_) (fun k => ?_) ?_
  · -- row r of the block of aggregated messages is row 5000 t + r of the array
    show V c main_v53 (((cfg4.win 0).blk t).view.emb (ix2 r j))
      = V c main_v53 (ix2 ((((cfg4.win 6).blk t).view.emb (ix2 r q)) 0) j)
    congr 1; funext a; apply Fin.ext
    match a with
    | ⟨0, _⟩ => show win4_0.index t (0 : Fin 2) * 5000 + 1 * r.val = win4_6.index t (0 : Fin 2) * 5000 + 1 * r.val; omega
    | ⟨1, _⟩ => show win4_0.index t (1 : Fin 2) * 128 + 1 * j.val = j.val; omega
  · -- likewise for h
    show V c main_v49 (((cfg4.win 1).blk t).view.emb (ix2 r j))
      = V c main_v49 (ix2 ((((cfg4.win 6).blk t).view.emb (ix2 r q)) 0) j)
    congr 1; funext a; apply Fin.ext
    match a with
    | ⟨0, _⟩ => show win4_1.index t (0 : Fin 2) * 5000 + 1 * r.val = win4_6.index t (0 : Fin 2) * 5000 + 1 * r.val; omega
    | ⟨1, _⟩ => show win4_1.index t (1 : Fin 2) * 128 + 1 * j.val = j.val; omega
  · -- the weight and bias blocks are the whole arrays
    show V c main_v55 (((cfg4.win 2).blk t).view.emb (ix2 j k)) = V c main_v55 (ix2 j k)
    congr 1; funext a; apply Fin.ext
    match a with
    | ⟨0, _⟩ => show win4_2.index t (0 : Fin 2) * 128 + 1 * j.val = j.val; omega
    | ⟨1, _⟩ => show win4_2.index t (1 : Fin 2) * 128 + 1 * k.val = k.val; omega
  · show V c main_v62 (((cfg4.win 3).blk t).view.emb (ix2 (0 : Fin 1) k)) = V c main_v62 (ix2 (0 : Fin 1) k)
    congr 1; funext a; apply Fin.ext
    match a with
    | ⟨0, _⟩ => show win4_3.index t (0 : Fin 2) * 1 + 1 * 0 = 0; omega
    | ⟨1, _⟩ => show win4_3.index t (1 : Fin 2) * 128 + 1 * k.val = k.val; omega
  · show V c main_v59 (((cfg4.win 4).blk t).view.emb (ix2 j k)) = V c main_v59 (ix2 j k)
    congr 1; funext a; apply Fin.ext
    match a with
    | ⟨0, _⟩ => show win4_4.index t (0 : Fin 2) * 128 + 1 * j.val = j.val; omega
    | ⟨1, _⟩ => show win4_4.index t (1 : Fin 2) * 128 + 1 * k.val = k.val; omega
  · show V c main_v63 (((cfg4.win 5).blk t).view.emb (ix2 (0 : Fin 1) k)) = V c main_v63 (ix2 (0 : Fin 1) k)
    congr 1; funext a; apply Fin.ext
    match a with
    | ⟨0, _⟩ => show win4_5.index t (0 : Fin 2) * 1 + 1 * 0 = 0; omega
    | ⟨1, _⟩ => show win4_5.index t (1 : Fin 2) * 128 + 1 * k.val = k.val; omega
  · -- the block spans all 128 columns
    apply Fin.ext
    show q.val = win4_6.index t (1 : Fin 2) * 128 + 1 * q.val
    omega

/-- An index of the output array is in point t's block iff each coordinate is in the block's range on its axis. -/
private theorem mem_blk (t : Fin cfg4.N) (i : S100000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v64).slice (win4_6.rect t)).set ↔ _
  rw [View.set_slice_whole, Rect.mem_set_unit]
  exact Iff.rfl

/-- Row n lies in the block of point n / 5000: the 20 blocks tile the 100000 rows. -/
private theorem covered (i : S100000x128.Idx) :
    ∃ t : Fin cfg4.N, (cfg4.win 6).flush t = true ∧ i ∈ ((cfg4.win 6).blk t).view.set := by
  have hi0 : (i 0).val < 100000 := (i 0).isLt
  have hi1 : (i 1).val < 128 := (i 1).isLt
  obtain ⟨t, ht⟩ := index_onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- After node-update region 4 its output array holds the update of the arrays it found. -/
theorem arr4 (c : Dev nD) :
    (dat4 (F := Ideal) V c).arrAt 6 cfg4.N
      = updArr (V c main_v53) (V c main_v49) (V c main_v55) (fun k => V c main_v62 (ix2 (0 : Fin 1) k)) (V c main_v59)
          (fun k => V c main_v63 (ix2 (0 : Fin 1) k)) :=
  (dat4 (F := Ideal) V c).arrAt_eq_of_cover 6 _ (fun t _ => flushed_eq V c t) covered

end Cert.Gine.Arr

end
-- ==== Proof.KChain4.lean ====
/-
  The kernel's program from node-update region 3's exit to node-update region 4's exit (as for the first).
-/
import proofs.«411411_j85856396247548_1_alg».proof.Proof.Gen.KernelIdeal.Frame
import proofs.«411411_j85856396247548_1_alg».proof.Proof.Model
import proofs.«411411_j85856396247548_1_alg».proof.Proof.Arr4
import proofs.«411411_j85856396247548_1_alg».proof.Proof.KChain3
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-! ## Typed references: reading back what was just written is the identity -/

private theorem ofBuf_toBuf {T : BufTy} (x : StableHlo.TRef sig T) (v : T.Contents (Elt Ideal)) :
    x.ofBuf (x.toBuf v) = v := by
  obtain ⟨r, rfl, _, _⟩ := x; rfl

/-! ## The guarded pick of the source rows -/

set_option maxHeartbeats 1000000 in
private theorem take_at (c : Dev nD) :
    W12 (F := Ideal) m ρ c (Proc.devRef .tc main_v50)
      = pickGuarded (W11 (F := Ideal) m ρ c (Proc.devRef .tc main_v2)) (W11 (F := Ideal) m ρ c (Proc.devRef .tc main_v49)) := by
  show StableHlo.after hostOps4 (W11 m ρ c) (Proc.devRef .tc main_v50)
    = pickGuarded (W11 (F := Ideal) m ρ c (Proc.devRef .tc main_v2)) (W11 (F := Ideal) m ρ c (Proc.devRef .tc main_v49))
  generalize W11 (F := Ideal) m ρ c = V
  obtain ⟨s, hs⟩ : ∃ s : Cn S625000 .i32, s = V (Proc.devRef .tc main_v2) := ⟨_, rfl⟩
  obtain ⟨h, hh⟩ : ∃ h : Cn S100000x128 .f32, h = V (Proc.devRef .tc main_v49) := ⟨_, rfl⟩
  after_results_simp
  rw [← hs, ← hh]
  simp only [ofBuf_toBuf]
  have es : ∀ u : Cn S625000 .i32, (StableHlo.TRef.of main_v2 : StableHlo.TRef sig ⟨S625000, .i32⟩).ofBuf u = u := fun _ => rfl
  have eh : ∀ u : Cn S100000x128 .f32, (StableHlo.TRef.of main_v49 : StableHlo.TRef sig ⟨S100000x128, .f32⟩).ofBuf u = u := fun _ => rfl
  have eo : ∀ u : Cn S625000x128 .f32, (StableHlo.TRef.of main_v50 : StableHlo.TRef sig ⟨S625000x128, .f32⟩).toBuf u = u := fun _ => rfl
  rw [eo]
  simp only [es, eh]
  unfold pickGuarded pickPlain inRange colN wrapN
  rfl

/-! ## The aggregated messages and this layer's weights at the region's entry -/

private theorem agg_at (c : Dev nD) :
    W13 (F := Ideal) m ρ c (Proc.devRef .tc main_v53)
      = aggOf (W12 (F := Ideal) m ρ c (Proc.devRef .tc main_v4)) (W12 (F := Ideal) m ρ c (Proc.devRef .tc main_v50)) := by
  show StableHlo.after hostOps4_1 (W12 m ρ c) (Proc.devRef .tc main_v53)
    = aggOf (W12 (F := Ideal) m ρ c (Proc.devRef .tc main_v4)) (W12 (F := Ideal) m ρ c (Proc.devRef .tc main_v50))
  generalize W12 (F := Ideal) m ρ c = V
  after_results
  generalize V (Proc.devRef .tc main_v4) = d
  generalize V (Proc.devRef .tc main_v50) = p
  rfl

private theorem w1_at (c : Dev nD) :
    W13 (F := Ideal) m ρ c (Proc.devRef .tc main_v55) = mat3 (W12 (F := Ideal) m ρ c (Proc.devRef .tc main_arg6)) := by
  show StableHlo.after hostOps4_1 (W12 m ρ c) (Proc.devRef .tc main_v55) = mat3 (W12 (F := Ideal) m ρ c (Proc.devRef .tc main_arg6))
  generalize W12 (F := Ideal) m ρ c = V
  after_results
  generalize V (Proc.devRef .tc main_arg6) = a
  rfl

private theorem b1_at (c : Dev nD) :
    W13 (F := Ideal) m ρ c (Proc.devRef .tc main_v62)
      = shapeCast S1x128 (vec3 (W12 (F := Ideal) m ρ c (Proc.devRef .tc main_arg7))) shapeCasts_S128_S1x128 := by
  show StableHlo.after hostOps4_1 (W12 m ρ c) (Proc.devRef .tc main_v62)
    = shapeCast S1x128 (vec3 (W12 (F := Ideal) m ρ c (Proc.devRef .tc main_arg7))) shapeCasts_S128_S1x128
  generalize W12 (F := Ideal) m ρ c = V
  after_results
  generalize V (Proc.devRef .tc main_arg7) = a
  rfl

private theorem w2_at (c : Dev nD) :
    W13 (F := Ideal) m ρ c (Proc.devRef .tc main_v59) = mat3 (W12 (F := Ideal) m ρ c (Proc.devRef .tc main_arg8)) := by
  show StableHlo.after hostOps4_1 (W12 m ρ c) (Proc.devRef .tc main_v59) = mat3 (W12 (F := Ideal) m ρ c (Proc.devRef .tc main_arg8))
  generalize W12 (F := Ideal) m ρ c = V
  after_results
  generalize V (Proc.devRef .tc main_arg8) = a
  rfl

private theorem b2_at (c : Dev nD) :
    W13 (F := Ideal) m ρ c (Proc.devRef .tc main_v63)
      = shapeCast S1x128 (vec3 (W12 (F := Ideal) m ρ c (Proc.devRef .tc main_arg9))) shapeCasts_S128_S1x128 := by
  show StableHlo.after hostOps4_1 (W12 m ρ c) (Proc.devRef .tc main_v63)
    = shapeCast S1x128 (vec3 (W12 (F := Ideal) m ρ c (Proc.devRef .tc main_arg9))) shapeCasts_S128_S1x128
  generalize W12 (F := Ideal) m ρ c = V
  after_results
  generalize V (Proc.devRef .tc main_arg9) = a
  rfl

/-! ## The buffers the stretches leave as they were -/

private theorem h_W6 (c : Dev nD) :
    W12 (F := Ideal) m ρ c (Proc.devRef .tc main_v49) = W11 (F := Ideal) m ρ c (Proc.devRef .tc main_v49) :=
  StableHlo.after_of_forall_not_mem (b := Proc.devRef .tc main_v49) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem h_W7 (c : Dev nD) :
    W13 (F := Ideal) m ρ c (Proc.devRef .tc main_v49) = W12 (F := Ideal) m ρ c (Proc.devRef .tc main_v49) :=
  StableHlo.after_of_forall_not_mem (b := Proc.devRef .tc main_v49) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W12 (c : Dev nD) :
    W12 (F := Ideal) m ρ c (Proc.devRef .tc main_v2) = W11 (F := Ideal) m ρ c (Proc.devRef .tc main_v2) :=
  StableHlo.after_of_forall_not_mem (b := Proc.devRef .tc main_v2) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem src_W13 (c : Dev nD) :
    W13 (F := Ideal) m ρ c (Proc.devRef .tc main_v2) = W12 (F := Ideal) m ρ c (Proc.devRef .tc main_v2) :=
  StableHlo.after_of_forall_not_mem (b := Proc.devRef .tc main_v2) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W12 (c : Dev nD) :
    W12 (F := Ideal) m ρ c (Proc.devRef .tc main_v4) = W11 (F := Ideal) m ρ c (Proc.devRef .tc main_v4) :=
  StableHlo.after_of_forall_not_mem (b := Proc.devRef .tc main_v4) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem dst_W13 (c : Dev nD) :
    W13 (F := Ideal) m ρ c (Proc.devRef .tc main_v4) = W12 (F := Ideal) m ρ c (Proc.devRef .tc main_v4) :=
  StableHlo.after_of_forall_not_mem (b := Proc.devRef .tc main_v4) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W12 (c : Dev nD) :
    W12 (F := Ideal) m ρ c (Proc.devRef .tc main_arg6) = W11 (F := Ideal) m ρ c (Proc.devRef .tc main_arg6) :=
  StableHlo.after_of_forall_not_mem (b := Proc.devRef .tc main_arg6) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg6_W13 (c : Dev nD) :
    W13 (F := Ideal) m ρ c (Proc.devRef .tc main_arg6) = W12 (F := Ideal) m ρ c (Proc.devRef .tc main_arg6) :=
  StableHlo.after_of_forall_not_mem (b := Proc.devRef .tc main_arg6) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W12 (c : Dev nD) :
    W12 (F := Ideal) m ρ c (Proc.devRef .tc main_arg7) = W11 (F := Ideal) m ρ c (Proc.devRef .tc main_arg7) :=
  StableHlo.after_of_forall_not_mem (b := Proc.devRef .tc main_arg7) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg7_W13 (c : Dev nD) :
    W13 (F := Ideal) m ρ c (Proc.devRef .tc main_arg7) = W12 (F := Ideal) m ρ c (Proc.devRef .tc main_arg7) :=
  StableHlo.after_of_forall_not_mem (b := Proc.devRef .tc main_arg7) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W12 (c : Dev nD) :
    W12 (F := Ideal) m ρ c (Proc.devRef .tc main_arg8) = W11 (F := Ideal) m ρ c (Proc.devRef .tc main_arg8) :=
  StableHlo.after_of_forall_not_mem (b := Proc.devRef .tc main_arg8) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg8_W13 (c : Dev nD) :
    W13 (F := Ideal) m ρ c (Proc.devRef .tc main_arg8) = W12 (F := Ideal) m ρ c (Proc.devRef .tc main_arg8) :=
  StableHlo.after_of_forall_not_mem (b := Proc.devRef .tc main_arg8) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W12 (c : Dev nD) :
    W12 (F := Ideal) m ρ c (Proc.devRef .tc main_arg9) = W11 (F := Ideal) m ρ c (Proc.devRef .tc main_arg9) :=
  StableHlo.after_of_forall_not_mem (b := Proc.devRef .tc main_arg9) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

private theorem arg9_W13 (c : Dev nD) :
    W13 (F := Ideal) m ρ c (Proc.devRef .tc main_arg9) = W12 (F := Ideal) m ρ c (Proc.devRef .tc main_arg9) :=
  StableHlo.after_of_forall_not_mem (b := Proc.devRef .tc main_arg9) _ _ (List.forall_iff_forall_mem.mp (by
      simp only [hostOps4_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## What the later rounds read at this region's exit -/

/-- At the region's exit the source row is still the launch's. -/
theorem src_W14 (c : Dev nD) :
    W14 (F := Ideal) m ρ c (Proc.devRef .tc main_v2) = srcOf (m ((c : Thread nD τ).loc main_arg1)) :=
  (W14_of_ne m ρ c main_v2 (by decide)).trans ((src_W13 m ρ c).trans ((src_W12 m ρ c).trans (src_W11 m ρ c)))

/-- At the region's exit the destination row is still the launch's. -/
theorem dst_W14 (c : Dev nD) :
    W14 (F := Ideal) m ρ c (Proc.devRef .tc main_v4) = dstOf (m ((c : Thread nD τ).loc main_arg1)) :=
  (W14_of_ne m ρ c main_v4 (by decide)).trans ((dst_W13 m ρ c).trans ((dst_W12 m ρ c).trans (dst_W11 m ρ c)))

/-- At the region's exit the stacked array main_arg6 is as launched. -/
theorem arg6_W14 (c : Dev nD) :
    W14 (F := Ideal) m ρ c (Proc.devRef .tc main_arg6) = m ((c : Thread nD τ).loc main_arg6) :=
  (W14_of_ne m ρ c main_arg6 (by decide)).trans ((arg6_W13 m ρ c).trans ((arg6_W12 m ρ c).trans (arg6_W11 m ρ c)))

/-- At the region's exit the stacked array main_arg7 is as launched. -/
theorem arg7_W14 (c : Dev nD) :
    W14 (F := Ideal) m ρ c (Proc.devRef .tc main_arg7) = m ((c : Thread nD τ).loc main_arg7) :=
  (W14_of_ne m ρ c main_arg7 (by decide)).trans ((arg7_W13 m ρ c).trans ((arg7_W12 m ρ c).trans (arg7_W11 m ρ c)))

/-- At the region's exit the stacked array main_arg8 is as launched. -/
theorem arg8_W14 (c : Dev nD) :
    W14 (F := Ideal) m ρ c (Proc.devRef .tc main_arg8) = m ((c : Thread nD τ).loc main_arg8) :=
  (W14_of_ne m ρ c main_arg8 (by decide)).trans ((arg8_W13 m ρ c).trans ((arg8_W12 m ρ c).trans (arg8_W11 m ρ c)))

/-- At the region's exit the stacked array main_arg9 is as launched. -/
theorem arg9_W14 (c : Dev nD) :
    W14 (F := Ideal) m ρ c (Proc.devRef .tc main_arg9) = m ((c : Thread nD τ).loc main_arg9) :=
  (W14_of_ne m ρ c main_arg9 (by decide)).trans ((arg9_W13 m ρ c).trans ((arg9_W12 m ρ c).trans (arg9_W11 m ρ c)))

/-! ## The round -/

/-- At this node-update region's exit its output is one round over the previous region's output. -/
theorem kc4 (c : Dev nD) :
    W14 (F := Ideal) m ρ c (Proc.devRef .tc main_v64)
      = layerG (pickGuarded (srcOf (m ((c : Thread nD τ).loc main_arg1)))) (dstOf (m ((c : Thread nD τ).loc main_arg1))) (W11 (F := Ideal) m ρ c (Proc.devRef .tc main_v49))
          (mat3 (m ((c : Thread nD τ).loc main_arg6))) (vec3 (m ((c : Thread nD τ).loc main_arg7))) (mat3 (m ((c : Thread nD τ).loc main_arg8))) (vec3 (m ((c : Thread nD τ).loc main_arg9))) := by
  refine (W14_arr m ρ c 6).trans ((Cert.Gine.Arr.arr4 (V13 m ρ) c).trans ?_)
  have eA : V13 (F := Ideal) m ρ c main_v53
      = aggOf (dstOf (m ((c : Thread nD τ).loc main_arg1)))
          (pickGuarded (srcOf (m ((c : Thread nD τ).loc main_arg1))) (W11 (F := Ideal) m ρ c (Proc.devRef .tc main_v49))) := by
    show W13 (F := Ideal) m ρ c (Proc.devRef .tc main_v53) = _
    rw [agg_at, dst_W12, dst_W11, take_at, src_W11]
  have eH : V13 (F := Ideal) m ρ c main_v49 = W11 (F := Ideal) m ρ c (Proc.devRef .tc main_v49) :=
    (h_W7 m ρ c).trans (h_W6 m ρ c)
  have eW1 : V13 (F := Ideal) m ρ c main_v55 = mat3 (m ((c : Thread nD τ).loc main_arg6)) := by
    show W13 (F := Ideal) m ρ c (Proc.devRef .tc main_v55) = _
    rw [w1_at, arg6_W12, arg6_W11]
  have eW2 : V13 (F := Ideal) m ρ c main_v59 = mat3 (m ((c : Thread nD τ).loc main_arg8)) := by
    show W13 (F := Ideal) m ρ c (Proc.devRef .tc main_v59) = _
    rw [w2_at, arg8_W12, arg8_W11]
  have eb1 : (fun k => V13 (F := Ideal) m ρ c main_v62 (ix2 (0 : Fin 1) k)) = ent (vec3 (m ((c : Thread nD τ).loc main_arg7))) := by
    funext k
    show W13 (F := Ideal) m ρ c (Proc.devRef .tc main_v62) (ix2 (0 : Fin 1) k) = _
    rw [b1_at, arg7_W12, arg7_W11]
    exact unitRow_apply _ _ k
  have eb2 : (fun k => V13 (F := Ideal) m ρ c main_v63 (ix2 (0 : Fin 1) k)) = ent (vec3 (m ((c : Thread nD τ).loc main_arg9))) := by
    funext k
    show W13 (F := Ideal) m ρ c (Proc.devRef .tc main_v63) (ix2 (0 : Fin 1) k) = _
    rw [b2_at, arg9_W12, arg9_W11]
    exact unitRow_apply _ _ k
  rw [eA, eH, eW1, eW2, eb1, eb2]
  rfl

end Cert.Gine.KChain

end
-- ==== Proof.Arr5.lean ====
/-
  The readout region's output array.

  One grid point stages every operand whole; what it writes back is the readout of the arrays it found, and its one
  block is the whole output.
-/
import proofs.«411411_j85856396247548_1_alg».proof.Proof.Gen.KernelIdeal.Frame
import proofs.«411411_j85856396247548_1_alg».proof.Proof.Model
import proofs.«411411_j85856396247548_1_alg».proof.Proof.Body
import Idealize.ShloMosaic.Lib.Pipeline.Value

set_option maxRecDepth 16384

noncomputable section

open scoped BigOperators

namespace Cert.Gine.Arr

open Idealize.ShloMosaic Idealize.ShloMosaic.ValueIdx Idealize.ShloMosaic.TcCoe Cert.KernelIdeal Cert.KernelIdeal.Gen Cert.Gine

variable (V : (c : Dev nD) → (b : Ref sig .tc) → Buf (Elt Ideal) ((c : Thread nD τ).loc b))

/-- The zero offsets of a rank-2 rectangle, as a constant function. -/
private theorem zero2 : (![0, 0] : Fin 2 → Nat) = fun _ => 0 := funext fun a => by fin_cases a <;> rfl

/-- Every window of the readout region sits at block index (0, 0) at every point of its grid. -/
private theorem index5 : ∀ t : Fin cfg5.N,
    (win5_0.index t (0 : Fin 2) = 0 ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0) :=
  (by decide +kernel : ∀ t : Fin grid5.N, _)

/-- The pooled features' block is the array the region finds. -/
private theorem blk5_0 (c : Dev nD) (t : Fin cfg5.N) (a : Fin 512) (b : Fin 128) :
    (iblk5 V c 0 t : Vec Ideal S512x128 .f32) (ix2 a b) = (V c main_v67 : S512x128.Idx → Elt Ideal .f32) (ix2 a b) := by
  obtain ⟨⟨e0, e1⟩, -⟩ := index5 t
  unfold iblk5
  rw [View.read_apply]
  show V c main_v67 _ = V c main_v67 _
  congr 1
  funext d
  apply Fin.ext
  match d with
  | ⟨0, _⟩ => show win5_0.index t (0 : Fin 2) * 512 + 1 * a.val = a.val; rw [e0]; omega
  | ⟨1, _⟩ => show win5_0.index t (1 : Fin 2) * 128 + 1 * b.val = b.val; rw [e1]; omega

/-- The first weight matrix's block is the array the region finds. -/
private theorem blk5_1 (c : Dev nD) (t : Fin cfg5.N) (a : Fin 128) (b : Fin 64) :
    (iblk5 V c 1 t : Vec Ideal S128x64 .f32) (ix2 a b) = (V c main_arg10 : S128x64.Idx → Elt Ideal .f32) (ix2 a b) := by
  obtain ⟨-, ⟨e0, e1⟩, -⟩ := index5 t
  unfold iblk5
  rw [View.read_apply]
  show V c main_arg10 _ = V c main_arg10 _
  congr 1
  funext d
  apply Fin.ext
  match d with
  | ⟨0, _⟩ => show win5_1.index t (0 : Fin 2) * 128 + 1 * a.val = a.val; rw [e0]; omega
  | ⟨1, _⟩ => show win5_1.index t (1 : Fin 2) * 64 + 1 * b.val = b.val; rw [e1]; omega

/-- The first bias row's block is the array the region finds. -/
private theorem blk5_2 (c : Dev nD) (t : Fin cfg5.N) (b : Fin 64) :
    (iblk5 V c 2 t : Vec Ideal S1x64 .f32) (ix2 (0 : Fin 1) b) = (V c main_v68 : S1x64.Idx → Elt Ideal .f32) (ix2 (0 : Fin 1) b) := by
  obtain ⟨-, -, ⟨e0, e1⟩, -⟩ := index5 t
  unfold iblk5
  rw [View.read_apply]
  show V c main_v68 _ = V c main_v68 _
  congr 1
  funext d
  apply Fin.ext
  match d with
  | ⟨0, _⟩ => show win5_2.index t (0 : Fin 2) * 1 + 1 * (0 : Fin 1).val = (0 : Fin 1).val; rw [e0]; omega
  | ⟨1, _⟩ => show win5_2.index t (1 : Fin 2) * 64 + 1 * b.val = b.val; rw [e1]; omega

/-- The second weight matrix's block is the array the region finds. -/
private theorem blk5_3 (c : Dev nD) (t : Fin cfg5.N) (a : Fin 64) (b : Fin 32) :
    (iblk5 V c 3 t : Vec Ideal S64x32 .f32) (ix2 a b) = (V c main_arg12 : S64x32.Idx → Elt Ideal .f32) (ix2 a b) := by
  obtain ⟨-, -, -, ⟨e0, e1⟩, -⟩ := index5 t
  unfold iblk5
  rw [View.read_apply]
  show V c main_arg12 _ = V c main_arg12 _
  congr 1
  funext d
  apply Fin.ext
  match d with
  | ⟨0, _⟩ => show win5_3.index t (0 : Fin 2) * 64 + 1 * a.val = a.val; rw [e0]; omega
  | ⟨1, _⟩ => show win5_3.index t (1 : Fin 2) * 32 + 1 * b.val = b.val; rw [e1]; omega

/-- The second bias row's block is the array the region finds. -/
private theorem blk5_4 (c : Dev nD) (t : Fin cfg5.N) (b : Fin 32) :
    (iblk5 V c 4 t : Vec Ideal S1x32 .f32) (ix2 (0 : Fin 1) b) = (V c main_v69 : S1x32.Idx → Elt Ideal .f32) (ix2 (0 : Fin 1) b) := by
  obtain ⟨-, -, -, -, ⟨e0, e1⟩, -⟩ := index5 t
  unfold iblk5
  rw [View.read_apply]
  show V c main_v69 _ = V c main_v69 _
  congr 1
  funext d
  apply Fin.ext
  match d with
  | ⟨0, _⟩ => show win5_4.index t (0 : Fin 2) * 1 + 1 * (0 : Fin 1).val = (0 : Fin 1).val; rw [e0]; omega
  | ⟨1, _⟩ => show win5_4.index t (1 : Fin 2) * 32 + 1 * b.val = b.val; rw [e1]; omega

/-- The third weight matrix's block is the array the region finds. -/
private theorem blk5_5 (c : Dev nD) (t : Fin cfg5.N) (a : Fin 32) (b : Fin 1) :
    (iblk5 V c 5 t : Vec Ideal S32x1 .f32) (ix2 a b) = (V c main_arg14 : S32x1.Idx → Elt Ideal .f32) (ix2 a b) := by
  obtain ⟨-, -, -, -, -, ⟨e0, e1⟩, -⟩ := index5 t
  unfold iblk5
  rw [View.read_apply]
  show V c main_arg14 _ = V c main_arg14 _
  congr 1
  funext d
  apply Fin.ext
  match d with
  | ⟨0, _⟩ => show win5_5.index t (0 : Fin 2) * 32 + 1 * a.val = a.val; rw [e0]; omega
  | ⟨1, _⟩ => show win5_5.index t (1 : Fin 2) * 1 + 1 * b.val = b.val; rw [e1]; omega

/-- The third bias row's block is the array the region finds. -/
private theorem blk5_6 (c : Dev nD) (t : Fin cfg5.N) (b : Fin 1) :
    (iblk5 V c 6 t : Vec Ideal S1x1 .f32) (ix2 (0 : Fin 1) b) = (V c main_v70 : S1x1.Idx → Elt Ideal .f32) (ix2 (0 : Fin 1) b) := by
  obtain ⟨-, -, -, -, -, -, ⟨e0, e1⟩, -⟩ := index5 t
  unfold iblk5
  rw [View.read_apply]
  show V c main_v70 _ = V c main_v70 _
  congr 1
  funext d
  apply Fin.ext
  match d with
  | ⟨0, _⟩ => show win5_6.index t (0 : Fin 2) * 1 + 1 * (0 : Fin 1).val = (0 : Fin 1).val; rw [e0]; omega
  | ⟨1, _⟩ => show win5_6.index t (1 : Fin 2) * 1 + 1 * b.val = b.val; rw [e1]; omega

/-- What the one point writes back is its block of the readout of the arrays the region finds. -/
private theorem flushed5 (c : Dev nD) (t : Fin cfg5.N) :
    (dat5 (F := Ideal) V c).flushed 7 t = ((cfg5.win 7).blk t).view.read (Elt Ideal)
        (mlpArr (V c main_v67) (V c main_arg10) (fun k => V c main_v68 (ix2 (0 : Fin 1) k)) (V c main_arg12)
          (fun k => V c main_v69 (ix2 (0 : Fin 1) k)) (V c main_arg14) (fun k => V c main_v70 (ix2 (0 : Fin 1) k))) := by
  show (cfg5.win 7).cut (grid5.coords t) ((dat5 V c).after 7 t) = _
  rw [after5_7]
  unfold out5_7
  rw [View.canon_unit_zero zero2]
  simp only [View.ld_unit_zero (S := S512x128) zero2, View.ld_unit_zero (S := S128x64) zero2,
    View.ld_unit_zero (S := S1x64) zero2, View.ld_unit_zero (S := S64x32) zero2, View.ld_unit_zero (S := S1x32) zero2,
    View.ld_unit_zero (S := S32x1) zero2, View.ld_unit_zero (S := S1x1) zero2]
  funext j
  obtain ⟨r, q, rfl⟩ : ∃ r q, j = ix2 r q := ⟨j 0, j 1, eq_ix2 j⟩
  refine (Cert.Gine.Body.pay5_apply _ _ _ _ _ _ _ r q).trans ?_
  have h0 : rows (iblk5 V c 0 t : Vec Ideal S512x128 .f32) = rows (V c main_v67 : S512x128.Idx → Elt Ideal .f32) :=
    funext fun a => funext fun b => blk5_0 V c t a b
  have h1 : rows (iblk5 V c 1 t : Vec Ideal S128x64 .f32) = rows (V c main_arg10 : S128x64.Idx → Elt Ideal .f32) :=
    funext fun a => funext fun b => blk5_1 V c t a b
  have h2 : (fun k : Fin 64 => (iblk5 V c 2 t : Vec Ideal S1x64 .f32) (ix2 (0 : Fin 1) k))
      = fun k : Fin 64 => (V c main_v68 : S1x64.Idx → Elt Ideal .f32) (ix2 (0 : Fin 1) k) :=
    funext fun b => blk5_2 V c t b
  have h3 : rows (iblk5 V c 3 t : Vec Ideal S64x32 .f32) = rows (V c main_arg12 : S64x32.Idx → Elt Ideal .f32) :=
    funext fun a => funext fun b => blk5_3 V c t a b
  have h4 : (fun k : Fin 32 => (iblk5 V c 4 t : Vec Ideal S1x32 .f32) (ix2 (0 : Fin 1) k))
      = fun k : Fin 32 => (V c main_v69 : S1x32.Idx → Elt Ideal .f32) (ix2 (0 : Fin 1) k) :=
    funext fun b => blk5_4 V c t b
  have h5 : rows (iblk5 V c 5 t : Vec Ideal S32x1 .f32) = rows (V c main_arg14 : S32x1.Idx → Elt Ideal .f32) :=
    funext fun a => funext fun b => blk5_5 V c t a b
  have h6 : (fun k : Fin 1 => (iblk5 V c 6 t : Vec Ideal S1x1 .f32) (ix2 (0 : Fin 1) k))
      = fun k : Fin 1 => (V c main_v70 : S1x1.Idx → Elt Ideal .f32) (ix2 (0 : Fin 1) k) :=
    funext fun b => blk5_6 V c t b
  rw [h0, h1, h2, h3, h4, h5, h6]
  obtain ⟨-, -, -, -, -, -, -, e0, e1⟩ := index5 t
  have hi : ((cfg5.win 7).blk t).view.emb (ix2 r q) = (ix2 r q : S512x1.Idx) := by
    funext d
    apply Fin.ext
    match d with
    | ⟨0, _⟩ => show win5_7.index t (0 : Fin 2) * 512 + 1 * r.val = r.val; rw [e0]; omega
    | ⟨1, _⟩ => show win5_7.index t (1 : Fin 2) * 1 + 1 * q.val = q.val; rw [e1]; omega
  rw [View.read_apply]
  show _ = (mlpArr (V c main_v67) (V c main_arg10) (fun k => V c main_v68 (ix2 (0 : Fin 1) k)) (V c main_arg12)
          (fun k => V c main_v69 (ix2 (0 : Fin 1) k)) (V c main_arg14) (fun k => V c main_v70 (ix2 (0 : Fin 1) k))) (((cfg5.win 7).blk t).view.emb (ix2 r q))
  rw [hi]
  rfl

/-- The one point's block is the whole output array. -/
private theorem cover5 (i : S512x1.Idx) :
    ∃ t : Fin cfg5.N, (cfg5.win 7).flush t = true ∧ i ∈ ((cfg5.win 7).blk t).view.set := by
  obtain ⟨-, -, -, -, -, -, -, e0, e1⟩ := index5 t5_0
  refine ⟨t5_0, flush5_7 t5_0, ?_⟩
  show i ∈ ((View.whole main_v71).slice (win5_7.rect t5_0)).set
  rw [View.set_slice_whole, Rect.mem_set_unit]
  intro a
  have h0 : (i 0).val < 512 := (i 0).isLt
  have h1 : (i 1).val < 1 := (i 1).isLt
  match a with
  | ⟨0, _⟩ =>
    show win5_7.index t5_0 (0 : Fin 2) * 512 ≤ (i 0).val ∧ (i 0).val < win5_7.index t5_0 (0 : Fin 2) * 512 + 512
    rw [e0]; omega
  | ⟨1, _⟩ =>
    show win5_7.index t5_0 (1 : Fin 2) * 1 ≤ (i 1).val ∧ (i 1).val < win5_7.index t5_0 (1 : Fin 2) * 1 + 1
    rw [e1]; omega

/-- After the readout region its output array holds the readout of the arrays it found. -/
theorem arr5 (c : Dev nD) :
    (dat5 (F := Ideal) V c).arrAt 7 cfg5.N
      = mlpArr (V c main_v67) (V c main_arg10) (fun k => V c main_v68 (ix2 (0 : Fin 1) k)) (V c main_arg12)
          (fun k => V c main_v69 (ix2 (0 : Fin 1) k)) (V c main_arg14) (fun k => V c main_v70 (ix2 (0 : Fin 1) k)) :=
  (dat5 (F := Ideal) V c).arrAt_eq_of_cover 7 _ (fun t _ => flushed5 V c t) cover5

end Cert.Gine.Arr

end
-- ==== Proof.KChain5.lean ====
/-
  The kernel's program from the last node-update region's exit to the return.

  One stretch of host operations pools the node features by graph number and gives the three biases a unit row axis; the
  readout region finds those arrays and the three weight matrices as launched.
-/
import proofs.«411411_j85856396247548_1_alg».proof.Proof.Gen.KernelIdeal.Frame
import proofs.«411411_j85856396247548_1_alg».proof.Proof.Model
import proofs.«411411_j85856396247548_1_alg».proof.Proof.Arr5
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-- No operation of a host stretch writes the buffer at hand: each operation's result buffer is another name. -/
local macro "not_written" : tactic => `(tactic|
  exact List.forall_iff_forall_mem.mp (by
   simp only [hostOps1, hostOps1_1, hostOps1_2, hostOps2, hostOps2_1, hostOps3, hostOps3_1, hostOps4, hostOps4_1, hostOps5,
     List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- A buffer that no region up to the last node update holds as a window and no host stretch before the pooling writes
    is read back from that region's exit to the launch, one boundary at a time. -/
local macro "to_launch" b:ident : tactic => `(tactic|
  (refine (W14_of_ne _ _ _ $b (by decide)).trans ?_
   refine (StableHlo.after_of_forall_not_mem (b := Proc.devRef .tc $b) _ _ (by not_written)).trans ?_
   refine (StableHlo.after_of_forall_not_mem (b := Proc.devRef .tc $b) _ _ (by not_written)).trans ?_
   refine (W11_of_ne _ _ _ $b (by decide)).trans ?_
   refine (StableHlo.after_of_forall_not_mem (b := Proc.devRef .tc $b) _ _ (by not_written)).trans ?_
   refine (StableHlo.after_of_forall_not_mem (b := Proc.devRef .tc $b) _ _ (by not_written)).trans ?_
   refine (W8_of_ne _ _ _ $b (by decide)).trans ?_
   refine (StableHlo.after_of_forall_not_mem (b := Proc.devRef .tc $b) _ _ (by not_written)).trans ?_
   refine (StableHlo.after_of_forall_not_mem (b := Proc.devRef .tc $b) _ _ (by not_written)).trans ?_
   refine (W5_of_ne _ _ _ $b (by decide)).trans ?_
   refine (StableHlo.after_of_forall_not_mem (b := Proc.devRef .tc $b) _ _ (by not_written)).trans ?_
   refine (StableHlo.after_of_forall_not_mem (b := Proc.devRef .tc $b) _ _ (by not_written)).trans ?_
   refine (StableHlo.after_of_forall_not_mem (b := Proc.devRef .tc $b) _ _ (by not_written)).trans ?_
   refine (W1_of_ne _ _ _ $b (by decide)).trans ?_
   rfl))

/-! ## The arguments the readout uses are as launched when the pooling stretch starts -/

private theorem arg3_W14 (c : Dev nD) :
    W14 (F := Ideal) m ρ c (Proc.devRef .tc main_arg3) = m ((c : Thread nD τ).loc main_arg3) := by to_launch main_arg3
private theorem arg10_W14 (c : Dev nD) :
    W14 (F := Ideal) m ρ c (Proc.devRef .tc main_arg10) = m ((c : Thread nD τ).loc main_arg10) := by to_launch main_arg10
private theorem arg11_W14 (c : Dev nD) :
    W14 (F := Ideal) m ρ c (Proc.devRef .tc main_arg11) = m ((c : Thread nD τ).loc main_arg11) := by to_launch main_arg11
private theorem arg12_W14 (c : Dev nD) :
    W14 (F := Ideal) m ρ c (Proc.devRef .tc main_arg12) = m ((c : Thread nD τ).loc main_arg12) := by to_launch main_arg12
private theorem arg13_W14 (c : Dev nD) :
    W14 (F := Ideal) m ρ c (Proc.devRef .tc main_arg13) = m ((c : Thread nD τ).loc main_arg13) := by to_launch main_arg13
private theorem arg14_W14 (c : Dev nD) :
    W14 (F := Ideal) m ρ c (Proc.devRef .tc main_arg14) = m ((c : Thread nD τ).loc main_arg14) := by to_launch main_arg14
private theorem arg15_W14 (c : Dev nD) :
    W14 (F := Ideal) m ρ c (Proc.devRef .tc main_arg15) = m ((c : Thread nD τ).loc main_arg15) := by to_launch main_arg15

/-! ## The readout region's entry contents -/

/-- The pooling stretch leaves the three weight matrices alone. -/
private theorem e10 (c : Dev nD) : V15 (F := Ideal) m ρ c main_arg10 = m ((c : Thread nD τ).loc main_arg10) :=
  (StableHlo.after_of_forall_not_mem (b := Proc.devRef .tc main_arg10) _ _ (by not_written)).trans (arg10_W14 m ρ c)
private theorem e12 (c : Dev nD) : V15 (F := Ideal) m ρ c main_arg12 = m ((c : Thread nD τ).loc main_arg12) :=
  (StableHlo.after_of_forall_not_mem (b := Proc.devRef .tc main_arg12) _ _ (by not_written)).trans (arg12_W14 m ρ c)
private theorem e14 (c : Dev nD) : V15 (F := Ideal) m ρ c main_arg14 = m ((c : Thread nD τ).loc main_arg14) :=
  (StableHlo.after_of_forall_not_mem (b := Proc.devRef .tc main_arg14) _ _ (by not_written)).trans (arg14_W14 m ρ c)

/-- The pooled features: the last round's rows added into their graphs, from zero. -/
private theorem e67 (c : Dev nD) :
    V15 (F := Ideal) m ρ c main_v67
      = poolOf (m ((c : Thread nD τ).loc main_arg3)) (W14 (F := Ideal) m ρ c (Proc.devRef .tc main_v64)) := by
  show StableHlo.after hostOps5 (W14 (F := Ideal) m ρ c) (Proc.devRef .tc main_v67) = _
  after_results
  rw [arg3_W14]
  rfl

/-- The three biases with a unit row axis, read at row 0. -/
private theorem e68 (c : Dev nD) :
    (fun k => V15 (F := Ideal) m ρ c main_v68 (ix2 (0 : Fin 1) k)) = ent (m ((c : Thread nD τ).loc main_arg11)) := by
  funext k
  have e : V15 (F := Ideal) m ρ c main_v68
      = shapeCast S1x64 (W14 (F := Ideal) m ρ c (Proc.devRef .tc main_arg11)) shapeCasts_S64_S1x64 := by
    show StableHlo.after hostOps5 (W14 (F := Ideal) m ρ c) (Proc.devRef .tc main_v68) = _
    after_results
    rfl
  rw [e, arg11_W14]
  exact unitRow_apply _ _ k
private theorem e69 (c : Dev nD) :
    (fun k => V15 (F := Ideal) m ρ c main_v69 (ix2 (0 : Fin 1) k)) = ent (m ((c : Thread nD τ).loc main_arg13)) := by
  funext k
  have e : V15 (F := Ideal) m ρ c main_v69
      = shapeCast S1x32 (W14 (F := Ideal) m ρ c (Proc.devRef .tc main_arg13)) shapeCasts_S32_S1x32 := by
    show StableHlo.after hostOps5 (W14 (F := Ideal) m ρ c) (Proc.devRef .tc main_v69) = _
    after_results
    rfl
  rw [e, arg13_W14]
  exact unitRow_apply _ _ k
private theorem e70 (c : Dev nD) :
    (fun k => V15 (F := Ideal) m ρ c main_v70 (ix2 (0 : Fin 1) k)) = ent (m ((c : Thread nD τ).loc main_arg15)) := by
  funext k
  have e : V15 (F := Ideal) m ρ c main_v70
      = shapeCast S1x1 (W14 (F := Ideal) m ρ c (Proc.devRef .tc main_arg15)) shapeCasts_S1_S1x1 := by
    show StableHlo.after hostOps5 (W14 (F := Ideal) m ρ c) (Proc.devRef .tc main_v70) = _
    after_results
    rfl
  rw [e, arg15_W14]
  exact unitRow_apply _ _ k

/-- The readout of equal arrays is equal. -/
private theorem mlpArr_congr {g g' : Cn S512x128 .f32} {W1 W1' : Cn S128x64 .f32} {b1 b1' : Fin 64 → EReal}
    {W2 W2' : Cn S64x32 .f32} {b2 b2' : Fin 32 → EReal} {W3 W3' : Cn S32x1 .f32} {b3 b3' : Fin 1 → EReal}
    (hg : g = g') (h1 : W1 = W1') (hb1 : b1 = b1') (h2 : W2 = W2') (hb2 : b2 = b2') (h3 : W3 = W3') (hb3 : b3 = b3') :
    mlpArr g W1 b1 W2 b2 W3 b3 = mlpArr g' W1' b1' W2' b2' W3' b3' := by
  subst hg h1 hb1 h2 hb2 h3 hb3; rfl

/-- At the return the result buffer holds the readout of the pooled features the last round left. -/
theorem kc5 (c : Dev nD) :
    W16 (F := Ideal) m ρ c (Proc.devRef .tc main_v71)
      = mlpArr (poolOf (m ((c : Thread nD τ).loc main_arg3)) (W14 (F := Ideal) m ρ c (Proc.devRef .tc main_v64))) (m ((c : Thread nD τ).loc main_arg10)) (ent (m ((c : Thread nD τ).loc main_arg11)))
          (m ((c : Thread nD τ).loc main_arg12)) (ent (m ((c : Thread nD τ).loc main_arg13))) (m ((c : Thread nD τ).loc main_arg14)) (ent (m ((c : Thread nD τ).loc main_arg15))) :=
  -- the output window's array at the exit is what the pipeline leaves, over the entry contents read above
  (W16_arr m ρ c 7).trans ((Cert.Gine.Arr.arr5 (V15 m ρ) c).trans
    (mlpArr_congr (e67 m ρ c) (e10 m ρ c) (e68 m ρ c) (e12 m ρ c) (e69 m ρ c) (e14 m ρ c) (e70 m ρ c)))

end Cert.Gine.KChain

end
-- ==== Proof.KValue.lean ====
/-
  The kernel's result as a function of the arguments: the six pieces of the chain composed.
-/
import proofs.«411411_j85856396247548_1_alg».proof.Proof.Gen.KernelIdeal.Frame
import proofs.«411411_j85856396247548_1_alg».proof.Proof.Model
import proofs.«411411_j85856396247548_1_alg».proof.Proof.KChain0
import proofs.«411411_j85856396247548_1_alg».proof.Proof.KChain1
import proofs.«411411_j85856396247548_1_alg».proof.Proof.KChain2
import proofs.«411411_j85856396247548_1_alg».proof.Proof.KChain3
import proofs.«411411_j85856396247548_1_alg».proof.Proof.KChain4
import proofs.«411411_j85856396247548_1_alg».proof.Proof.KChain5
import Idealize.ShloMosaic.Lib.StableHlo.Run
import Idealize.ShloMosaic.Lib.Pipeline.Value
import Idealize.ShloMosaic.Lib.ValueLayout

set_option maxRecDepth 16384

noncomputable section

namespace Cert.Gine.KChain

open Idealize.ShloMosaic Idealize.ShloMosaic.ValueIdx Idealize.ShloMosaic.TcCoe Idealize.SL.Sem Cert.KernelIdeal Cert.KernelIdeal.Gen Cert.Gine

variable (m : (ℓ : Loc nD τ sig) → Buf (Elt Ideal) ℓ) (ρ : Dev nD → PrngReg)

/-- The kernel's result buffer at the return is the model with the guarded reading of the source rows over the one-hot
    embedding. -/
theorem kernel_value (c : Dev nD) :
    W16 (F := Ideal) m ρ c (Proc.devRef .tc main_v71)
      = modelG (pickGuarded (srcOf (m ((c : Thread nD τ).loc main_arg1)))) (embedArr (m ((c : Thread nD τ).loc main_arg0)) (m ((c : Thread nD τ).loc main_arg4))) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [kc5, kc4, kc3, kc2, kc1, kc0]
  rfl

end Cert.Gine.KChain

end
-- ==== Proof.RefChain.lean ====
/-
  The reference as an instance of the model.

  Stage by stage, the reference's host operations are the model's: the embedding is its own row gather; each round picks
  the source rows with the plain reading, adds them into their destinations, and applies the node update, whose two
  matrix products, bias rows and max(·, 0) read at an index are the specification's formula; the pooling and the readout
  likewise.
-/
import proofs.«411411_j85856396247548_1_alg».proof.Proof.Gen.ReferenceIdeal.Read
import proofs.«411411_j85856396247548_1_alg».proof.Proof.Model
import proofs.«411411_j85856396247548_1_alg».proof.Proof.LibMatmul
import Idealize.ShloMosaic.Lib.Pipeline.Value
import Idealize.ShloMosaic.Lib.ValueLayout

set_option maxRecDepth 16384

noncomputable section

open scoped BigOperators

namespace Cert.Gine.RefChain

open Idealize.ShloMosaic Idealize.ShloMosaic.ValueIdx Cert.Gine
open Cert.ReferenceIdeal.Read

/-! ## Reading the host's operations at an index -/

/-- A vector laid along the second axis of every row, read at (n, q), is its entry q. -/
private theorem biasRows_apply {N M : Nat} {α : Type} (h1 : (⟨1, ![M]⟩ : Shape).BroadcastsInDim ⟨2, ![1, M]⟩ ![1])
    (h2 : (⟨2, ![1, M]⟩ : Shape).BroadcastsInDim ⟨2, ![N, M]⟩ ![0, 1]) (b : (⟨1, ![M]⟩ : Shape).Idx → α) (n : Fin N)
    (q : Fin M) :
    broadcastInDim (⟨2, ![N, M]⟩ : Shape) ![0, 1] h2 (broadcastInDim (⟨2, ![1, M]⟩ : Shape) ![1] h1 b) (ix2 n q) = b (ix1 q) := by
  rw [broadcastInDim_apply _ h2 _ (ix2 n q) (ix2 (0 : Fin 1) q) (fun a => match a with
      | ⟨0, _⟩ => by show (0 : Nat) = if (1 : Nat) = 1 then 0 else n.val; rw [if_pos rfl]
      | ⟨1, _⟩ => by
          show q.val = if M = 1 then 0 else q.val
          split
          · have := q.isLt; omega
          · rfl),
    broadcastInDim_apply _ h1 b (ix2 (0 : Fin 1) q) (ix1 q) (fun a => match a with
      | ⟨0, _⟩ => by
          show q.val = if M = 1 then 0 else q.val
          split
          · have := q.isLt; omega
          · rfl)]

/-- The zero word laid over a whole array reads the zero word everywhere. -/
private theorem zeros_apply {s : Shape} (h : (⟨0, ![]⟩ : Shape).BroadcastsInDim s ![]) (i : s.Idx) :
    broadcastInDim s ![] h (constant (F := Ideal) (⟨0, ![]⟩ : Shape) .f32 0x00000000#32) i = z0 := by
  rw [broadcastInDim_apply _ h _ i ix0 (fun a => a.elim0)]
  rfl

/-- The host's product with the plain dimension numbers, read at (p, q). -/
private theorem hostDot_apply {M K N : Nat} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (p : Fin M) (q : Fin N) :
    Host.dotGeneral d none l r (ix2 p q) = ∑ k : Fin K, l (ix2 p k) * r (ix2 k q) := by
  subst hd
  exact Cert.Matmul.dotGeneral_plain_apply none .single l r p q

section Host
open Cert.ReferenceIdeal Cert.ReferenceIdeal.Gen

/-- The node update as the host spells it — add, product, bias row, max with the zero word, product, bias row — is the
    specification's update laid over all nodes. -/
private theorem upd_host (A H : FVec Ideal S100000x128 .f32) (W1 W2 : FVec Ideal S128x128 .f32) (b1 b2 : FVec Ideal S128 .f32) :
    addf (Host.dotGeneral dot_S100000x128_S128x128_S100000x128_1_0_0_1_n_n none
        (maximumf (addf (Host.dotGeneral dot_S100000x128_S128x128_S100000x128_1_0_0_1_n_n none (addf A H) W1)
            (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32))) W2)
      (broadcastInDim S100000x128 ![0, 1] bcast_S1x128_S100000x128_0_1 (broadcastInDim S1x128 ![1] bcast_S128_S1x128_1 b2))
    = updArr A H W1 (ent b1) W2 (ent b2) := by
  funext i
  obtain ⟨n, q, rfl⟩ : ∃ n q, i = ix2 n q := ⟨i 0, i 1, eq_ix2 i⟩
  rw [addf_apply, hostDot_apply dot_S100000x128_S128x128_S100000x128_1_0_0_1_n_n rfl, biasRows_apply]
  unfold updArr
  rw [arr2_ix2]
  unfold updF affF
  refine congrArg (· + b2 (ix1 q)) (Finset.sum_congr rfl fun k _ => ?_)
  rw [maximumf_apply, addf_apply, hostDot_apply dot_S100000x128_S128x128_S100000x128_1_0_0_1_n_n rfl, biasRows_apply, zeros_apply]
  rfl

/-- One round as the host spells it — pick the source rows, add them into their destinations from zero, add the
    features, update — is the model's round with the plain reading. -/
private theorem layer_host (ei : Cn S2x625000 .i32) (H : FVec Ideal S100000x128 .f32) (W1 W2 : FVec Ideal S128x128 .f32)
    (b1 b2 : FVec Ideal S128 .f32) :
    addf (Host.dotGeneral dot_S100000x128_S128x128_S100000x128_1_0_0_1_n_n none
        (maximumf (addf (Host.dotGeneral dot_S100000x128_S128x128_S100000x128_1_0_0_1_n_n none
            (addf (Host.scatterAdd (F := Ideal) scatter_S100000x128_S625000x1_S625000x128_1_0_0_1
                (broadcastInDim S100000x128 ![] bcast_S_S100000x128 (constant (F := Ideal) S_ .f32 0x00000000#32))
                (broadcastInDim S625000x1 ![0] bcast_S625000_S625000x1_0 (dstOf ei))
                (Host.gather gather_S100000x128_S625000x1_S625000x128_1_0_n_n_0_1_1128 H (colN (srcOf ei)))) H) W1)
            (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32))) W2)
      (broadcastInDim S100000x128 ![0, 1] bcast_S1x128_S100000x128_0_1 (broadcastInDim S1x128 ![1] bcast_S128_S1x128_1 b2))
    = layerG (pickPlain (srcOf ei)) (dstOf ei) H W1 b1 W2 b2 :=
  upd_host (aggOf (dstOf ei) (pickPlain (srcOf ei) H)) H W1 W2 b1 b2

end Host

/-! ## The four rounds -/

/-- Round 0 of the reference. -/
private theorem round0 (x0 : Cn Cert.KernelIdeal.S100000x1 .i32) (x1 : Cn Cert.KernelIdeal.S2x625000 .i32)
    (x4 : Cn Cert.KernelIdeal.S28x128 .f32) (x6 : Cn Cert.KernelIdeal.S4x128x128 .f32) (x7 : Cn Cert.KernelIdeal.S4x128 .f32)
    (x8 : Cn Cert.KernelIdeal.S4x128x128 .f32) (x9 : Cn Cert.KernelIdeal.S4x128 .f32) :
    val_main_v46 (F := Ideal) x0 x1 x4 x6 x7 x8 x9
      = layerG (pickPlain (srcOf x1)) (dstOf x1) (val_main_v7 (F := Ideal) x0 x4) (mat0 x6) (vec0 x7) (mat0 x8) (vec0 x9) := by
  unfold val_main_v46 val_main_v45 val_main_v44 val_main_v41 val_main_v38 val_main_call0_v0 val_main_call0_cst
    val_main_v37 val_main_v36 val_main_v35 val_main_v32 val_main_v29 val_main_v28 val_main_v27 val_main_v26
    val_main_cst val_main_v25
  generalize val_main_v7 (F := Ideal) x0 x4 = E
  exact layer_host x1 E (mat0 x6) (mat0 x8) (vec0 x7) (vec0 x9)

/-- Round 1 of the reference. -/
private theorem round1 (x0 : Cn Cert.KernelIdeal.S100000x1 .i32) (x1 : Cn Cert.KernelIdeal.S2x625000 .i32)
    (x4 : Cn Cert.KernelIdeal.S28x128 .f32) (x6 : Cn Cert.KernelIdeal.S4x128x128 .f32) (x7 : Cn Cert.KernelIdeal.S4x128 .f32)
    (x8 : Cn Cert.KernelIdeal.S4x128x128 .f32) (x9 : Cn Cert.KernelIdeal.S4x128 .f32) :
    val_main_v74 (F := Ideal) x0 x1 x4 x6 x7 x8 x9
      = layerG (pickPlain (srcOf x1)) (dstOf x1) (val_main_v46 (F := Ideal) x0 x1 x4 x6 x7 x8 x9) (mat1 x6) (vec1 x7) (mat1 x8)
          (vec1 x9) := by
  unfold val_main_v74 val_main_v73 val_main_v72 val_main_v69 val_main_v66 val_main_call1_v0 val_main_call1_cst
    val_main_v65 val_main_v64 val_main_v63 val_main_v60 val_main_v57 val_main_v56 val_main_v55 val_main_v54
    val_main_cst_7 val_main_v53
  generalize val_main_v46 (F := Ideal) x0 x1 x4 x6 x7 x8 x9 = E
  exact layer_host x1 E (mat1 x6) (mat1 x8) (vec1 x7) (vec1 x9)

/-- Round 2 of the reference. -/
private theorem round2 (x0 : Cn Cert.KernelIdeal.S100000x1 .i32) (x1 : Cn Cert.KernelIdeal.S2x625000 .i32)
    (x4 : Cn Cert.KernelIdeal.S28x128 .f32) (x6 : Cn Cert.KernelIdeal.S4x128x128 .f32) (x7 : Cn Cert.KernelIdeal.S4x128 .f32)
    (x8 : Cn Cert.KernelIdeal.S4x128x128 .f32) (x9 : Cn Cert.KernelIdeal.S4x128 .f32) :
    val_main_v102 (F := Ideal) x0 x1 x4 x6 x7 x8 x9
      = layerG (pickPlain (srcOf x1)) (dstOf x1) (val_main_v74 (F := Ideal) x0 x1 x4 x6 x7 x8 x9) (mat2 x6) (vec2 x7) (mat2 x8)
          (vec2 x9) := by
  unfold val_main_v102 val_main_v101 val_main_v100 val_main_v97 val_main_v94 val_main_call2_v0 val_main_call2_cst
    val_main_v93 val_main_v92 val_main_v91 val_main_v88 val_main_v85 val_main_v84 val_main_v83 val_main_v82
    val_main_cst_10 val_main_v81
  generalize val_main_v74 (F := Ideal) x0 x1 x4 x6 x7 x8 x9 = E
  exact layer_host x1 E (mat2 x6) (mat2 x8) (vec2 x7) (vec2 x9)

/-- Round 3 of the reference. -/
private theorem round3 (x0 : Cn Cert.KernelIdeal.S100000x1 .i32) (x1 : Cn Cert.KernelIdeal.S2x625000 .i32)
    (x4 : Cn Cert.KernelIdeal.S28x128 .f32) (x6 : Cn Cert.KernelIdeal.S4x128x128 .f32) (x7 : Cn Cert.KernelIdeal.S4x128 .f32)
    (x8 : Cn Cert.KernelIdeal.S4x128x128 .f32) (x9 : Cn Cert.KernelIdeal.S4x128 .f32) :
    val_main_v130 (F := Ideal) x0 x1 x4 x6 x7 x8 x9
      = layerG (pickPlain (srcOf x1)) (dstOf x1) (val_main_v102 (F := Ideal) x0 x1 x4 x6 x7 x8 x9) (mat3 x6) (vec3 x7) (mat3 x8)
          (vec3 x9) := by
  unfold val_main_v130 val_main_v129 val_main_v128 val_main_v125 val_main_v122 val_main_call3_v0 val_main_call3_cst
    val_main_v121 val_main_v120 val_main_v119 val_main_v116 val_main_v113 val_main_v112 val_main_v111 val_main_v110
    val_main_cst_13 val_main_v109
  generalize val_main_v102 (F := Ideal) x0 x1 x4 x6 x7 x8 x9 = E
  exact layer_host x1 E (mat3 x6) (mat3 x8) (vec3 x7) (vec3 x9)

/-- The features after the four rounds. -/
private theorem nodes_eq (x0 : Cn Cert.KernelIdeal.S100000x1 .i32) (x1 : Cn Cert.KernelIdeal.S2x625000 .i32)
    (x4 : Cn Cert.KernelIdeal.S28x128 .f32) (x6 : Cn Cert.KernelIdeal.S4x128x128 .f32) (x7 : Cn Cert.KernelIdeal.S4x128 .f32)
    (x8 : Cn Cert.KernelIdeal.S4x128x128 .f32) (x9 : Cn Cert.KernelIdeal.S4x128 .f32) :
    val_main_v130 (F := Ideal) x0 x1 x4 x6 x7 x8 x9
      = nodesG (pickPlain (srcOf x1)) (val_main_v7 (F := Ideal) x0 x4) x1 x6 x7 x8 x9 := by
  rw [round3, round2, round1, round0]
  rfl

/-! ## The readout -/

section Readout
open Cert.ReferenceIdeal Cert.ReferenceIdeal.Gen

/-- The readout as the host spells it — three products, each with its bias row, max with the zero word after the first
    two — is the specification's readout laid over all graphs. -/
private theorem mlp_host (g : FVec Ideal S512x128 .f32) (W1 : FVec Ideal S128x64 .f32) (b1 : FVec Ideal S64 .f32)
    (W2 : FVec Ideal S64x32 .f32) (b2 : FVec Ideal S32 .f32) (W3 : FVec Ideal S32x1 .f32) (b3 : FVec Ideal S1 .f32) :
    addf (Host.dotGeneral dot_S512x32_S32x1_S512x1_1_0_0_1_n_n none
        (maximumf (addf (Host.dotGeneral dot_S512x64_S64x32_S512x32_1_0_0_1_n_n none
            (maximumf (addf (Host.dotGeneral dot_S512x128_S128x64_S512x64_1_0_0_1_n_n none g W1)
                (broadcastInDim S512x64 ![0, 1] bcast_S1x64_S512x64_0_1 (broadcastInDim S1x64 ![1] bcast_S64_S1x64_1 b1)))
              (broadcastInDim S512x64 ![] bcast_S_S512x64 (constant (F := Ideal) S_ .f32 0x00000000#32))) W2)
            (broadcastInDim S512x32 ![0, 1] bcast_S1x32_S512x32_0_1 (broadcastInDim S1x32 ![1] bcast_S32_S1x32_1 b2)))
          (broadcastInDim S512x32 ![] bcast_S_S512x32 (constant (F := Ideal) S_ .f32 0x00000000#32))) W3)
      (broadcastInDim S512x1 ![0, 1] bcast_S1x1_S512x1_0_1 (broadcastInDim S1x1 ![1] bcast_S1_S1x1_1 b3))
    = mlpArr g W1 (ent b1) W2 (ent b2) W3 (ent b3) := by
  funext i
  obtain ⟨r, o, rfl⟩ : ∃ r o, i = ix2 r o := ⟨i 0, i 1, eq_ix2 i⟩
  rw [addf_apply, hostDot_apply dot_S512x32_S32x1_S512x1_1_0_0_1_n_n rfl, biasRows_apply]
  unfold mlpArr
  rw [arr2_ix2]
  unfold mlpF affF
  refine congrArg (· + b3 (ix1 o)) (Finset.sum_congr rfl fun c _ => ?_)
  rw [maximumf_apply, addf_apply, hostDot_apply dot_S512x64_S64x32_S512x32_1_0_0_1_n_n rfl, biasRows_apply, zeros_apply]
  refine congrArg (fun t => max (t + b2 (ix1 c)) z0 * W3 (ix2 c o)) (Finset.sum_congr rfl fun b _ => ?_)
  rw [maximumf_apply, addf_apply, hostDot_apply dot_S512x128_S128x64_S512x64_1_0_0_1_n_n rfl, biasRows_apply, zeros_apply]

end Readout

/-- The reference's result is the model with the plain reading of the source rows over the reference's own embedding. -/
theorem reference_value (x0 : Cn Cert.KernelIdeal.S100000x1 .i32) (x1 : Cn Cert.KernelIdeal.S2x625000 .i32)
    (x3 : Cn Cert.KernelIdeal.S100000 .i32) (x4 : Cn Cert.KernelIdeal.S28x128 .f32)
    (x6 : Cn Cert.KernelIdeal.S4x128x128 .f32) (x7 : Cn Cert.KernelIdeal.S4x128 .f32)
    (x8 : Cn Cert.KernelIdeal.S4x128x128 .f32) (x9 : Cn Cert.KernelIdeal.S4x128 .f32)
    (x10 : Cn Cert.KernelIdeal.S128x64 .f32) (x11 : Cn Cert.KernelIdeal.S64 .f32) (x12 : Cn Cert.KernelIdeal.S64x32 .f32)
    (x13 : Cn Cert.KernelIdeal.S32 .f32) (x14 : Cn Cert.KernelIdeal.S32x1 .f32) (x15 : Cn Cert.KernelIdeal.S1 .f32) :
    val_main_v147 (F := Ideal) x0 x1 x3 x4 x6 x7 x8 x9 x10 x11 x12 x13 x14 x15
      = modelG (pickPlain (srcOf x1)) (val_main_v7 (F := Ideal) x0 x4) x1 x3 x6 x7 x8 x9 x10 x11 x12 x13 x14 x15 := by
  unfold val_main_v147 val_main_v146 val_main_v145 val_main_v144 val_main_v143 val_main_call5_v0 val_main_call5_cst
    val_main_v142 val_main_v141 val_main_v140 val_main_v139 val_main_v138 val_main_call4_v0 val_main_call4_cst
    val_main_v137 val_main_v136 val_main_v135 val_main_v134 val_main_v133 val_main_v132 val_main_v131
    val_main_cst_14
  rw [nodes_eq]
  generalize val_main_v7 (F := Ideal) x0 x4 = E
  exact mlp_host (poolOf x3 (nodesG (pickPlain (srcOf x1)) E x1 x6 x7 x8 x9)) x10 x11 x12 x13 x14 x15

end Cert.Gine.RefChain

end
-- ==== Proof.LibGatherRows.lean ====
/-
  A row gather read at an index.

  The lookup table[idx] of a table of N rows and D columns at a column of R row numbers lowers to a gather whose result
  row t is the table's row at the start index idx[t, 0], read as a signed integer and clamped into [0, N − 1]; the column
  coordinate passes through.
-/
import Idealize.ShloMosaic.PureOps.Ideal
import Idealize.ShloMosaic.Lib.ValueIdx

noncomputable section

namespace Cert.GatherRows

open Idealize.ShloMosaic Idealize.ShloMosaic.ValueIdx

variable {α : Type}

/-- The dimension numbers of table[idx] for a table [N, D], start indices [R, 1] and result [R, D]. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- On the row axis the operand index is the start index of row t, read signed and clamped into [0, N − 1]. -/
theorem operandIdx_row {N D R w : Nat}
    (wf : GatherDims.WF ⟨2, ![N, D]⟩ ⟨2, ![R, 1]⟩ ⟨2, ![R, D]⟩ [1] [0] [] [0] [] 1 ![1, D])
    (idx : IVec ⟨2, ![R, 1]⟩ w) (t : Fin R) (q : Fin D) :
    ((rowDims N D R wf).operandIdx (ix2 t q) idx (0 : Fin 2)).val
      = min (idx (ix2 t (0 : Fin 1))).toInt.toNat (N - 1) := by
  show (rowDims N D R wf).start (ix2 t q) idx 0 + (rowDims N D R wf).batchCoord (ix2 t q) 0
      + (rowDims N D R wf).offCoord (ix2 t q) 0 = _
  rw [GatherDims.batchCoord_eq_zero _ _ _ List.not_mem_nil, GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 t q) ⟨List.idxOf (0 : Fin 2) (rowDims N D R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

/-- On the column axis the operand index is the result's column. -/
theorem operandIdx_col {N D R w : Nat}
    (wf : GatherDims.WF ⟨2, ![N, D]⟩ ⟨2, ![R, 1]⟩ ⟨2, ![R, D]⟩ [1] [0] [] [0] [] 1 ![1, D])
    (idx : IVec ⟨2, ![R, 1]⟩ w) (t : Fin R) (q : Fin D) :
    ((rowDims N D R wf).operandIdx (ix2 t q) idx (1 : Fin 2)).val = q.val := by
  show (rowDims N D R wf).start (ix2 t q) idx 1 + (rowDims N D R wf).batchCoord (ix2 t q) 1
      + (rowDims N D R wf).offCoord (ix2 t q) 1 = _
  rw [GatherDims.batchCoord_eq_zero _ _ _ List.not_mem_nil]
  unfold GatherDims.start
  rw [dif_neg (fun h => Nat.one_ne_zero (congrArg Fin.val (List.mem_singleton.mp h)))]
  simp only [Nat.zero_add, Nat.add_zero]
  rfl

/-- THE ROW GATHER READ AT (t, q): the table at row idx[t, 0] (signed, clamped into [0, N − 1]) and column q. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (t : Fin R) (q : Fin D) :
    Host.gather (rowDims N D R wf) x idx (ix2 t q)
      = x (ix2 (⟨min (idx (ix2 t (0 : Fin 1))).toInt.toNat (N - 1), by omega⟩ : Fin N) q) := by
  unfold Host.gather
  congr 1
  funext a
  refine Fin.ext ?_
  match a with
  | ⟨0, _⟩ => exact operandIdx_row wf idx t q
  | ⟨1, _⟩ => exact operandIdx_col wf idx t q

end Cert.GatherRows

end
-- ==== Proof.Bridge.lean ====
/-
  Where the two programs differ, and why they agree on the stated domain.

  (1) The embedding. The reference looks row x n of the table up (a negative x n wrapped by adding 28, the result clamped
  into 0 … 27); the kernel multiplies the one-hot row of x n by the table. For 0 ≤ x n < 28 nothing is wrapped or clamped,
  exactly one of the 28 one-hot weights is 1 and the others are 0, and 0 · a = 0, 1 · a = a hold for every extended real a:
  both are row x n of the table.
  (2) Picking the source rows. The guarded reading differs from the plain one only where the wrapped row number fails
  0 ≤ · ≤ 99999; for 0 ≤ s e < 100000 it never fails, so the test is 1 at every edge and the select returns the plain pick.
-/
import proofs.«411411_j85856396247548_1_alg».proof.Proof.Gen.ReferenceIdeal.Read
import proofs.«411411_j85856396247548_1_alg».proof.Proof.Model
import proofs.«411411_j85856396247548_1_alg».proof.Proof.LibMatmul
import proofs.«411411_j85856396247548_1_alg».proof.Proof.LibGatherRows
import Idealize.ShloMosaic.Lib.Pipeline.Value
import Idealize.ShloMosaic.Lib.ValueLayout

set_option maxRecDepth 16384

noncomputable section

open scoped BigOperators

namespace Cert.Gine.Bridge

open Idealize.ShloMosaic Idealize.ShloMosaic.ValueIdx Cert.KernelIdeal Cert.Gine

/-! ## Words -/

/-- The signed value of a word, by cases on its top bit. -/
private theorem toInt_cases (w : BitVec 32) :
    (w.toNat < 2147483648 ∧ w.toInt = (w.toNat : Int)) ∨ (2147483648 ≤ w.toNat ∧ w.toInt = (w.toNat : Int) - 4294967296) := by
  have hlt : w.toNat < 4294967296 := w.isLt
  rw [BitVec.toInt_eq_toNat_cond]
  by_cases h : 2 * w.toNat < 2 ^ 32
  · rw [if_pos h]; left; omega
  · rw [if_neg h]; right; omega

/-- A word of non-negative signed value below 2³¹ is the word of that value. -/
private theorem eq_ofNat_toInt (w : BitVec 32) (h0 : 0 ≤ w.toInt) : w = BitVec.ofNat 32 w.toInt.toNat := by
  apply BitVec.eq_of_toNat_eq
  rw [BitVec.toNat_ofNat]
  have hlt : w.toNat < 4294967296 := w.isLt
  rcases toInt_cases w with ⟨h1, h2⟩ | ⟨h1, h2⟩
  · rw [h2, Int.toNat_natCast, Nat.mod_eq_of_lt (by omega)]
  · omega

/-- The signed value of the word of a small number is that number. -/
private theorem toInt_ofNat_lt (k : Nat) (hk : k < 2147483648) : (BitVec.ofNat 32 k).toInt = (k : Int) := by
  have hk' : (BitVec.ofNat 32 k).toNat = k := by rw [BitVec.toNat_ofNat]; exact Nat.mod_eq_of_lt (by omega)
  rcases toInt_cases (BitVec.ofNat 32 k) with ⟨h1, h2⟩ | ⟨h1, h2⟩
  · rw [h2, hk']
  · omega

/-- A word of non-negative signed value is not below zero, so the wrap keeps it. -/
private theorem wrap_keep (w a : BitVec 32) (h0 : 0 ≤ w.toInt) :
    Scalar.select (IntOp.cmpi .slt w 0#32) a w = w := by
  have hb : IntOp.cmpi .slt w 0#32 = 0#1 := by
    unfold IntOp.cmpi
    show BitVec.ofBool (w.slt 0#32) = 0#1
    have : w.slt 0#32 = false := by
      rw [BitVec.slt, BitVec.toInt_zero]
      exact decide_eq_false (by omega)
    rw [this]; rfl
  rw [hb, select_zero]

/-- A word of non-negative signed value passes the test 0 ≤ ·. -/
private theorem sge_zero (w : BitVec 32) (h0 : 0 ≤ w.toInt) : IntOp.cmpi .sge w 0#32 = 1#1 := by
  unfold IntOp.cmpi
  show BitVec.ofBool ((0#32).sle w) = 1#1
  have : (0#32).sle w = true := by
    rw [BitVec.sle, BitVec.toInt_zero]
    exact decide_eq_true h0
  rw [this]; rfl

/-- A word of signed value below 100000 passes the test · ≤ 99999. -/
private theorem sle_top (w : BitVec 32) (h1 : w.toInt < 100000) : IntOp.cmpi .sle w 99999#32 = 1#1 := by
  unfold IntOp.cmpi
  show BitVec.ofBool (w.sle 99999#32) = 1#1
  have : w.sle 99999#32 = true := by
    rw [BitVec.sle, show (99999#32).toInt = 99999 from toInt_ofNat_lt 99999 (by omega)]
    exact decide_eq_true (by omega)
  rw [this]; rfl

/-! ## The embedding -/

open Cert.ReferenceIdeal.Read in
/-- The reference's start index of node n: the wrap of x n. -/
private theorem start_apply (x : Cn S100000x1 .i32) (n : Fin 100000) :
    val_main_v6 (F := Ideal) x (ix2 n (0 : Fin 1))
      = Scalar.select (IntOp.cmpi .slt (x (ix2 n (0 : Fin 1))) 0#32) (IntOp.addi (x (ix2 n (0 : Fin 1))) 28#32)
          (x (ix2 n (0 : Fin 1))) := by
  have hi : idx_main_v0 (idx_main_v6 (ix2 n (0 : Fin 1))) = ix2 n (0 : Fin 1) := by
    funext a
    match a with
    | ⟨0, _⟩ => exact Fin.ext (Nat.div_one _)
    | ⟨1, _⟩ => rfl
  rw [val_main_v6_apply, val_main_v5_apply, val_main_v2_apply, val_main_v4_apply, val_main_v0_apply, val_main_v1_apply,
    val_main_v3_apply, val_main_c_apply, val_main_c_0_apply, hi]

/-- The reference's table lookup read at (n, q): the table's row at the clamped start index. -/
private theorem lookup_apply (x : Cn S100000x1 .i32) (emb : Cn S28x128 .f32) (n : Fin 100000) (q : Fin 128) :
    Cert.ReferenceIdeal.Read.val_main_v7 (F := Ideal) x emb (ix2 n q)
      = emb (ix2 (⟨min (Cert.ReferenceIdeal.Read.val_main_v6 (F := Ideal) x (ix2 n (0 : Fin 1))).toInt.toNat (28 - 1),
          by omega⟩ : Fin 28) q) :=
  Cert.GatherRows.gather_rows_apply (N := 28) (D := 128) (R := 100000) (by decide)
    Cert.ReferenceIdeal.Facts₀.gather_S28x128_S100000x1_S100000x128_1_0_n_n_0_1_1128_wf emb
    (Cert.ReferenceIdeal.Read.val_main_v6 (F := Ideal) x) n q

/-- On category words in range the reference's table lookup is the one-hot product. -/
theorem embed_eq (x : Cn S100000x1 .i32) (emb : Cn S28x128 .f32)
    (hx : ∀ n : Fin 100000, 0 ≤ (x (ix2 n (0 : Fin 1))).toInt ∧ (x (ix2 n (0 : Fin 1))).toInt < 28) :
    Cert.ReferenceIdeal.Read.val_main_v7 (F := Ideal) x emb = embedArr x emb := by
  funext i
  obtain ⟨n, q, rfl⟩ : ∃ n q, i = ix2 n q := ⟨i 0, i 1, eq_ix2 i⟩
  obtain ⟨h0, h1⟩ := hx n
  have hlt : (x (ix2 n (0 : Fin 1))).toInt.toNat < 28 := by omega
  rw [lookup_apply]
  show _ = ∑ k : Fin 28, hot (x (ix2 n (0 : Fin 1))) k.val * emb (ix2 k q)
  rw [Finset.sum_eq_single (⟨(x (ix2 n (0 : Fin 1))).toInt.toNat, hlt⟩ : Fin 28)]
  · unfold hot
    rw [if_pos (eq_ofNat_toInt _ h0), one_mul]
    refine congrArg (fun r : Fin 28 => emb (ix2 r q)) (Fin.ext ?_)
    show min (Cert.ReferenceIdeal.Read.val_main_v6 (F := Ideal) x (ix2 n (0 : Fin 1))).toInt.toNat (28 - 1) = _
    rw [start_apply, wrap_keep _ _ h0]
    exact Nat.min_eq_left (by omega)
  · intro k _ hk
    unfold hot
    rw [if_neg, zero_mul]
    intro hw
    apply hk
    apply Fin.ext
    show k.val = (x (ix2 n (0 : Fin 1))).toInt.toNat
    have hk28 : k.val < 28 := k.isLt
    rw [hw, toInt_ofNat_lt k.val (by omega), Int.toNat_natCast]
  · intro hne
    exact absurd (Finset.mem_univ _) hne

/-! ## Picking the source rows -/

open Cert.KernelIdeal.Facts₀

/-- A fold by "and" from 1 over bits that are all 1 is 1. -/
private theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

/-- The column of wrapped row numbers read at edge e. -/
private theorem colN_apply (s : Cn S625000 .i32) (e : Fin 625000) :
    colN s (ix2 e (0 : Fin 1)) = wrapN s (ix1 e) := by
  unfold colN
  generalize wrapN s = y
  exact broadcastInDim_apply _ bcast_S625000_S625000x1_0 y (ix2 e (0 : Fin 1)) (ix1 e) (fun a => match a with
    | ⟨0, _⟩ => by show e.val = if (625000 : Nat) = 1 then 0 else e.val; rw [if_neg (by decide)])

/-- A wrapped row number of an edge whose row number is in range is that row number. -/
private theorem wrapN_apply (s : Cn S625000 .i32) (e : Fin 625000) (h0 : 0 ≤ (s (ix1 e)).toInt) :
    wrapN s (ix1 e) = s (ix1 e) := by
  show Scalar.select (IntOp.cmpi .slt (s (ix1 e)) 0#32) _ (s (ix1 e)) = _
  exact wrap_keep _ _ h0

/-- The range test before its reduction is 1 at every edge. -/
private theorem test_one (s : Cn S625000 .i32)
    (hs : ∀ e : Fin 625000, 0 ≤ (s (ix1 e)).toInt ∧ (s (ix1 e)).toInt < 100000) (i : S625000x1.Idx) :
    andi (cmpi .sge (colN s) (broadcastInDim S625000x1 ![] bcast_S_S625000x1 (constantI S_ 32 0#32)))
      (cmpi .sle (colN s) (broadcastInDim S625000x1 ![0, 1] bcast_S1x1_S625000x1_0_1
        (broadcastInDim S1x1 ![1] bcast_S1_S1x1_1 (constantI S1 32 99999#32)))) i = 1#1 := by
  obtain ⟨e, z, rfl⟩ : ∃ e z, i = ix2 e z := ⟨i 0, i 1, eq_ix2 i⟩
  obtain rfl : z = (0 : Fin 1) := Subsingleton.elim _ _
  obtain ⟨h0, h1⟩ := hs e
  show IntOp.andi (IntOp.cmpi .sge (colN s (ix2 e (0 : Fin 1))) 0#32) (IntOp.cmpi .sle (colN s (ix2 e (0 : Fin 1))) 99999#32) = 1#1
  rw [colN_apply, wrapN_apply s e h0, sge_zero _ h0, sle_top _ h1]
  decide

/-- The range test is 1 at every edge. -/
private theorem inRange_one (s : Cn S625000 .i32)
    (hs : ∀ e : Fin 625000, 0 ≤ (s (ix1 e)).toInt ∧ (s (ix1 e)).toInt < 100000) (j : S625000.Idx) :
    inRange s j = 1#1 := by
  unfold inRange
  rw [Host.reduce_eq_foldl]
  exact foldl_andi_ones _ (test_one s hs) _

/-- On source row numbers in range the guarded reading is the plain one. -/
theorem pick_eq (s : Cn S625000 .i32)
    (hs : ∀ e : Fin 625000, 0 ≤ (s (ix1 e)).toInt ∧ (s (ix1 e)).toInt < 100000) (h : Cn S100000x128 .f32) :
    pickGuarded s h = pickPlain s h := by
  unfold pickGuarded
  generalize pickPlain s h = P
  funext i
  have hm : broadcastInDim S625000x128 ![0] bcast_S625000_S625000x128_0 (inRange s) i = 1#1 := by
    unfold broadcastInDim
    exact inRange_one s hs _
  rw [select_apply, hm, select_one]

end Cert.Gine.Bridge

end
-- ==== Proof.PreDecode.lean ====
/-
  What the precondition says about the two integer inputs the programs index with.

  The precondition is a conjunction, evaluated to one bit; its last two conjuncts are "every x n is ≥ 0 and < 28" and
  "every entry of row 0 of edge_index is ≥ 0 and < 100000", each an all-reduction of a pointwise conjunction of two signed
  comparisons against a broadcast constant. The bit being 1 gives both, entry by entry, as signed-integer inequalities.
-/
import proofs.«411411_j85856396247548_1_alg».proof.Defs
import proofs.«411411_j85856396247548_1_alg».proof.Proof.Gen.Pre_finite_inputs
import proofs.«411411_j85856396247548_1_alg».proof.Proof.Model
import Idealize.ShloMosaic.Lib.ReduceAll
import Idealize.ShloMosaic.Lib.StableHlo.Predicate
import Idealize.ShloMosaic.Lib.Pipeline.Value

set_option maxRecDepth 16384

noncomputable section

namespace Cert.Gine.PreDecode

open Idealize.ShloMosaic Idealize.ShloMosaic.ValueIdx Idealize.ShloMosaic.TcCoe Cert.KernelIdeal Cert.Gine

/-- Under the precondition every category word is in 0 … 27 and every source row number in 0 … 99999. -/
theorem ranges (m : (ℓ : Loc nD τ sig) → Buf (Elt Ideal) ℓ) (hpre : Cert.Pre_KernelIdeal m) (c : Dev nD) :
    (∀ n : Fin 100000, 0 ≤ ((m ((c : Thread nD τ).loc main_arg0) : Cn S100000x1 .i32) (ix2 n (0 : Fin 1))).toInt
        ∧ ((m ((c : Thread nD τ).loc main_arg0) : Cn S100000x1 .i32) (ix2 n (0 : Fin 1))).toInt < 28)
    ∧ (∀ e : Fin 625000, 0 ≤ (srcOf (m ((c : Thread nD τ).loc main_arg1)) (ix1 e)).toInt
        ∧ (srcOf (m ((c : Thread nD τ).loc main_arg1)) (ix1 e)).toInt < 100000) := by
  haveI : Subsingleton Cert.Pre_finite_inputs.S_.Idx := ⟨fun a b => funext fun d => d.elim0⟩
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨h12, hE⟩ := IntOp.andi_eq_one.1 h
  obtain ⟨-, hX⟩ := IntOp.andi_eq_one.1 h12
  have z0 : (0#32 : BitVec 32).toInt = 0 := by decide
  have z28 : (28#32 : BitVec 32).toInt = 28 := by decide
  have zN : (100000#32 : BitVec 32).toInt = 100000 := by decide
  refine ⟨fun n => ?_, fun e => ?_⟩
  · obtain ⟨a, b⟩ := IntOp.andi_eq_one.1 (Host.reduce_andi_all _ _ _ _ _ hX (ix2 n (0 : Fin 1)))
    have a' := IntOp.cmpi_sge.1 a
    have b' := IntOp.cmpi_slt.1 b
    change (0#32 : BitVec 32).toInt ≤ _ at a'
    change _ < (28#32 : BitVec 32).toInt at b'
    rw [z0] at a'
    rw [z28] at b'
    exact ⟨a', b'⟩
  · obtain ⟨a, b⟩ := IntOp.andi_eq_one.1 (Host.reduce_andi_all _ _ _ _ _ hE (ix1 e))
    have a' := IntOp.cmpi_sge.1 a
    have b' := IntOp.cmpi_slt.1 b
    change (0#32 : BitVec 32).toInt ≤ _ at a'
    change _ < (100000#32 : BitVec 32).toInt at b'
    rw [z0] at a'
    rw [zN] at b'
    exact ⟨a', b'⟩

end Cert.Gine.PreDecode

end
-- ==== Proof.lean ====
/-
  The certificate for the message-passing network: the kernel's six regions against the plain jnp reference, over the
  extended reals.

  Both programs embed the node categories, run four rounds of "add the source rows into their destinations, then update
  every node by two affine maps with max(·, 0) between", pool the nodes by graph and read out through three affine maps.
  They differ in two places. The reference embeds by a table lookup, the kernel by a one-hot row times the table; and the
  kernel picks the source rows with a range test that fills a quiet NaN where the reference clamps. On the stated domain —
  category words in 0 … 27, source row numbers in 0 … 99999 — neither difference shows (Proof/Bridge.lean), and everything
  else is the same sum written twice: a kernel matrix product into a zero accumulator and the host's dot_general are both
  the plain sum over the contracted axis, a format change is the identity, and the 20 row blocks of each node region tile
  the 100000 rows. No law that needs finite entries is used.

  The three frames are the generated ones (the reference's is its generated run with the result dropped); the ideal pass
  rewrote nothing, so preserves is trivial.
-/
import proofs.«411411_j85856396247548_1_alg».proof.Defs
import proofs.«411411_j85856396247548_1_alg».proof.Proof.Gen.Kernel
import proofs.«411411_j85856396247548_1_alg».proof.Proof.Gen.Kernel.Frame
import proofs.«411411_j85856396247548_1_alg».proof.Proof.Gen.KernelIdeal
import proofs.«411411_j85856396247548_1_alg».proof.Proof.Gen.KernelIdeal.Frame
import proofs.«411411_j85856396247548_1_alg».proof.Proof.Gen.ReferenceIdeal
import proofs.«411411_j85856396247548_1_alg».proof.Proof.Gen.ReferenceIdeal.Run
import proofs.«411411_j85856396247548_1_alg».proof.Proof.Gen.ReferenceIdeal.Read
import proofs.«411411_j85856396247548_1_alg».proof.Proof.Gen.Pre_finite_inputs
import proofs.«411411_j85856396247548_1_alg».proof.Proof.KRun
import proofs.«411411_j85856396247548_1_alg».proof.Proof.KValue
import proofs.«411411_j85856396247548_1_alg».proof.Proof.RefChain
import proofs.«411411_j85856396247548_1_alg».proof.Proof.Bridge
import proofs.«411411_j85856396247548_1_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the model's value of the arguments: the kernel with the guarded pick over the one-hot
    embedding, the reference with the plain pick over its table lookup; on the stated domain the two are one function. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v71),
    Cert.KernelIdeal.GenRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hs⟩ := Cert.Gine.PreDecode.ranges m hpre c
  rw [Cert.ReferenceIdeal.Read.val_main_v147_eq, (hagree c).1, (hagree c).2.1, (hagree c).2.2.2.1, (hagree c).2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  rw [Cert.Gine.RefChain.reference_value, Cert.Gine.Bridge.embed_eq _ _ hx]
  beta_reduce
  rw [Cert.Gine.KChain.kernel_value]
  exact congrArg (fun pick => Cert.Gine.modelG pick _ _ _ _ _ _ _ _ _ _ _ _ _)
    (funext fun h => (Cert.Gine.Bridge.pick_eq _ hs h).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
